-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000 : Shape := ⟨1, ![1000000]⟩
abbrev S129x64 : Shape := ⟨2, ![129, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S129x64 : S_.BroadcastsInDim S129x64 (![] : Fin 0 → Fin S129x64.rank)
  reducesTo_S129x64_S_d0_1 : S129x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S1000000 : S_.BroadcastsInDim S1000000 (![] : Fin 0 → Fin S1000000.rank)
  reducesTo_S1000000_S_d0 : S1000000.ReducesTo [0] S_

variable [Facts]

def fn_part2 {F : FTy → Type} [FloatOps F] (main_arg3 : IVec S1000000 32) (main_v28 : IVec S_ 1) (main_v33 : IVec S1000000 1) : IVec S_ 1 :=
  let main_c_12 : IVec S_ 1 := constantI S_ 1 1#1
  let main_v34 : IVec S_ 1 := (fun x v => Host.reduce IntOp.andi x v reducesTo_S1000000_S_d0 h_S_) main_v33 main_c_12
  let main_v35 : IVec S_ 1 := andi main_v28 main_v34
  let main_c_13 : IVec S_ 32 := constantI S_ 32 0#32
  let main_v36 : IVec S1000000 32 := broadcastInDim S1000000 ![] bcast_S_S1000000 main_c_13
  let main_v37 : IVec S1000000 1 := cmpi .sge main_arg3 main_v36
  let main_c_14 : IVec S_ 32 := constantI S_ 32 100000#32
  let main_v38 : IVec S1000000 32 := broadcastInDim S1000000 ![] bcast_S_S1000000 main_c_14
  let main_v39 : IVec S1000000 1 := cmpi .slt main_arg3 main_v38
  let main_v40 : IVec S1000000 1 := andi main_v37 main_v39
  let main_c_15 : IVec S_ 1 := constantI S_ 1 1#1
  let main_v41 : IVec S_ 1 := (fun x v => Host.reduce IntOp.andi x v reducesTo_S1000000_S_d0 h_S_) main_v40 main_c_15
  let main_v42 : IVec S_ 1 := andi main_v35 main_v41
  main_v42

def fn_part1 {F : FTy → Type} [FloatOps F] (main_arg2 : IVec S1000000 32) (main_arg3 : IVec S1000000 32) (main_arg6 : FVec F S64x1 .f32) (main_arg7 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x1 .f32 := Host.absf main_arg6
  let main_cst_6 : FVec F S_ .f32 := constant S_ .f32 0x7F800000#32
  let main_v20 : FVec F S64x1 .f32 := broadcastInDim S64x1 ![] bcast_S_S64x1 main_cst_6
  let main_v21 : IVec S64x1 1 := cmpf .olt main_v19 main_v20
  let main_c_7 : IVec S_ 1 := constantI S_ 1 1#1
  let main_v22 : IVec S_ 1 := (fun x v => Host.reduce IntOp.andi x v reducesTo_S64x1_S_d0_1 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 0#32
  let main_v29 : IVec S1000000 32 := broadcastInDim S1000000 ![] bcast_S_S1000000 main_c_10
  let main_v30 : IVec S1000000 1 := cmpi .sge main_arg2 main_v29
  let main_c_11 : IVec S_ 32 := constantI S_ 32 100000#32
  let main_v31 : IVec S1000000 32 := broadcastInDim S1000000 ![] bcast_S_S1000000 main_c_11
  let main_v32 : IVec S1000000 1 := cmpi .slt main_arg2 main_v31
  let main_v33 : IVec S1000000 1 := andi main_v30 main_v32
  fn_part2 (F := F) main_arg3 main_v28 main_v33

def fn {F : FTy → Type} [FloatOps F] (main_arg0 : FVec F S100000x64 .f32) (main_arg1 : FVec F S100000x64 .f32) (main_arg2 : IVec S1000000 32) (main_arg3 : IVec S1000000 32) (main_arg4 : FVec F S129x64 .f32) (main_arg5 : FVec F S64 .f32) (main_arg6 : FVec F S64x1 .f32) (main_arg7 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S129x64 .f32 := Host.absf main_arg4
  let main_cst_2 : FVec F S_ .f32 := constant S_ .f32 0x7F800000#32
  let main_v10 : FVec F S129x64 .f32 := broadcastInDim S129x64 ![] bcast_S_S129x64 main_cst_2
  let main_v11 : IVec S129x64 1 := cmpf .olt main_v9 main_v10
  let main_c_3 : IVec S_ 1 := constantI S_ 1 1#1
  let main_v12 : IVec S_ 1 := (fun x v => Host.reduce IntOp.andi x v reducesTo_S129x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg3 main_arg6 main_arg7 main_v13 main_v16
-- ==== Kernel.lean ====
abbrev S100000x64 : Shape := ⟨2, ![100000, 64]⟩
abbrev S1000000 : Shape := ⟨1, ![1000000]⟩
abbrev S129x64 : Shape := ⟨2, ![129, 64]⟩
abbrev S64 : Shape := ⟨1, ![64]⟩
abbrev S64x1 : Shape := ⟨2, ![64, 1]⟩
abbrev S1 : Shape := ⟨1, ![1]⟩
abbrev S_ : Shape := ⟨0, ![]⟩
abbrev S1000448 : Shape := ⟨1, ![1000448]⟩
abbrev S1024 : Shape := ⟨1, ![1024]⟩
abbrev S1024x64 : Shape := ⟨2, ![1024, 64]⟩
abbrev S16 : Shape := ⟨1, ![16]⟩
abbrev S1x64 : Shape := ⟨2, ![1, 64]⟩
abbrev S1024x1 : Shape := ⟨2, ![1024, 1]⟩
abbrev S1024x129 : Shape := ⟨2, ![1024, 129]⟩
abbrev S1x1 : Shape := ⟨2, ![1, 1]⟩
abbrev S1000000x1 : Shape := ⟨2, ![1000000, 1]⟩

abbrev nBuf : Space → Nat
  | .hbm => 17
  | .vmem => 8
  | .smem => 4
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S129x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S_, .i32⟩
  | .hbm, ⟨10, _⟩ => ⟨S1000448, .i32⟩
  | .hbm, ⟨11, _⟩ => ⟨S_, .i32⟩
  | .hbm, ⟨12, _⟩ => ⟨S_, .i32⟩
  | .hbm, ⟨13, _⟩ => ⟨S1000448, .i32⟩
  | .hbm, ⟨14, _⟩ => ⟨S1000448, .f32⟩
  | .hbm, ⟨15, _⟩ => ⟨S1000000, .f32⟩
  | .hbm, ⟨16, _⟩ => ⟨S1000000x1, .f32⟩
  | .local _ .vmem, ⟨0, _⟩ => ⟨S129x64, .f32⟩
  | .local _ .vmem, ⟨1, _⟩ => ⟨S64, .f32⟩
  | .local _ .vmem, ⟨2, _⟩ => ⟨S64x1, .f32⟩
  | .local _ .vmem, ⟨3, _⟩ => ⟨S1, .f32⟩
  | .local _ .vmem, ⟨4, _⟩ => ⟨S1024, .f32⟩
  | .local _ .vmem, ⟨5, _⟩ => ⟨S1024, .f32⟩
  | .local _ .vmem, ⟨6, _⟩ => ⟨S1024x64, .f32⟩
  | .local _ .vmem, ⟨7, _⟩ => ⟨S1024x64, .f32⟩
  | .local _ .smem, ⟨0, _⟩ => ⟨S1024, .i32⟩
  | .local _ .smem, ⟨1, _⟩ => ⟨S1024, .i32⟩
  | .local _ .smem, ⟨2, _⟩ => ⟨S1024, .i32⟩
  | .local _ .smem, ⟨3, _⟩ => ⟨S1024, .i32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_c_0 : Ref sig .tc := ⟨.hbm, 11, rfl⟩
abbrev main_call1_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg6_1 : Ref sig .tc := ⟨.vmem, 5, rfl⟩
abbrev cc0_scratch0 : Ref sig .tc := ⟨.vmem, 6, rfl⟩
abbrev cc0_scratch1 : Ref sig .tc := ⟨.vmem, 7, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![977], ![false]⟩

@[reducible] def k0_t1_loop : Scf.Loop 32 :=
  let c0_i32 : BitVec 32 := 0#32
  let c64_i32 : BitVec 32 := 64#32
  let v0 : BitVec 32 := Scalar.addi c0_i32 c64_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c0_i32_21 : BitVec 32 := 0#32
  let v55 : BitVec 32 := Scalar.addi v54 c0_i32_21
  let v56 : Index := Scalar.indexCast v55
  ![v56.toNat]
def k0_off2 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c0_i32_21 : BitVec 32 := 0#32
  let v55 : BitVec 32 := Scalar.addi v54 c0_i32_21
  let c0_i32_23 : BitVec 32 := 0#32
  ![v55.toNat, 0]
def k0_off3 (v57 : BitVec 32) : Fin 2 → Nat :=
  let c0_i32_24 : BitVec 32 := 0#32
  ![v57.toNat, 0]

def k0_chk1 (v57 : BitVec 32) : Prop :=
  (∀ a, (k0_off3 v57) a + S1x64.size a ≤ S100000x64.size a)
instance k0_chk1.dec : ∀ (v57 : BitVec 32), Decidable (k0_chk1 v57) := fun v57 => decidable_of_iff' _ (Iff.of_eq (k0_chk1.eq_1 v57))
theorem k0_off3_inb : ∀ (v57 : BitVec 32) (k0_hw1 : k0_chk1 v57), ∀ a, (k0_off3 v57) a + S1x64.size a ≤ S100000x64.size a := fun v57 k0_hw1 => k0_hw1

def k0_off4 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c0_i32_21 : BitVec 32 := 0#32
  let v55 : BitVec 32 := Scalar.addi v54 c0_i32_21
  let c0_i32_26 : BitVec 32 := 0#32
  ![v55.toNat, 0]
def k0_off5 (v59 : BitVec 32) : Fin 2 → Nat :=
  let c0_i32_27 : BitVec 32 := 0#32
  ![v59.toNat, 0]

def k0_chk2 (v59 : BitVec 32) : Prop :=
  (∀ a, (k0_off5 v59) a + S1x64.size a ≤ S100000x64.size a)
instance k0_chk2.dec : ∀ (v59 : BitVec 32), Decidable (k0_chk2 v59) := fun v59 => decidable_of_iff' _ (Iff.of_eq (k0_chk2.eq_1 v59))
theorem k0_off5_inb : ∀ (v59 : BitVec 32) (k0_hw2 : k0_chk2 v59), ∀ a, (k0_off5 v59) a + S1x64.size a ≤ S100000x64.size a := fun v59 k0_hw2 => k0_hw2

def k0_off6 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c1_i32_28 : BitVec 32 := 1#32
  let v72 : BitVec 32 := Scalar.addi v54 c1_i32_28
  let v73 : Index := Scalar.indexCast v72
  ![v73.toNat]
def k0_off7 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c1_i32_28 : BitVec 32 := 1#32
  let v72 : BitVec 32 := Scalar.addi v54 c1_i32_28
  let c0_i32_30 : BitVec 32 := 0#32
  ![v72.toNat, 0]
def k0_off8 (v74 : BitVec 32) : Fin 2 → Nat :=
  let c0_i32_31 : BitVec 32 := 0#32
  ![v74.toNat, 0]

def k0_chk3 (v74 : BitVec 32) : Prop :=
  (∀ a, (k0_off8 v74) a + S1x64.size a ≤ S100000x64.size a)
instance k0_chk3.dec : ∀ (v74 : BitVec 32), Decidable (k0_chk3 v74) := fun v74 => decidable_of_iff' _ (Iff.of_eq (k0_chk3.eq_1 v74))
theorem k0_off8_inb : ∀ (v74 : BitVec 32) (k0_hw3 : k0_chk3 v74), ∀ a, (k0_off8 v74) a + S1x64.size a ≤ S100000x64.size a := fun v74 k0_hw3 => k0_hw3

def k0_off9 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c1_i32_28 : BitVec 32 := 1#32
  let v72 : BitVec 32 := Scalar.addi v54 c1_i32_28
  let c0_i32_33 : BitVec 32 := 0#32
  ![v72.toNat, 0]
def k0_off10 (v76 : BitVec 32) : Fin 2 → Nat :=
  let c0_i32_34 : BitVec 32 := 0#32
  ![v76.toNat, 0]

def k0_chk4 (v76 : BitVec 32) : Prop :=
  (∀ a, (k0_off10 v76) a + S1x64.size a ≤ S100000x64.size a)
instance k0_chk4.dec : ∀ (v76 : BitVec 32), Decidable (k0_chk4 v76) := fun v76 => decidable_of_iff' _ (Iff.of_eq (k0_chk4.eq_1 v76))
theorem k0_off10_inb : ∀ (v76 : BitVec 32) (k0_hw4 : k0_chk4 v76), ∀ a, (k0_off10 v76) a + S1x64.size a ≤ S100000x64.size a := fun v76 k0_hw4 => k0_hw4

def k0_off11 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c2_i32 : BitVec 32 := 2#32
  let v89 : BitVec 32 := Scalar.addi v54 c2_i32
  let v90 : Index := Scalar.indexCast v89
  ![v90.toNat]
def k0_off12 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c2_i32 : BitVec 32 := 2#32
  let v89 : BitVec 32 := Scalar.addi v54 c2_i32
  let c0_i32_36 : BitVec 32 := 0#32
  ![v89.toNat, 0]
def k0_off13 (v91 : BitVec 32) : Fin 2 → Nat :=
  let c0_i32_37 : BitVec 32 := 0#32
  ![v91.toNat, 0]

def k0_chk5 (v91 : BitVec 32) : Prop :=
  (∀ a, (k0_off13 v91) a + S1x64.size a ≤ S100000x64.size a)
instance k0_chk5.dec : ∀ (v91 : BitVec 32), Decidable (k0_chk5 v91) := fun v91 => decidable_of_iff' _ (Iff.of_eq (k0_chk5.eq_1 v91))
theorem k0_off13_inb : ∀ (v91 : BitVec 32) (k0_hw5 : k0_chk5 v91), ∀ a, (k0_off13 v91) a + S1x64.size a ≤ S100000x64.size a := fun v91 k0_hw5 => k0_hw5

def k0_off14 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c2_i32 : BitVec 32 := 2#32
  let v89 : BitVec 32 := Scalar.addi v54 c2_i32
  let c0_i32_39 : BitVec 32 := 0#32
  ![v89.toNat, 0]
def k0_off15 (v93 : BitVec 32) : Fin 2 → Nat :=
  let c0_i32_40 : BitVec 32 := 0#32
  ![v93.toNat, 0]

def k0_chk6 (v93 : BitVec 32) : Prop :=
  (∀ a, (k0_off15 v93) a + S1x64.size a ≤ S100000x64.size a)
instance k0_chk6.dec : ∀ (v93 : BitVec 32), Decidable (k0_chk6 v93) := fun v93 => decidable_of_iff' _ (Iff.of_eq (k0_chk6.eq_1 v93))
theorem k0_off15_inb : ∀ (v93 : BitVec 32) (k0_hw6 : k0_chk6 v93), ∀ a, (k0_off15 v93) a + S1x64.size a ≤ S100000x64.size a := fun v93 k0_hw6 => k0_hw6

def k0_off16 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c3_i32 : BitVec 32 := 3#32
  let v106 : BitVec 32 := Scalar.addi v54 c3_i32
  let v107 : Index := Scalar.indexCast v106
  ![v107.toNat]
def k0_off17 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c3_i32 : BitVec 32 := 3#32
  let v106 : BitVec 32 := Scalar.addi v54 c3_i32
  let c0_i32_42 : BitVec 32 := 0#32
  ![v106.toNat, 0]
def k0_off18 (v108 : BitVec 32) : Fin 2 → Nat :=
  let c0_i32_43 : BitVec 32 := 0#32
  ![v108.toNat, 0]

def k0_chk7 (v108 : BitVec 32) : Prop :=
  (∀ a, (k0_off18 v108) a + S1x64.size a ≤ S100000x64.size a)
instance k0_chk7.dec : ∀ (v108 : BitVec 32), Decidable (k0_chk7 v108) := fun v108 => decidable_of_iff' _ (Iff.of_eq (k0_chk7.eq_1 v108))
theorem k0_off18_inb : ∀ (v108 : BitVec 32) (k0_hw7 : k0_chk7 v108), ∀ a, (k0_off18 v108) a + S1x64.size a ≤ S100000x64.size a := fun v108 k0_hw7 => k0_hw7

def k0_off19 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c3_i32 : BitVec 32 := 3#32
  let v106 : BitVec 32 := Scalar.addi v54 c3_i32
  let c0_i32_45 : BitVec 32 := 0#32
  ![v106.toNat, 0]
def k0_off20 (v110 : BitVec 32) : Fin 2 → Nat :=
  let c0_i32_46 : BitVec 32 := 0#32
  ![v110.toNat, 0]

def k0_chk8 (v110 : BitVec 32) : Prop :=
  (∀ a, (k0_off20 v110) a + S1x64.size a ≤ S100000x64.size a)
instance k0_chk8.dec : ∀ (v110 : BitVec 32), Decidable (k0_chk8 v110) := fun v110 => decidable_of_iff' _ (Iff.of_eq (k0_chk8.eq_1 v110))
theorem k0_off20_inb : ∀ (v110 : BitVec 32) (k0_hw8 : k0_chk8 v110), ∀ a, (k0_off20 v110) a + S1x64.size a ≤ S100000x64.size a := fun v110 k0_hw8 => k0_hw8

def k0_off21 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c4_i32 : BitVec 32 := 4#32
  let v123 : BitVec 32 := Scalar.addi v54 c4_i32
  let v124 : Index := Scalar.indexCast v123
  ![v124.toNat]
def k0_off22 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c4_i32 : BitVec 32 := 4#32
  let v123 : BitVec 32 := Scalar.addi v54 c4_i32
  let c0_i32_48 : BitVec 32 := 0#32
  ![v123.toNat, 0]
def k0_off23 (v125 : BitVec 32) : Fin 2 → Nat :=
  let c0_i32_49 : BitVec 32 := 0#32
  ![v125.toNat, 0]

def k0_chk9 (v125 : BitVec 32) : Prop :=
  (∀ a, (k0_off23 v125) a + S1x64.size a ≤ S100000x64.size a)
instance k0_chk9.dec : ∀ (v125 : BitVec 32), Decidable (k0_chk9 v125) := fun v125 => decidable_of_iff' _ (Iff.of_eq (k0_chk9.eq_1 v125))
theorem k0_off23_inb : ∀ (v125 : BitVec 32) (k0_hw9 : k0_chk9 v125), ∀ a, (k0_off23 v125) a + S1x64.size a ≤ S100000x64.size a := fun v125 k0_hw9 => k0_hw9

def k0_off24 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c4_i32 : BitVec 32 := 4#32
  let v123 : BitVec 32 := Scalar.addi v54 c4_i32
  let c0_i32_51 : BitVec 32 := 0#32
  ![v123.toNat, 0]
def k0_off25 (v127 : BitVec 32) : Fin 2 → Nat :=
  let c0_i32_52 : BitVec 32 := 0#32
  ![v127.toNat, 0]

def k0_chk10 (v127 : BitVec 32) : Prop :=
  (∀ a, (k0_off25 v127) a + S1x64.size a ≤ S100000x64.size a)
instance k0_chk10.dec : ∀ (v127 : BitVec 32), Decidable (k0_chk10 v127) := fun v127 => decidable_of_iff' _ (Iff.of_eq (k0_chk10.eq_1 v127))
theorem k0_off25_inb : ∀ (v127 : BitVec 32) (k0_hw10 : k0_chk10 v127), ∀ a, (k0_off25 v127) a + S1x64.size a ≤ S100000x64.size a := fun v127 k0_hw10 => k0_hw10

def k0_off26 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c5_i32 : BitVec 32 := 5#32
  let v140 : BitVec 32 := Scalar.addi v54 c5_i32
  let v141 : Index := Scalar.indexCast v140
  ![v141.toNat]
def k0_off27 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c5_i32 : BitVec 32 := 5#32
  let v140 : BitVec 32 := Scalar.addi v54 c5_i32
  let c0_i32_54 : BitVec 32 := 0#32
  ![v140.toNat, 0]
def k0_off28 (v142 : BitVec 32) : Fin 2 → Nat :=
  let c0_i32_55 : BitVec 32 := 0#32
  ![v142.toNat, 0]

def k0_chk11 (v142 : BitVec 32) : Prop :=
  (∀ a, (k0_off28 v142) a + S1x64.size a ≤ S100000x64.size a)
instance k0_chk11.dec : ∀ (v142 : BitVec 32), Decidable (k0_chk11 v142) := fun v142 => decidable_of_iff' _ (Iff.of_eq (k0_chk11.eq_1 v142))
theorem k0_off28_inb : ∀ (v142 : BitVec 32) (k0_hw11 : k0_chk11 v142), ∀ a, (k0_off28 v142) a + S1x64.size a ≤ S100000x64.size a := fun v142 k0_hw11 => k0_hw11

def k0_off29 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c5_i32 : BitVec 32 := 5#32
  let v140 : BitVec 32 := Scalar.addi v54 c5_i32
  let c0_i32_57 : BitVec 32 := 0#32
  ![v140.toNat, 0]
def k0_off30 (v144 : BitVec 32) : Fin 2 → Nat :=
  let c0_i32_58 : BitVec 32 := 0#32
  ![v144.toNat, 0]

def k0_chk12 (v144 : BitVec 32) : Prop :=
  (∀ a, (k0_off30 v144) a + S1x64.size a ≤ S100000x64.size a)
instance k0_chk12.dec : ∀ (v144 : BitVec 32), Decidable (k0_chk12 v144) := fun v144 => decidable_of_iff' _ (Iff.of_eq (k0_chk12.eq_1 v144))
theorem k0_off30_inb : ∀ (v144 : BitVec 32) (k0_hw12 : k0_chk12 v144), ∀ a, (k0_off30 v144) a + S1x64.size a ≤ S100000x64.size a := fun v144 k0_hw12 => k0_hw12

def k0_off31 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c6_i32 : BitVec 32 := 6#32
  let v157 : BitVec 32 := Scalar.addi v54 c6_i32
  let v158 : Index := Scalar.indexCast v157
  ![v158.toNat]
def k0_off32 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c6_i32 : BitVec 32 := 6#32
  let v157 : BitVec 32 := Scalar.addi v54 c6_i32
  let c0_i32_60 : BitVec 32 := 0#32
  ![v157.toNat, 0]
def k0_off33 (v159 : BitVec 32) : Fin 2 → Nat :=
  let c0_i32_61 : BitVec 32 := 0#32
  ![v159.toNat, 0]

def k0_chk13 (v159 : BitVec 32) : Prop :=
  (∀ a, (k0_off33 v159) a + S1x64.size a ≤ S100000x64.size a)
instance k0_chk13.dec : ∀ (v159 : BitVec 32), Decidable (k0_chk13 v159) := fun v159 => decidable_of_iff' _ (Iff.of_eq (k0_chk13.eq_1 v159))
theorem k0_off33_inb : ∀ (v159 : BitVec 32) (k0_hw13 : k0_chk13 v159), ∀ a, (k0_off33 v159) a + S1x64.size a ≤ S100000x64.size a := fun v159 k0_hw13 => k0_hw13

def k0_off34 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c6_i32 : BitVec 32 := 6#32
  let v157 : BitVec 32 := Scalar.addi v54 c6_i32
  let c0_i32_63 : BitVec 32 := 0#32
  ![v157.toNat, 0]
def k0_off35 (v161 : BitVec 32) : Fin 2 → Nat :=
  let c0_i32_64 : BitVec 32 := 0#32
  ![v161.toNat, 0]

def k0_chk14 (v161 : BitVec 32) : Prop :=
  (∀ a, (k0_off35 v161) a + S1x64.size a ≤ S100000x64.size a)
instance k0_chk14.dec : ∀ (v161 : BitVec 32), Decidable (k0_chk14 v161) := fun v161 => decidable_of_iff' _ (Iff.of_eq (k0_chk14.eq_1 v161))
theorem k0_off35_inb : ∀ (v161 : BitVec 32) (k0_hw14 : k0_chk14 v161), ∀ a, (k0_off35 v161) a + S1x64.size a ≤ S100000x64.size a := fun v161 k0_hw14 => k0_hw14

def k0_off36 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c7_i32 : BitVec 32 := 7#32
  let v174 : BitVec 32 := Scalar.addi v54 c7_i32
  let v175 : Index := Scalar.indexCast v174
  ![v175.toNat]
def k0_off37 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c7_i32 : BitVec 32 := 7#32
  let v174 : BitVec 32 := Scalar.addi v54 c7_i32
  let c0_i32_66 : BitVec 32 := 0#32
  ![v174.toNat, 0]
def k0_off38 (v176 : BitVec 32) : Fin 2 → Nat :=
  let c0_i32_67 : BitVec 32 := 0#32
  ![v176.toNat, 0]

def k0_chk15 (v176 : BitVec 32) : Prop :=
  (∀ a, (k0_off38 v176) a + S1x64.size a ≤ S100000x64.size a)
instance k0_chk15.dec : ∀ (v176 : BitVec 32), Decidable (k0_chk15 v176) := fun v176 => decidable_of_iff' _ (Iff.of_eq (k0_chk15.eq_1 v176))
theorem k0_off38_inb : ∀ (v176 : BitVec 32) (k0_hw15 : k0_chk15 v176), ∀ a, (k0_off38 v176) a + S1x64.size a ≤ S100000x64.size a := fun v176 k0_hw15 => k0_hw15

def k0_off39 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c7_i32 : BitVec 32 := 7#32
  let v174 : BitVec 32 := Scalar.addi v54 c7_i32
  let c0_i32_69 : BitVec 32 := 0#32
  ![v174.toNat, 0]
def k0_off40 (v178 : BitVec 32) : Fin 2 → Nat :=
  let c0_i32_70 : BitVec 32 := 0#32
  ![v178.toNat, 0]

def k0_chk16 (v178 : BitVec 32) : Prop :=
  (∀ a, (k0_off40 v178) a + S1x64.size a ≤ S100000x64.size a)
instance k0_chk16.dec : ∀ (v178 : BitVec 32), Decidable (k0_chk16 v178) := fun v178 => decidable_of_iff' _ (Iff.of_eq (k0_chk16.eq_1 v178))
theorem k0_off40_inb : ∀ (v178 : BitVec 32) (k0_hw16 : k0_chk16 v178), ∀ a, (k0_off40 v178) a + S1x64.size a ≤ S100000x64.size a := fun v178 k0_hw16 => k0_hw16

def k0_off41 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c8_i32 : BitVec 32 := 8#32
  let v191 : BitVec 32 := Scalar.addi v54 c8_i32
  let v192 : Index := Scalar.indexCast v191
  ![v192.toNat]
def k0_off42 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c8_i32 : BitVec 32 := 8#32
  let v191 : BitVec 32 := Scalar.addi v54 c8_i32
  let c0_i32_72 : BitVec 32 := 0#32
  ![v191.toNat, 0]
def k0_off43 (v193 : BitVec 32) : Fin 2 → Nat :=
  let c0_i32_73 : BitVec 32 := 0#32
  ![v193.toNat, 0]

def k0_chk17 (v193 : BitVec 32) : Prop :=
  (∀ a, (k0_off43 v193) a + S1x64.size a ≤ S100000x64.size a)
instance k0_chk17.dec : ∀ (v193 : BitVec 32), Decidable (k0_chk17 v193) := fun v193 => decidable_of_iff' _ (Iff.of_eq (k0_chk17.eq_1 v193))
theorem k0_off43_inb : ∀ (v193 : BitVec 32) (k0_hw17 : k0_chk17 v193), ∀ a, (k0_off43 v193) a + S1x64.size a ≤ S100000x64.size a := fun v193 k0_hw17 => k0_hw17

def k0_off44 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c8_i32 : BitVec 32 := 8#32
  let v191 : BitVec 32 := Scalar.addi v54 c8_i32
  let c0_i32_75 : BitVec 32 := 0#32
  ![v191.toNat, 0]
def k0_off45 (v195 : BitVec 32) : Fin 2 → Nat :=
  let c0_i32_76 : BitVec 32 := 0#32
  ![v195.toNat, 0]

def k0_chk18 (v195 : BitVec 32) : Prop :=
  (∀ a, (k0_off45 v195) a + S1x64.size a ≤ S100000x64.size a)
instance k0_chk18.dec : ∀ (v195 : BitVec 32), Decidable (k0_chk18 v195) := fun v195 => decidable_of_iff' _ (Iff.of_eq (k0_chk18.eq_1 v195))
theorem k0_off45_inb : ∀ (v195 : BitVec 32) (k0_hw18 : k0_chk18 v195), ∀ a, (k0_off45 v195) a + S1x64.size a ≤ S100000x64.size a := fun v195 k0_hw18 => k0_hw18

def k0_off46 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c9_i32 : BitVec 32 := 9#32
  let v208 : BitVec 32 := Scalar.addi v54 c9_i32
  let v209 : Index := Scalar.indexCast v208
  ![v209.toNat]
def k0_off47 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c9_i32 : BitVec 32 := 9#32
  let v208 : BitVec 32 := Scalar.addi v54 c9_i32
  let c0_i32_78 : BitVec 32 := 0#32
  ![v208.toNat, 0]
def k0_off48 (v210 : BitVec 32) : Fin 2 → Nat :=
  let c0_i32_79 : BitVec 32 := 0#32
  ![v210.toNat, 0]

def k0_chk19 (v210 : BitVec 32) : Prop :=
  (∀ a, (k0_off48 v210) a + S1x64.size a ≤ S100000x64.size a)
instance k0_chk19.dec : ∀ (v210 : BitVec 32), Decidable (k0_chk19 v210) := fun v210 => decidable_of_iff' _ (Iff.of_eq (k0_chk19.eq_1 v210))
theorem k0_off48_inb : ∀ (v210 : BitVec 32) (k0_hw19 : k0_chk19 v210), ∀ a, (k0_off48 v210) a + S1x64.size a ≤ S100000x64.size a := fun v210 k0_hw19 => k0_hw19

def k0_off49 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c9_i32 : BitVec 32 := 9#32
  let v208 : BitVec 32 := Scalar.addi v54 c9_i32
  let c0_i32_81 : BitVec 32 := 0#32
  ![v208.toNat, 0]
def k0_off50 (v212 : BitVec 32) : Fin 2 → Nat :=
  let c0_i32_82 : BitVec 32 := 0#32
  ![v212.toNat, 0]

def k0_chk20 (v212 : BitVec 32) : Prop :=
  (∀ a, (k0_off50 v212) a + S1x64.size a ≤ S100000x64.size a)
instance k0_chk20.dec : ∀ (v212 : BitVec 32), Decidable (k0_chk20 v212) := fun v212 => decidable_of_iff' _ (Iff.of_eq (k0_chk20.eq_1 v212))
theorem k0_off50_inb : ∀ (v212 : BitVec 32) (k0_hw20 : k0_chk20 v212), ∀ a, (k0_off50 v212) a + S1x64.size a ≤ S100000x64.size a := fun v212 k0_hw20 => k0_hw20

def k0_off51 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c10_i32 : BitVec 32 := 10#32
  let v225 : BitVec 32 := Scalar.addi v54 c10_i32
  let v226 : Index := Scalar.indexCast v225
  ![v226.toNat]
def k0_off52 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c10_i32 : BitVec 32 := 10#32
  let v225 : BitVec 32 := Scalar.addi v54 c10_i32
  let c0_i32_84 : BitVec 32 := 0#32
  ![v225.toNat, 0]
def k0_off53 (v227 : BitVec 32) : Fin 2 → Nat :=
  let c0_i32_85 : BitVec 32 := 0#32
  ![v227.toNat, 0]

def k0_chk21 (v227 : BitVec 32) : Prop :=
  (∀ a, (k0_off53 v227) a + S1x64.size a ≤ S100000x64.size a)
instance k0_chk21.dec : ∀ (v227 : BitVec 32), Decidable (k0_chk21 v227) := fun v227 => decidable_of_iff' _ (Iff.of_eq (k0_chk21.eq_1 v227))
theorem k0_off53_inb : ∀ (v227 : BitVec 32) (k0_hw21 : k0_chk21 v227), ∀ a, (k0_off53 v227) a + S1x64.size a ≤ S100000x64.size a := fun v227 k0_hw21 => k0_hw21

def k0_off54 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c10_i32 : BitVec 32 := 10#32
  let v225 : BitVec 32 := Scalar.addi v54 c10_i32
  let c0_i32_87 : BitVec 32 := 0#32
  ![v225.toNat, 0]
def k0_off55 (v229 : BitVec 32) : Fin 2 → Nat :=
  let c0_i32_88 : BitVec 32 := 0#32
  ![v229.toNat, 0]

def k0_chk22 (v229 : BitVec 32) : Prop :=
  (∀ a, (k0_off55 v229) a + S1x64.size a ≤ S100000x64.size a)
instance k0_chk22.dec : ∀ (v229 : BitVec 32), Decidable (k0_chk22 v229) := fun v229 => decidable_of_iff' _ (Iff.of_eq (k0_chk22.eq_1 v229))
theorem k0_off55_inb : ∀ (v229 : BitVec 32) (k0_hw22 : k0_chk22 v229), ∀ a, (k0_off55 v229) a + S1x64.size a ≤ S100000x64.size a := fun v229 k0_hw22 => k0_hw22

def k0_off56 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c11_i32 : BitVec 32 := 11#32
  let v242 : BitVec 32 := Scalar.addi v54 c11_i32
  let v243 : Index := Scalar.indexCast v242
  ![v243.toNat]
def k0_off57 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c11_i32 : BitVec 32 := 11#32
  let v242 : BitVec 32 := Scalar.addi v54 c11_i32
  let c0_i32_90 : BitVec 32 := 0#32
  ![v242.toNat, 0]
def k0_off58 (v244 : BitVec 32) : Fin 2 → Nat :=
  let c0_i32_91 : BitVec 32 := 0#32
  ![v244.toNat, 0]

def k0_chk23 (v244 : BitVec 32) : Prop :=
  (∀ a, (k0_off58 v244) a + S1x64.size a ≤ S100000x64.size a)
instance k0_chk23.dec : ∀ (v244 : BitVec 32), Decidable (k0_chk23 v244) := fun v244 => decidable_of_iff' _ (Iff.of_eq (k0_chk23.eq_1 v244))
theorem k0_off58_inb : ∀ (v244 : BitVec 32) (k0_hw23 : k0_chk23 v244), ∀ a, (k0_off58 v244) a + S1x64.size a ≤ S100000x64.size a := fun v244 k0_hw23 => k0_hw23

def k0_off59 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c11_i32 : BitVec 32 := 11#32
  let v242 : BitVec 32 := Scalar.addi v54 c11_i32
  let c0_i32_93 : BitVec 32 := 0#32
  ![v242.toNat, 0]
def k0_off60 (v246 : BitVec 32) : Fin 2 → Nat :=
  let c0_i32_94 : BitVec 32 := 0#32
  ![v246.toNat, 0]

def k0_chk24 (v246 : BitVec 32) : Prop :=
  (∀ a, (k0_off60 v246) a + S1x64.size a ≤ S100000x64.size a)
instance k0_chk24.dec : ∀ (v246 : BitVec 32), Decidable (k0_chk24 v246) := fun v246 => decidable_of_iff' _ (Iff.of_eq (k0_chk24.eq_1 v246))
theorem k0_off60_inb : ∀ (v246 : BitVec 32) (k0_hw24 : k0_chk24 v246), ∀ a, (k0_off60 v246) a + S1x64.size a ≤ S100000x64.size a := fun v246 k0_hw24 => k0_hw24

def k0_off61 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c12_i32 : BitVec 32 := 12#32
  let v259 : BitVec 32 := Scalar.addi v54 c12_i32
  let v260 : Index := Scalar.indexCast v259
  ![v260.toNat]
def k0_off62 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c12_i32 : BitVec 32 := 12#32
  let v259 : BitVec 32 := Scalar.addi v54 c12_i32
  let c0_i32_96 : BitVec 32 := 0#32
  ![v259.toNat, 0]
def k0_off63 (v261 : BitVec 32) : Fin 2 → Nat :=
  let c0_i32_97 : BitVec 32 := 0#32
  ![v261.toNat, 0]

def k0_chk25 (v261 : BitVec 32) : Prop :=
  (∀ a, (k0_off63 v261) a + S1x64.size a ≤ S100000x64.size a)
instance k0_chk25.dec : ∀ (v261 : BitVec 32), Decidable (k0_chk25 v261) := fun v261 => decidable_of_iff' _ (Iff.of_eq (k0_chk25.eq_1 v261))
theorem k0_off63_inb : ∀ (v261 : BitVec 32) (k0_hw25 : k0_chk25 v261), ∀ a, (k0_off63 v261) a + S1x64.size a ≤ S100000x64.size a := fun v261 k0_hw25 => k0_hw25

def k0_off64 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c12_i32 : BitVec 32 := 12#32
  let v259 : BitVec 32 := Scalar.addi v54 c12_i32
  let c0_i32_99 : BitVec 32 := 0#32
  ![v259.toNat, 0]
def k0_off65 (v263 : BitVec 32) : Fin 2 → Nat :=
  let c0_i32_100 : BitVec 32 := 0#32
  ![v263.toNat, 0]

def k0_chk26 (v263 : BitVec 32) : Prop :=
  (∀ a, (k0_off65 v263) a + S1x64.size a ≤ S100000x64.size a)
instance k0_chk26.dec : ∀ (v263 : BitVec 32), Decidable (k0_chk26 v263) := fun v263 => decidable_of_iff' _ (Iff.of_eq (k0_chk26.eq_1 v263))
theorem k0_off65_inb : ∀ (v263 : BitVec 32) (k0_hw26 : k0_chk26 v263), ∀ a, (k0_off65 v263) a + S1x64.size a ≤ S100000x64.size a := fun v263 k0_hw26 => k0_hw26

def k0_off66 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c13_i32 : BitVec 32 := 13#32
  let v276 : BitVec 32 := Scalar.addi v54 c13_i32
  let v277 : Index := Scalar.indexCast v276
  ![v277.toNat]
def k0_off67 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c13_i32 : BitVec 32 := 13#32
  let v276 : BitVec 32 := Scalar.addi v54 c13_i32
  let c0_i32_102 : BitVec 32 := 0#32
  ![v276.toNat, 0]
def k0_off68 (v278 : BitVec 32) : Fin 2 → Nat :=
  let c0_i32_103 : BitVec 32 := 0#32
  ![v278.toNat, 0]

def k0_chk27 (v278 : BitVec 32) : Prop :=
  (∀ a, (k0_off68 v278) a + S1x64.size a ≤ S100000x64.size a)
instance k0_chk27.dec : ∀ (v278 : BitVec 32), Decidable (k0_chk27 v278) := fun v278 => decidable_of_iff' _ (Iff.of_eq (k0_chk27.eq_1 v278))
theorem k0_off68_inb : ∀ (v278 : BitVec 32) (k0_hw27 : k0_chk27 v278), ∀ a, (k0_off68 v278) a + S1x64.size a ≤ S100000x64.size a := fun v278 k0_hw27 => k0_hw27

def k0_off69 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c13_i32 : BitVec 32 := 13#32
  let v276 : BitVec 32 := Scalar.addi v54 c13_i32
  let c0_i32_105 : BitVec 32 := 0#32
  ![v276.toNat, 0]
def k0_off70 (v280 : BitVec 32) : Fin 2 → Nat :=
  let c0_i32_106 : BitVec 32 := 0#32
  ![v280.toNat, 0]

def k0_chk28 (v280 : BitVec 32) : Prop :=
  (∀ a, (k0_off70 v280) a + S1x64.size a ≤ S100000x64.size a)
instance k0_chk28.dec : ∀ (v280 : BitVec 32), Decidable (k0_chk28 v280) := fun v280 => decidable_of_iff' _ (Iff.of_eq (k0_chk28.eq_1 v280))
theorem k0_off70_inb : ∀ (v280 : BitVec 32) (k0_hw28 : k0_chk28 v280), ∀ a, (k0_off70 v280) a + S1x64.size a ≤ S100000x64.size a := fun v280 k0_hw28 => k0_hw28

def k0_off71 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c14_i32 : BitVec 32 := 14#32
  let v293 : BitVec 32 := Scalar.addi v54 c14_i32
  let v294 : Index := Scalar.indexCast v293
  ![v294.toNat]
def k0_off72 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c14_i32 : BitVec 32 := 14#32
  let v293 : BitVec 32 := Scalar.addi v54 c14_i32
  let c0_i32_108 : BitVec 32 := 0#32
  ![v293.toNat, 0]
def k0_off73 (v295 : BitVec 32) : Fin 2 → Nat :=
  let c0_i32_109 : BitVec 32 := 0#32
  ![v295.toNat, 0]

def k0_chk29 (v295 : BitVec 32) : Prop :=
  (∀ a, (k0_off73 v295) a + S1x64.size a ≤ S100000x64.size a)
instance k0_chk29.dec : ∀ (v295 : BitVec 32), Decidable (k0_chk29 v295) := fun v295 => decidable_of_iff' _ (Iff.of_eq (k0_chk29.eq_1 v295))
theorem k0_off73_inb : ∀ (v295 : BitVec 32) (k0_hw29 : k0_chk29 v295), ∀ a, (k0_off73 v295) a + S1x64.size a ≤ S100000x64.size a := fun v295 k0_hw29 => k0_hw29

def k0_off74 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c14_i32 : BitVec 32 := 14#32
  let v293 : BitVec 32 := Scalar.addi v54 c14_i32
  let c0_i32_111 : BitVec 32 := 0#32
  ![v293.toNat, 0]
def k0_off75 (v297 : BitVec 32) : Fin 2 → Nat :=
  let c0_i32_112 : BitVec 32 := 0#32
  ![v297.toNat, 0]

def k0_chk30 (v297 : BitVec 32) : Prop :=
  (∀ a, (k0_off75 v297) a + S1x64.size a ≤ S100000x64.size a)
instance k0_chk30.dec : ∀ (v297 : BitVec 32), Decidable (k0_chk30 v297) := fun v297 => decidable_of_iff' _ (Iff.of_eq (k0_chk30.eq_1 v297))
theorem k0_off75_inb : ∀ (v297 : BitVec 32) (k0_hw30 : k0_chk30 v297), ∀ a, (k0_off75 v297) a + S1x64.size a ≤ S100000x64.size a := fun v297 k0_hw30 => k0_hw30

def k0_off76 (k0_t1 : Fin k0_t1_loop.trips) : Fin 1 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c15_i32 : BitVec 32 := 15#32
  let v310 : BitVec 32 := Scalar.addi v54 c15_i32
  let v311 : Index := Scalar.indexCast v310
  ![v311.toNat]
def k0_off77 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c15_i32 : BitVec 32 := 15#32
  let v310 : BitVec 32 := Scalar.addi v54 c15_i32
  let c0_i32_114 : BitVec 32 := 0#32
  ![v310.toNat, 0]
def k0_off78 (v312 : BitVec 32) : Fin 2 → Nat :=
  let c0_i32_115 : BitVec 32 := 0#32
  ![v312.toNat, 0]

def k0_chk31 (v312 : BitVec 32) : Prop :=
  (∀ a, (k0_off78 v312) a + S1x64.size a ≤ S100000x64.size a)
instance k0_chk31.dec : ∀ (v312 : BitVec 32), Decidable (k0_chk31 v312) := fun v312 => decidable_of_iff' _ (Iff.of_eq (k0_chk31.eq_1 v312))
theorem k0_off78_inb : ∀ (v312 : BitVec 32) (k0_hw31 : k0_chk31 v312), ∀ a, (k0_off78 v312) a + S1x64.size a ≤ S100000x64.size a := fun v312 k0_hw31 => k0_hw31

def k0_off79 (k0_t1 : Fin k0_t1_loop.trips) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let c15_i32 : BitVec 32 := 15#32
  let v310 : BitVec 32 := Scalar.addi v54 c15_i32
  let c0_i32_117 : BitVec 32 := 0#32
  ![v310.toNat, 0]
def k0_off80 (v314 : BitVec 32) : Fin 2 → Nat :=
  let c0_i32_118 : BitVec 32 := 0#32
  ![v314.toNat, 0]

def k0_chk32 (v314 : BitVec 32) : Prop :=
  (∀ a, (k0_off80 v314) a + S1x64.size a ≤ S100000x64.size a)
instance k0_chk32.dec : ∀ (v314 : BitVec 32), Decidable (k0_chk32 v314) := fun v314 => decidable_of_iff' _ (Iff.of_eq (k0_chk32.eq_1 v314))
theorem k0_off80_inb : ∀ (v314 : BitVec 32) (k0_hw32 : k0_chk32 v314), ∀ a, (k0_off80 v314) a + S1x64.size a ≤ S100000x64.size a := fun v314 k0_hw32 => k0_hw32

def k0_off81 (k0_t1 : Fin k0_t1_loop.trips) (c0_i32_119 : BitVec 32) : Fin 2 → Nat :=
  let c0_i32 : BitVec 32 := 0#32
  let c1_i32 : BitVec 32 := 1#32
  let arg14 : BitVec 32 := Scf.iv c0_i32 c1_i32 k0_t1
  let c16_i32 : BitVec 32 := 16#32
  let v54 : BitVec 32 := Scalar.muli arg14 c16_i32
  let v327 : BitVec 32 := Scalar.addi v54 c0_i32_119
  let c0_i32_122 : BitVec 32 := 0#32
  ![v327.toNat, 0]
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  ![arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  ![arg0.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S129x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  pads_S1000000_S1000448_04480 : S1000000.Pads (![0] : Fin 1 → Nat) ![448] ![0] S1000448
  h_S_ : 0 < S_.numel
  numel1_S1 : S1.numel = 1
  inb_S16_S1_0 : ∀ a, (![0] : Fin 1 → Nat) a + S1.size a ≤ S16.size a
  squeezes_S1_S_ : S1.Squeezes S_
  squeezes_S1x64_S64 : S1x64.Squeezes S64
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S100000x64_S1x64_0_0 : ∀ a, (![0, 0] : Fin 2 → Nat) a + S1x64.size a ≤ S100000x64.size a
  inb_S1024x64_S1024x64_0_0 : ∀ a, (![0, 0] : Fin 2 → Nat) a + S1024x64.size a ≤ S1024x64.size a
  h_S1024x64 : 0 < S1024x64.numel
  reduces_S1024x64_S1024 : S1024x64.Reduces [1] S1024
  shapeCasts_S1024_S1024x1 : S1024.ShapeCasts S1024x1
  broadcasts_S1024x1_S1024x64 : S1024x1.Broadcasts S1024x64
  concatenates_S1024x64_S1024x64_S1024x1_S1024x129_d1 : Shape.Concatenates [S1024x64, S1024x64, S1024x1] S1024x129 1
  bitsLt_bf16_f32 : FTy.bits .bf16 < FTy.bits .f32
  inb_S129x64_S129x64_0_0 : ∀ a, (![0, 0] : Fin 2 → Nat) a + S129x64.size a ≤ S129x64.size a
  h_S129x64 : 0 < S129x64.numel
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S1024x1 : S1x1.Broadcasts S1024x1
  shapeCasts_S1024x1_S1024 : S1024x1.ShapeCasts S1024
  inb_S1024_S1024_0 : ∀ a, (![0] : Fin 1 → Nat) a + S1024.size a ≤ S1024.size a
  h_S1024 : 0 < S1024.numel
  slices_S1000448_S1000000_0 : S1000448.Slices ![0] S1000000
  shapeCasts_S1000000_S1000000x1 : S1000000.ShapeCasts S1000000x1
  dot_S1024x129_S129x64_S1024x64_1_0_0_1_n_n_wf : DotDims.WF S1024x129 S129x64 S1024x64 [1] [0] [0] [1] [] []
  dot_S1024x64_S64x1_S1024x1_1_0_0_1_n_n_wf : DotDims.WF S1024x64 S64x1 S1024x1 [1] [0] [0] [1] [] []
  hcc0_scratch2 : 10 + S16.numel ≤ 42
  hcc0_scratch3 : 26 + S16.numel ≤ 42
  hrank0 : 0 < grid0.rank
  k0_t1_ok : k0_t1_loop.OK
  k0_off1_inb : ∀ k0_t1 : Fin k0_t1_loop.trips, ∀ a, (k0_off1 k0_t1) a + S1.size a ≤ S1024.size a
  k0_off2_inb : ∀ k0_t1 : Fin k0_t1_loop.trips, ∀ a, (k0_off2 k0_t1) a + S1x64.size a ≤ S1024x64.size a
  k0_off4_inb : ∀ k0_t1 : Fin k0_t1_loop.trips, ∀ a, (k0_off4 k0_t1) a + S1x64.size a ≤ S1024x64.size a
  k0_off6_inb : ∀ k0_t1 : Fin k0_t1_loop.trips, ∀ a, (k0_off6 k0_t1) a + S1.size a ≤ S1024.size a
  k0_off7_inb : ∀ k0_t1 : Fin k0_t1_loop.trips, ∀ a, (k0_off7 k0_t1) a + S1x64.size a ≤ S1024x64.size a
  k0_off9_inb : ∀ k0_t1 : Fin k0_t1_loop.trips, ∀ a, (k0_off9 k0_t1) a + S1x64.size a ≤ S1024x64.size a
  k0_off11_inb : ∀ k0_t1 : Fin k0_t1_loop.trips, ∀ a, (k0_off11 k0_t1) a + S1.size a ≤ S1024.size a
  k0_off12_inb : ∀ k0_t1 : Fin k0_t1_loop.trips, ∀ a, (k0_off12 k0_t1) a + S1x64.size a ≤ S1024x64.size a
  k0_off14_inb : ∀ k0_t1 : Fin k0_t1_loop.trips, ∀ a, (k0_off14 k0_t1) a + S1x64.size a ≤ S1024x64.size a
  k0_off16_inb : ∀ k0_t1 : Fin k0_t1_loop.trips, ∀ a, (k0_off16 k0_t1) a + S1.size a ≤ S1024.size a
  k0_off17_inb : ∀ k0_t1 : Fin k0_t1_loop.trips, ∀ a, (k0_off17 k0_t1) a + S1x64.size a ≤ S1024x64.size a
  k0_off19_inb : ∀ k0_t1 : Fin k0_t1_loop.trips, ∀ a, (k0_off19 k0_t1) a + S1x64.size a ≤ S1024x64.size a
  k0_off21_inb : ∀ k0_t1 : Fin k0_t1_loop.trips, ∀ a, (k0_off21 k0_t1) a + S1.size a ≤ S1024.size a
  k0_off22_inb : ∀ k0_t1 : Fin k0_t1_loop.trips, ∀ a, (k0_off22 k0_t1) a + S1x64.size a ≤ S1024x64.size a
  k0_off24_inb : ∀ k0_t1 : Fin k0_t1_loop.trips, ∀ a, (k0_off24 k0_t1) a + S1x64.size a ≤ S1024x64.size a
  k0_off26_inb : ∀ k0_t1 : Fin k0_t1_loop.trips, ∀ a, (k0_off26 k0_t1) a + S1.size a ≤ S1024.size a
  k0_off27_inb : ∀ k0_t1 : Fin k0_t1_loop.trips, ∀ a, (k0_off27 k0_t1) a + S1x64.size a ≤ S1024x64.size a
  k0_off29_inb : ∀ k0_t1 : Fin k0_t1_loop.trips, ∀ a, (k0_off29 k0_t1) a + S1x64.size a ≤ S1024x64.size a
  k0_off31_inb : ∀ k0_t1 : Fin k0_t1_loop.trips, ∀ a, (k0_off31 k0_t1) a + S1.size a ≤ S1024.size a
  k0_off32_inb : ∀ k0_t1 : Fin k0_t1_loop.trips, ∀ a, (k0_off32 k0_t1) a + S1x64.size a ≤ S1024x64.size a
  k0_off34_inb : ∀ k0_t1 : Fin k0_t1_loop.trips, ∀ a, (k0_off34 k0_t1) a + S1x64.size a ≤ S1024x64.size a
  k0_off36_inb : ∀ k0_t1 : Fin k0_t1_loop.trips, ∀ a, (k0_off36 k0_t1) a + S1.size a ≤ S1024.size a
  k0_off37_inb : ∀ k0_t1 : Fin k0_t1_loop.trips, ∀ a, (k0_off37 k0_t1) a + S1x64.size a ≤ S1024x64.size a
  k0_off39_inb : ∀ k0_t1 : Fin k0_t1_loop.trips, ∀ a, (k0_off39 k0_t1) a + S1x64.size a ≤ S1024x64.size a
  k0_off41_inb : ∀ k0_t1 : Fin k0_t1_loop.trips, ∀ a, (k0_off41 k0_t1) a + S1.size a ≤ S1024.size a
  k0_off42_inb : ∀ k0_t1 : Fin k0_t1_loop.trips, ∀ a, (k0_off42 k0_t1) a + S1x64.size a ≤ S1024x64.size a
  k0_off44_inb : ∀ k0_t1 : Fin k0_t1_loop.trips, ∀ a, (k0_off44 k0_t1) a + S1x64.size a ≤ S1024x64.size a
  k0_off46_inb : ∀ k0_t1 : Fin k0_t1_loop.trips, ∀ a, (k0_off46 k0_t1) a + S1.size a ≤ S1024.size a
  k0_off47_inb : ∀ k0_t1 : Fin k0_t1_loop.trips, ∀ a, (k0_off47 k0_t1) a + S1x64.size a ≤ S1024x64.size a
  k0_off49_inb : ∀ k0_t1 : Fin k0_t1_loop.trips, ∀ a, (k0_off49 k0_t1) a + S1x64.size a ≤ S1024x64.size a
  k0_off51_inb : ∀ k0_t1 : Fin k0_t1_loop.trips, ∀ a, (k0_off51 k0_t1) a + S1.size a ≤ S1024.size a
  k0_off52_inb : ∀ k0_t1 : Fin k0_t1_loop.trips, ∀ a, (k0_off52 k0_t1) a + S1x64.size a ≤ S1024x64.size a
  k0_off54_inb : ∀ k0_t1 : Fin k0_t1_loop.trips, ∀ a, (k0_off54 k0_t1) a + S1x64.size a ≤ S1024x64.size a
  k0_off56_inb : ∀ k0_t1 : Fin k0_t1_loop.trips, ∀ a, (k0_off56 k0_t1) a + S1.size a ≤ S1024.size a
  k0_off57_inb : ∀ k0_t1 : Fin k0_t1_loop.trips, ∀ a, (k0_off57 k0_t1) a + S1x64.size a ≤ S1024x64.size a
  k0_off59_inb : ∀ k0_t1 : Fin k0_t1_loop.trips, ∀ a, (k0_off59 k0_t1) a + S1x64.size a ≤ S1024x64.size a
  k0_off61_inb : ∀ k0_t1 : Fin k0_t1_loop.trips, ∀ a, (k0_off61 k0_t1) a + S1.size a ≤ S1024.size a
  k0_off62_inb : ∀ k0_t1 : Fin k0_t1_loop.trips, ∀ a, (k0_off62 k0_t1) a + S1x64.size a ≤ S1024x64.size a
  k0_off64_inb : ∀ k0_t1 : Fin k0_t1_loop.trips, ∀ a, (k0_off64 k0_t1) a + S1x64.size a ≤ S1024x64.size a
  k0_off66_inb : ∀ k0_t1 : Fin k0_t1_loop.trips, ∀ a, (k0_off66 k0_t1) a + S1.size a ≤ S1024.size a
  k0_off67_inb : ∀ k0_t1 : Fin k0_t1_loop.trips, ∀ a, (k0_off67 k0_t1) a + S1x64.size a ≤ S1024x64.size a
  k0_off69_inb : ∀ k0_t1 : Fin k0_t1_loop.trips, ∀ a, (k0_off69 k0_t1) a + S1x64.size a ≤ S1024x64.size a
  k0_off71_inb : ∀ k0_t1 : Fin k0_t1_loop.trips, ∀ a, (k0_off71 k0_t1) a + S1.size a ≤ S1024.size a
  k0_off72_inb : ∀ k0_t1 : Fin k0_t1_loop.trips, ∀ a, (k0_off72 k0_t1) a + S1x64.size a ≤ S1024x64.size a
  k0_off74_inb : ∀ k0_t1 : Fin k0_t1_loop.trips, ∀ a, (k0_off74 k0_t1) a + S1x64.size a ≤ S1024x64.size a
  k0_off76_inb : ∀ k0_t1 : Fin k0_t1_loop.trips, ∀ a, (k0_off76 k0_t1) a + S1.size a ≤ S1024.size a
  k0_off77_inb : ∀ k0_t1 : Fin k0_t1_loop.trips, ∀ a, (k0_off77 k0_t1) a + S1x64.size a ≤ S1024x64.size a
  k0_off79_inb : ∀ k0_t1 : Fin k0_t1_loop.trips, ∀ a, (k0_off79 k0_t1) a + S1x64.size a ≤ S1024x64.size a
  k0_off81_inb : ∀ k0_t1 : Fin k0_t1_loop.trips, ∀ (r : Fin 16), ∀ a, (k0_off81 k0_t1 (BitVec.ofNat 32 r.val)) a + S1x64.size a ≤ S1024x64.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S1000448.size a
  hwx0_0 : ∀ i : grid0.Coords, EltTy.bits .i32 = 32 ∨ (Rect.block (s := S1000448) S1024.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1000448.size a
  hwx0_1 : ∀ i : grid0.Coords, EltTy.bits .i32 = 32 ∨ (Rect.block (s := S1000448) S1024.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_4 i = cc0_transform_4 i'
  hinb0_2 : ∀ (i : grid0.Coords) a, (cc0_transform_4 i a + 1) * S129x64.size a ≤ S129x64.size a
  hwx0_2 : ∀ i : grid0.Coords, EltTy.bits .f32 = 32 ∨ (Rect.block (s := S129x64) S129x64.size (cc0_transform_4 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_5 i = cc0_transform_5 i'
  hinb0_3 : ∀ (i : grid0.Coords) a, (cc0_transform_5 i a + 1) * S64.size a ≤ S64.size a
  hwx0_3 : ∀ i : grid0.Coords, EltTy.bits .f32 = 32 ∨ (Rect.block (s := S64) S64.size (cc0_transform_5 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_6 i = cc0_transform_6 i'
  hinb0_4 : ∀ (i : grid0.Coords) a, (cc0_transform_6 i a + 1) * S64x1.size a ≤ S64x1.size a
  hwx0_4 : ∀ i : grid0.Coords, EltTy.bits .f32 = 32 ∨ (Rect.block (s := S64x1) S64x1.size (cc0_transform_6 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_7 i = cc0_transform_7 i'
  hinb0_5 : ∀ (i : grid0.Coords) a, (cc0_transform_7 i a + 1) * S1.size a ≤ S1.size a
  hwx0_5 : ∀ i : grid0.Coords, EltTy.bits .f32 = 32 ∨ (Rect.block (s := S1) S1.size (cc0_transform_7 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_8 i = cc0_transform_8 i'
  hinb0_6 : ∀ (i : grid0.Coords) a, (cc0_transform_8 i a + 1) * S1024.size a ≤ S1000448.size a
  hwx0_6 : ∀ i : grid0.Coords, EltTy.bits .f32 = 32 ∨ (Rect.block (s := S1000448) S1024.size (cc0_transform_8 i) (hinb0_6 i)).WholeWords (EltTy.packing .f32)

variable [Facts₀]

abbrev cc0_scratch2 : DmaSems sig S16 := SemArray.consecutive 10 S16 hcc0_scratch2
abbrev cc0_scratch3 : DmaSems sig S16 := SemArray.consecutive 26 S16 hcc0_scratch3
def dot_S1024x129_S129x64_S1024x64_1_0_0_1_n_n : DotDims S1024x129 S129x64 S1024x64 where
  lhsContracting := [1]
  rhsContracting := [0]
  lhsNonContracting := [0]
  rhsNonContracting := [1]
  lhsBatch := []
  rhsBatch := []
  wf := dot_S1024x129_S129x64_S1024x64_1_0_0_1_n_n_wf
def dot_S1024x64_S64x1_S1024x1_1_0_0_1_n_n : DotDims S1024x64 S64x1 S1024x1 where
  lhsContracting := [1]
  rhsContracting := [0]
  lhsNonContracting := [0]
  rhsNonContracting := [1]
  lhsBatch := []
  rhsBatch := []
  wf := dot_S1024x64_S64x1_S1024x1_1_0_0_1_n_n_wf

abbrev win0_0 : Pipeline.Window sig grid0 :=
  Pipeline.Window.ofSpec (Memref.whole main_v0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S129x64.size cc0_transform_4 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_5 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S64x1.size cc0_transform_6 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S1.size cc0_transform_7 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1024.size cc0_transform_8 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x64 : Shape := ⟨2, ![100000, 64]⟩
abbrev S1000000 : Shape := ⟨1, ![1000000]⟩
abbrev S129x64 : Shape := ⟨2, ![129, 64]⟩
abbrev S64 : Shape := ⟨1, ![64]⟩
abbrev S64x1 : Shape := ⟨2, ![64, 1]⟩
abbrev S1 : Shape := ⟨1, ![1]⟩
abbrev S_ : Shape := ⟨0, ![]⟩
abbrev S1000000x1 : Shape := ⟨2, ![1000000, 1]⟩
abbrev S1000000x64 : Shape := ⟨2, ![1000000, 64]⟩
abbrev S1000000x129 : Shape := ⟨2, ![1000000, 129]⟩
abbrev S1x64 : Shape := ⟨2, ![1, 64]⟩
abbrev S1x1 : Shape := ⟨2, ![1, 1]⟩

abbrev nBuf : Space → Nat
  | .hbm => 83
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S1000000, .i32⟩
  | .hbm, ⟨3, _⟩ => ⟨S1000000, .i32⟩
  | .hbm, ⟨4, _⟩ => ⟨S129x64, .f32⟩
  | .hbm, ⟨5, _⟩ => ⟨S64, .f32⟩
  | .hbm, ⟨6, _⟩ => ⟨S64x1, .f32⟩
  | .hbm, ⟨7, _⟩ => ⟨S1, .f32⟩
  | .hbm, ⟨8, _⟩ => ⟨S_, .i32⟩
  | .hbm, ⟨9, _⟩ => ⟨S1000000, .i32⟩
  | .hbm, ⟨10, _⟩ => ⟨S1000000, .i1⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S1000000, .i32⟩
  | .hbm, ⟨15, _⟩ => ⟨S1000000x1, .i32⟩
  | .hbm, ⟨16, _⟩ => ⟨S1000000x64, .f32⟩
  | .hbm, ⟨17, _⟩ => ⟨S_, .i32⟩
  | .hbm, ⟨18, _⟩ => ⟨S1000000, .i32⟩
  | .hbm, ⟨19, _⟩ => ⟨S1000000, .i1⟩
  | .hbm, ⟨20, _⟩ => ⟨S_, .i32⟩
  | .hbm, ⟨21, _⟩ => ⟨S1000000, .i32⟩
  | .hbm, ⟨22, _⟩ => ⟨S1000000, .i32⟩
  | .hbm, ⟨23, _⟩ => ⟨S1000000, .i32⟩
  | .hbm, ⟨24, _⟩ => ⟨S1000000x1, .i32⟩
  | .hbm, ⟨25, _⟩ => ⟨S1000000x64, .f32⟩
  | .hbm, ⟨26, _⟩ => ⟨S1000000x64, .f32⟩
  | .hbm, ⟨27, _⟩ => ⟨S_, .f32⟩
  | .hbm, ⟨28, _⟩ => ⟨S1000000, .f32⟩
  | .hbm, ⟨29, _⟩ => ⟨S1000000x1, .f32⟩
  | .hbm, ⟨30, _⟩ => ⟨S1000000x1, .f32⟩
  | .hbm, ⟨31, _⟩ => ⟨S_, .f32⟩
  | .hbm, ⟨32, _⟩ => ⟨S1000000x1, .f32⟩
  | .hbm, ⟨33, _⟩ => ⟨S1000000x1, .f32⟩
  | .hbm, ⟨34, _⟩ => ⟨S1000000x64, .f32⟩
  | .hbm, ⟨35, _⟩ => ⟨S1000000x64, .f32⟩
  | .hbm, ⟨36, _⟩ => ⟨S1000000x64, .f32⟩
  | .hbm, ⟨37, _⟩ => ⟨S_, .f32⟩
  | .hbm, ⟨38, _⟩ => ⟨S1000000, .f32⟩
  | .hbm, ⟨39, _⟩ => ⟨S1000000x1, .f32⟩
  | .hbm, ⟨40, _⟩ => ⟨S1000000x1, .f32⟩
  | .hbm, ⟨41, _⟩ => ⟨S_, .f32⟩
  | .hbm, ⟨42, _⟩ => ⟨S1000000x1, .f32⟩
  | .hbm, ⟨43, _⟩ => ⟨S1000000x1, .f32⟩
  | .hbm, ⟨44, _⟩ => ⟨S1000000x64, .f32⟩
  | .hbm, ⟨45, _⟩ => ⟨S1000000x64, .f32⟩
  | .hbm, ⟨46, _⟩ => ⟨S1000000x64, .f32⟩
  | .hbm, ⟨47, _⟩ => ⟨S_, .f32⟩
  | .hbm, ⟨48, _⟩ => ⟨S1000000, .f32⟩
  | .hbm, ⟨49, _⟩ => ⟨S1000000, .f32⟩
  | .hbm, ⟨50, _⟩ => ⟨S1000000x64, .f32⟩
  | .hbm, ⟨51, _⟩ => ⟨S_, .f32⟩
  | .hbm, ⟨52, _⟩ => ⟨S1000000, .f32⟩
  | .hbm, ⟨53, _⟩ => ⟨S1000000, .f32⟩
  | .hbm, ⟨54, _⟩ => ⟨S1000000, .f32⟩
  | .hbm, ⟨55, _⟩ => ⟨S_, .f32⟩
  | .hbm, ⟨56, _⟩ => ⟨S1000000, .f32⟩
  | .hbm, ⟨57, _⟩ => ⟨S1000000, .f32⟩
  | .hbm, ⟨58, _⟩ => ⟨S1000000x64, .f32⟩
  | .hbm, ⟨59, _⟩ => ⟨S_, .f32⟩
  | .hbm, ⟨60, _⟩ => ⟨S1000000, .f32⟩
  | .hbm, ⟨61, _⟩ => ⟨S1000000, .f32⟩
  | .hbm, ⟨62, _⟩ => ⟨S1000000x1, .f32⟩
  | .hbm, ⟨63, _⟩ => ⟨S1000000x129, .f32⟩
  | .hbm, ⟨64, _⟩ => ⟨S1000000x64, .f32⟩
  | .hbm, ⟨65, _⟩ => ⟨S1x64, .f32⟩
  | .hbm, ⟨66, _⟩ => ⟨S1000000x64, .f32⟩
  | .hbm, ⟨67, _⟩ => ⟨S1000000x64, .f32⟩
  | .hbm, ⟨68, _⟩ => ⟨S_, .f32⟩
  | .hbm, ⟨69, _⟩ => ⟨S1000000x64, .f32⟩
  | .hbm, ⟨70, _⟩ => ⟨S1000000x64, .f32⟩
  | .hbm, ⟨71, _⟩ => ⟨S1000000x1, .f32⟩
  | .hbm, ⟨72, _⟩ => ⟨S1x1, .f32⟩
  | .hbm, ⟨73, _⟩ => ⟨S1000000x1, .f32⟩
  | .hbm, ⟨74, _⟩ => ⟨S1000000x1, .f32⟩
  | .hbm, ⟨75, _⟩ => ⟨S1000000x1, .f32⟩
  | .hbm, ⟨76, _⟩ => ⟨S1000000x1, .f32⟩
  | .hbm, ⟨77, _⟩ => ⟨S_, .f32⟩
  | .hbm, ⟨78, _⟩ => ⟨S1000000x1, .f32⟩
  | .hbm, ⟨79, _⟩ => ⟨S1000000x1, .f32⟩
  | .hbm, ⟨80, _⟩ => ⟨S_, .f32⟩
  | .hbm, ⟨81, _⟩ => ⟨S1000000x1, .f32⟩
  | .hbm, ⟨82, _⟩ => ⟨S1000000x1, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_v0 : Ref sig .tc := ⟨.hbm, 26, rfl⟩
abbrev main_call0_cst : Ref sig .tc := ⟨.hbm, 27, rfl⟩
abbrev main_call0_v1 : Ref sig .tc := ⟨.hbm, 28, rfl⟩
abbrev main_call0_v2 : Ref sig .tc := ⟨.hbm, 29, rfl⟩
abbrev main_v14 : Ref sig .tc := ⟨.hbm, 30, rfl⟩
abbrev main_cst : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call1_v0 : Ref sig .tc := ⟨.hbm, 36, rfl⟩
abbrev main_call1_cst : Ref sig .tc := ⟨.hbm, 37, rfl⟩
abbrev main_call1_v1 : Ref sig .tc := ⟨.hbm, 38, rfl⟩
abbrev main_call1_v2 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call2_v0 : Ref sig .tc := ⟨.hbm, 46, rfl⟩
abbrev main_call2_cst : Ref sig .tc := ⟨.hbm, 47, rfl⟩
abbrev main_call2_v1 : Ref sig .tc := ⟨.hbm, 48, rfl⟩
abbrev main_v24 : Ref sig .tc := ⟨.hbm, 49, rfl⟩
abbrev main_call3_v0 : Ref sig .tc := ⟨.hbm, 50, rfl⟩
abbrev main_call3_cst : Ref sig .tc := ⟨.hbm, 51, rfl⟩
abbrev main_call3_v1 : Ref sig .tc := ⟨.hbm, 52, rfl⟩
abbrev main_v25 : Ref sig .tc := ⟨.hbm, 53, rfl⟩
abbrev main_v26 : Ref sig .tc := ⟨.hbm, 54, rfl⟩
abbrev main_cst_4 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_cst_5 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_call4_cst : Ref sig .tc := ⟨.hbm, 68, rfl⟩
abbrev main_call4_v0 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_6 : Ref sig .tc := ⟨.hbm, 77, rfl⟩
abbrev main_v45 : Ref sig .tc := ⟨.hbm, 78, rfl⟩
abbrev main_v46 : Ref sig .tc := ⟨.hbm, 79, rfl⟩
abbrev main_cst_7 : Ref sig .tc := ⟨.hbm, 80, rfl⟩
abbrev main_v47 : Ref sig .tc := ⟨.hbm, 81, rfl⟩
abbrev main_v48 : Ref sig .tc := ⟨.hbm, 82, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  reducesTo_S1000000x64_S1000000_d1 : S1000000x64.ReducesTo [1] S1000000
  h_S_ : 0 < S_.numel
  bcast_S_S1000000x1 : S_.BroadcastsInDim S1000000x1 (![] : Fin 0 → Fin S1000000x1.rank)
  bcast_S1000000x1_S1000000x64_0_1 : S1000000x1.BroadcastsInDim S1000000x64 (![0, 1] : Fin 2 → Fin S1000000x64.rank)
  concatenates_S1000000x64_S1000000x64_S1000000x1_S1000000x129_d1 : Shape.Concatenates [S1000000x64, S1000000x64, S1000000x1] S1000000x129 1
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S1_S1x1_1 : S1.BroadcastsInDim S1x1 (![1] : Fin 1 → Fin S1x1.rank)
  bcast_S1x1_S1000000x1_0_1 : S1x1.BroadcastsInDim S1000000x1 (![0, 1] : Fin 2 → Fin S1000000x1.rank)
  gather_S100000x64_S1000000x1_S1000000x64_1_0_n_n_0_1_164_wf : GatherDims.WF S100000x64 S1000000x1 S1000000x64 [1] [0] [] [0] [] 1 ![1, 64]
  dot_S1000000x129_S129x64_S1000000x64_1_0_0_1_n_n_wf : DotDims.WF S1000000x129 S129x64 S1000000x64 [1] [0] [0] [1] [] []
  dot_S1000000x64_S64x1_S1000000x1_1_0_0_1_n_n_wf : DotDims.WF S1000000x64 S64x1 S1000000x1 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x129_S129x64_S1000000x64_1_0_0_1_n_n : DotDims S1000000x129 S129x64 S1000000x64 where
  lhsContracting := [1]
  rhsContracting := [0]
  lhsNonContracting := [0]
  rhsNonContracting := [1]
  lhsBatch := []
  rhsBatch := []
  wf := dot_S1000000x129_S129x64_S1000000x64_1_0_0_1_n_n_wf
def dot_S1000000x64_S64x1_S1000000x1_1_0_0_1_n_n : DotDims S1000000x64 S64x1 S1000000x1 where
  lhsContracting := [1]
  rhsContracting := [0]
  lhsNonContracting := [0]
  rhsNonContracting := [1]
  lhsBatch := []
  rhsBatch := []
  wf := dot_S1000000x64_S64x1_S1000000x1_1_0_0_1_n_n_wf

class Facts : Prop extends Facts₀ where

variable [Facts]
-- ==== Proof.Spec.lean ====
import Idealize.ShloMosaic.PureOps.Ideal
import Idealize.ShloMosaic.Lib.ValueIdx

/-! # The rating of one edge, over the extended reals

An edge joins a customer row `h` and a product row `t` (64 entries each). Its rating is the logistic of a two-layer
perceptron applied to the 129 features `h ‖ t ‖ cos`, where `cos` is the cosine similarity of the two rows, each first
divided by the larger of its Euclidean norm and `ε₁`, the product of the two normalized rows' norms floored at `ε₂`.
Every operation is the exact one on the extended reals; the two floors are the binary values their 32-bit words denote. -/

noncomputable section

namespace Cert.Proof.Spec

open Idealize.ShloMosaic Idealize.ShloMosaic.ValueIdx
open scoped BigOperators

/-- The floor under a row's norm. -/
abbrev eps₁ : EReal := Ideal.ofBits .f32 0x2B8CBCCC#32
/-- The floor under the product of the normalized rows' norms. -/
abbrev eps₂ : EReal := Ideal.ofBits .f32 0x322BCC77#32

/-- The Euclidean norm of a row: the square root of the sum of its squares. -/
def norm (x : Fin 64 → EReal) : EReal := Ideal.sqrt (∑ k : Fin 64, x k * x k)

/-- A row divided by the larger of its norm and `ε₁`. -/
def unit (x : Fin 64 → EReal) (k : Fin 64) : EReal := Ideal.div (x k) (max (norm x) eps₁)

/-- The cosine similarity of the two normalized rows, its denominator floored at `ε₂`. -/
def cosine (h t : Fin 64 → EReal) : EReal :=
  Ideal.div (∑ k : Fin 64, unit h k * unit t k) (max (norm (unit h) * norm (unit t)) eps₂)

/-- The 129 features of an edge: the customer row, the product row, the cosine. -/
def feat (h t : Fin 64 → EReal) (k : Fin 129) : EReal :=
  if h0 : k.val < 64 then h ⟨k.val, h0⟩
  else if h1 : k.val < 128 then t ⟨k.val - 64, by omega⟩
  else cosine h t

/-- The hidden layer: the features against column `j` of the first weight matrix, plus the bias, floored at zero. -/
def hidden (h t : Fin 64 → EReal) (W1 : Fin 129 → Fin 64 → EReal) (b1 : Fin 64 → EReal) (j : Fin 64) : EReal :=
  max ((∑ k : Fin 129, feat h t k * W1 k j) + b1 j) 0

/-- The rating: the logistic of the hidden layer against the second weight column, plus its bias. -/
def score (h t : Fin 64 → EReal) (W1 : Fin 129 → Fin 64 → EReal) (b1 : Fin 64 → EReal) (W2 : Fin 64 → EReal) (b2 : EReal) : EReal :=
  Ideal.logistic ((∑ j : Fin 64, hidden h t W1 b1 j * W2 j) + b2)

/-- The table row an index word selects: the word read signed and clamped into the table (a word already in
    `[0, 100000)` selects its own row). -/
def rowIx (v : BitVec 32) : Fin 100000 := ⟨min v.toInt.toNat (100000 - 1), by omega⟩

/-- A word in `[0, 100000)` selects the row of its own value. -/
theorem rowIx_val_of_lt {v : BitVec 32} (hv : v.toNat < 100000) : (rowIx v).val = v.toNat := by
  unfold rowIx
  have h2 : v.toInt = (v.toNat : ℤ) := by
    rw [BitVec.toInt_eq_toNat_cond]; split <;> omega
  simp only [h2, Int.toNat_natCast]
  omega

/-- Every word of an index array lies in `[0, 100000)`: it names a row of the table. -/
def InRange (x : (⟨1, ![1000000]⟩ : Shape).Idx → BitVec 32) : Prop := ∀ e, (x e).toNat < 100000

/-- The whole result: entry `(e, 0)` is the rating of the edge `e`, whose rows the two index arrays select. -/
def G (hc hp : (⟨2, ![100000, 64]⟩ : Shape).Idx → EReal) (src dst : (⟨1, ![1000000]⟩ : Shape).Idx → BitVec 32)
    (W1 : (⟨2, ![129, 64]⟩ : Shape).Idx → EReal) (b1 : (⟨1, ![64]⟩ : Shape).Idx → EReal)
    (W2 : (⟨2, ![64, 1]⟩ : Shape).Idx → EReal) (b2 : (⟨1, ![1]⟩ : Shape).Idx → EReal) :
    (⟨2, ![1000000, 1]⟩ : Shape).Idx → EReal :=
  fun i => score (fun k => hc (ix2 (rowIx (src (ix1 (i 0)))) k)) (fun k => hp (ix2 (rowIx (dst (ix1 (i 0)))) k))
    (fun a j => W1 (ix2 a j)) (fun j => b1 (ix1 j)) (fun j => W2 (ix2 j 0)) (b2 (ix1 0))

end Cert.Proof.Spec

end
-- ==== Proof.PreIdx.lean ====
import proofs.«401610_j38122129719601_1_alg».proof.Pre_finite_inputs
import proofs.«401610_j38122129719601_1_alg».proof.Proof.Spec
import Idealize.ShloMosaic.Lib.StableHlo.Predicate
import Idealize.ShloMosaic.Lib.ReduceAll
import Idealize.ShloMosaic.Lib.ValueIdx

/-! # The precondition bounds every index word

The precondition is one bit: a conjunction of eight bits, the last two of which say, each for one of the two index
arrays, that every word `w` of the array satisfies `0 ≤ w` and `w < 100000`, both read signed, the "for every word"
being a reduction by `and` over the whole array. If the conjunction is 1 then each conjunct is 1; a reduction by `and`
that is 1 met only 1s, so at every position both comparisons hold; and a word that is non-negative read signed reads the
same unsigned, so it lies below 100000 as a natural number: it names a row of the table. Every step is taken at one
symbolic position of the array. -/

namespace Cert.Proof.PreIdx

open Idealize.ShloMosaic
open Cert.Pre_finite_inputs

/-- The result of a reduction over every axis has one index. -/
instance : Subsingleton S_.Idx := ⟨fun a b => funext fun d => d.elim0⟩

/-- A word in `[0, 100000)` read signed lies below 100000 read unsigned: its top bit is clear, so the two readings
    are one number. -/
theorem toNat_lt_of_signed (w : BitVec 32) (h0 : IntOp.cmpi .sge w 0#32 = 1#1)
    (h1 : IntOp.cmpi .slt w 100000#32 = 1#1) : w.toNat < 100000 := by
  rw [IntOp.cmpi_sge, show (0#32 : BitVec 32).toInt = 0 from by decide] at h0
  rw [IntOp.cmpi_slt, show (100000#32 : BitVec 32).toInt = 100000 from by decide] at h1
  rw [BitVec.toInt_eq_toNat_cond] at h0 h1
  have hw := w.isLt
  split at h0 <;> omega

/-- A conjunction of two one-bit arrays is 1 at a position exactly when both are. -/
theorem andi_apply_eq_one {s : Shape} (p q : IVec s 1) (i : s.Idx) :
    andi p q i = 1#1 ↔ p i = 1#1 ∧ q i = 1#1 := IntOp.andi_eq_one

/-- One index array: if "every word is at least 0 and below 100000" reduces to 1, every word names a row. -/
theorem inRange_of_all [Facts] (x : IVec S1000000 32) (j : S_.Idx)
    (h : Host.reduce IntOp.andi
          (andi (cmpi .sge x (broadcastInDim S1000000 ![] Facts.bcast_S_S1000000 (constantI S_ 32 0#32)))
            (cmpi .slt x (broadcastInDim S1000000 ![] Facts.bcast_S_S1000000 (constantI S_ 32 100000#32))))
          (constantI S_ 1 1#1) Facts.reducesTo_S1000000_S_d0 Facts.h_S_ j = 1#1) :
    Cert.Proof.Spec.InRange x := by
  intro e
  have he := Host.reduce_andi_all _ _ _ _ j h e
  rw [andi_apply_eq_one] at he
  obtain ⟨h0, h1⟩ := he
  exact toNat_lt_of_signed (x e) h0 h1

/-- The precondition, being 1, bounds every word of both index arrays: the two range conjuncts are the last two of
    the conjunction, so they come off first. -/
theorem inRange_of_pre {F : FTy → Type} [FloatOps F] [Facts]
    (a0 a1 : FVec F S100000x64 .f32) (a2 a3 : IVec S1000000 32) (a4 : FVec F S129x64 .f32)
    (a5 : FVec F S64 .f32) (a6 : FVec F S64x1 .f32) (a7 : FVec F S1 .f32)
    (h : fn (F := F) a0 a1 a2 a3 a4 a5 a6 a7 = fun _ => 1#1) :
    Cert.Proof.Spec.InRange a2 ∧ Cert.Proof.Spec.InRange a3 := by
  have e := congrFun h ValueIdx.ix0
  dsimp only [fn, fn_part1, fn_part2] at e
  rw [andi_apply_eq_one, andi_apply_eq_one] at e
  obtain ⟨⟨-, h2⟩, h3⟩ := e
  exact ⟨inRange_of_all a2 _ h2, inRange_of_all a3 _ h3⟩

end Cert.Proof.PreIdx
-- ==== Proof.LibSegmentScatter.lean ====
import Idealize.ShloMosaic.Lib.ValueIdx
import Idealize.ShloMosaic.Lib.StableHlo.Predicate
import Idealize.ShloMosaic.PureOps.Ideal.Laws

/-! # Segment gathers and accumulating scatters by a column of start indices, read at an index

The message passing of a graph layer moves rows between a table of `N` rows and a list of `E` edges through ONE column
`[E, 1]` of start indices: the gather copies, for each edge, the table's row at the edge's index; the scatter-add sums,
into each row of the table, the edges' rows whose index is that row. This file reads both at an index, for every
extent `N`, `E`, `C`, in the two layouts a program prints: rows `[N, C]` ↔ `[E, C]` (axis 0 indexed, axis 1 carried whole as
the window / offset axis) and entries `[N]` ↔ `[E]` (no window axis).

* The GATHER reads its start index SIGNED and CLAMPS it into the table: entry `(e, k)` of the result is the table's at
  row `min idx[e,0] (N − 1)` (a negative index reads row 0) and column `k` (`gather_rows_apply`, `gather_entries_apply`).
* The SCATTER-ADD reads its start index SIGNED and does NOT clamp it: update `(e, k')` lands at `(v, k)` exactly when
  `idx[e,0] = v` as integers and `k' = k` (`rows_resultIdx?_eq_some_iff`, `entries_resultIdx?_eq_some_iff`), so over the
  extended reals entry `(v, k)` of the result is the operand's plus `Σ_e [idx[e,0] = v] · upd[e, k]`; an update whose index
  is negative or ≥ `N` meets no `v` and adds nothing (`scatterAdd_rows_apply`, `scatterAdd_entries_apply`).

Each family of dimension numbers is a record built from its well-formedness alone (`rowScatterDims`, `entryScatterDims`,
`rowGatherDims`, `entryGatherDims`), so a program's printed record with these numbers IS that record at the program's
extents, and a lemma here applies to it as it stands. Every step is over symbolic extents: nothing is enumerated. -/

noncomputable section

namespace Cert.LibSegmentScatter

open Idealize.ShloMosaic Idealize.ShloMosaic.ValueIdx
open scoped BigOperators

/-! ## The row scatter-add: a [N, C] operand, [E, 1] start indices, [E, C] updates -/

/-- The dimension numbers of a row scatter: the updates' axis 1 is the window axis, the operand's axis 0 is inserted
    and indexed by the one component of the start index, which sits on axis 1 of the start indices. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k' : Fin C)

/-- On the indexed axis the window starts at the edge's start index, read signed. -/
theorem rows_start_zero : (rowScatterDims N E C wf).start (ix2 e k') idx 0 = (idx (ix2 e 0)).toInt := by
  unfold ScatterDims.start
  rw [dif_pos (show (0 : Fin 2) ∈ (rowScatterDims N E C wf).scatterDimsToOperandDims from List.mem_singleton.mpr rfl)]
  have hsi : (rowScatterDims N E C wf).siIdx (ix2 e k') ⟨List.idxOf (0 : Fin 2) (rowScatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the carried axis the window starts at 0. -/
theorem rows_start_one : (rowScatterDims N E C wf).start (ix2 e k') idx 1 = 0 := by
  unfold ScatterDims.start
  rw [dif_neg (show (1 : Fin 2) ∉ ([0] : List (Fin 2)) by decide)]

/-- The indexed axis is inserted: no window coordinate there. -/
theorem rows_window_zero : (rowScatterDims N E C wf).window (ix2 e k') 0 = 0 := by
  unfold ScatterDims.window
  have h0 : (0 : Fin 2) ∉ (rowScatterDims N E C wf).sKept := fun h =>
    absurd (List.mem_filter.1 h).2 (show ¬ (decide ((0 : Fin 2) ∉ ([0] : List (Fin 2))) = true) by decide)
  rw [dif_neg h0]

/-- On the carried axis the window coordinate is the update's column. -/
theorem rows_window_one : (rowScatterDims N E C wf).window (ix2 e k') 1 = k'.val := by
  unfold ScatterDims.window
  have h1 : (1 : Fin 2) ∈ (rowScatterDims N E C wf).sKept :=
    List.mem_filter.2 ⟨List.mem_finRange _, (show decide ((1 : Fin 2) ∉ ([0] : List (Fin 2))) = true by decide)⟩
  rw [dif_pos h1]
  rfl

/-- An update (e, k') of the row scatter lands at entry (v, k) exactly when its start index, read signed, is v and its
    column is k. -/
theorem rows_resultIdx?_eq_some_iff (v : Fin N) (k : Fin C) :
    (rowScatterDims N E C wf).resultIdx? (ix2 e k') idx = some (ix2 v k)
      ↔ (idx (ix2 e 0)).toInt = (v.val : ℤ) ∧ k' = k := by
  unfold ScatterDims.resultIdx?
  constructor
  · intro h
    split at h
    · rename_i hc
      have h' := Option.some.inj h
      have e0 := congrArg (fun f => (f 0).val) h'
      have e1 := congrArg (fun f => (f 1).val) h'
      have c0 := (hc 0).1
      simp only [rows_start_zero, rows_window_zero, rows_start_one, rows_window_one] at e0 e1 c0
      refine ⟨?_, Fin.ext ?_⟩
      · have : ((v : ℕ) : ℤ) = ((ix2 v k 0 : Fin N) : ℕ) := rfl
        omega
      · have : (k : ℕ) = ((ix2 v k 1 : Fin C) : ℕ) := rfl
        omega
    · exact absurd h (by simp)
  · rintro ⟨hv, rfl⟩
    have hc : ∀ a, 0 ≤ (rowScatterDims N E C wf).start (ix2 e k') idx a + (rowScatterDims N E C wf).window (ix2 e k') a
        ∧ (rowScatterDims N E C wf).start (ix2 e k') idx a + (rowScatterDims N E C wf).window (ix2 e k') a
          < (((⟨2, ![N, C]⟩ : Shape).size a : ℕ) : ℤ) := by
      intro a
      match a with
      | ⟨0, _⟩ =>
        show 0 ≤ (rowScatterDims N E C wf).start (ix2 e k') idx 0 + (rowScatterDims N E C wf).window (ix2 e k') 0
          ∧ (rowScatterDims N E C wf).start (ix2 e k') idx 0 + (rowScatterDims N E C wf).window (ix2 e k') 0 < ((N : ℕ) : ℤ)
        rw [rows_start_zero, rows_window_zero, hv]
        have := v.isLt
        omega
      | ⟨1, _⟩ =>
        show 0 ≤ (rowScatterDims N E C wf).start (ix2 e k') idx 1 + (rowScatterDims N E C wf).window (ix2 e k') 1
          ∧ (rowScatterDims N E C wf).start (ix2 e k') idx 1 + (rowScatterDims N E C wf).window (ix2 e k') 1 < ((C : ℕ) : ℤ)
        rw [rows_start_one, rows_window_one]
        have := k'.isLt
        omega
    rw [dif_pos hc]
    congr 1
    funext a
    refine Fin.ext ?_
    match a with
    | ⟨0, _⟩ =>
      show ((rowScatterDims N E C wf).start (ix2 e k') idx 0 + (rowScatterDims N E C wf).window (ix2 e k') 0).toNat = v.val
      rw [rows_start_zero, rows_window_zero, hv]
      omega
    | ⟨1, _⟩ =>
      show ((rowScatterDims N E C wf).start (ix2 e k') idx 1 + (rowScatterDims N E C wf).window (ix2 e k') 1).toNat = k'.val
      rw [rows_start_one, rows_window_one]
      omega

end Rows

/-- THE ROW SCATTER-ADD READ AT (v, k): the operand's entry plus the updates' column k over the edges whose start index,
    read signed, is v. -/
theorem scatterAdd_rows_apply {N E C w : Nat} (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (v : Fin N) (k : Fin C) :
    Ideal.hostScatterAdd (rowScatterDims N E C wf) x idx upd (ix2 v k)
      = x (ix2 v k) + ∑ e : Fin E, if (idx (ix2 e 0)).toInt = (v.val : ℤ) then upd (ix2 e k) else 0 := by
  unfold Ideal.hostScatterAdd
  congr 1
  rw [Finset.sum_filter, sum_idx2]
  refine Finset.sum_congr rfl fun e _ => ?_
  simp only [rows_resultIdx?_eq_some_iff]
  by_cases hv : (idx (ix2 e 0)).toInt = (v.val : ℤ)
  · simp only [hv, true_and, Finset.sum_ite_eq', Finset.mem_univ, if_true]
  · simp only [hv, false_and, if_false, Finset.sum_const_zero]

/-! ## The entry scatter-add: a [N] operand, [E, 1] start indices, [E] updates -/

/-- The dimension numbers of an entry scatter: no window axis; the operand's one axis is inserted and indexed. -/
abbrev entryScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, ix1, fun i => (eq_ix1 i).symm, fun _ => rfl⟩ _ _ (fun i => ?_)
  exact congrArg f (eq_ix1 i)

section Entries
variable {N E w : Nat} (wf : ScatterDims.WF ⟨1, ![N]⟩ ⟨2, ![E, 1]⟩ ⟨1, ![E]⟩ [] [0] [0] 1)
  (idx : IVec ⟨2, ![E, 1]⟩ w) (e : Fin E)

/-- The window starts at the edge's start index, read signed. -/
theorem entries_start : (entryScatterDims N E wf).start (ix1 e) idx 0 = (idx (ix2 e 0)).toInt := by
  unfold ScatterDims.start
  rw [dif_pos (show (0 : Fin 1) ∈ (entryScatterDims N E wf).scatterDimsToOperandDims from List.mem_singleton.mpr rfl)]
  have hsi : (entryScatterDims N E wf).siIdx (ix1 e) ⟨List.idxOf (0 : Fin 1) (entryScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The one axis is inserted: no window coordinate. -/
theorem entries_window : (entryScatterDims N E wf).window (ix1 e) 0 = 0 := by
  unfold ScatterDims.window
  have h0 : (0 : Fin 1) ∉ (entryScatterDims N E wf).sKept := fun h =>
    absurd (List.mem_filter.1 h).2 (show ¬ (decide ((0 : Fin 1) ∉ ([0] : List (Fin 1))) = true) by decide)
  rw [dif_neg h0]

/-- An update e of the entry scatter lands at entry v exactly when its start index, read signed, is v. -/
theorem entries_resultIdx?_eq_some_iff (v : Fin N) :
    (entryScatterDims N E wf).resultIdx? (ix1 e) idx = some (ix1 v) ↔ (idx (ix2 e 0)).toInt = (v.val : ℤ) := by
  unfold ScatterDims.resultIdx?
  constructor
  · intro h
    split at h
    · rename_i hc
      have h' := Option.some.inj h
      have e0 := congrArg (fun f => (f 0).val) h'
      have c0 := (hc 0).1
      simp only [entries_start, entries_window] at e0 c0
      have : ((v : ℕ) : ℤ) = ((ix1 v 0 : Fin N) : ℕ) := rfl
      omega
    · exact absurd h (by simp)
  · intro hv
    have hc : ∀ a, 0 ≤ (entryScatterDims N E wf).start (ix1 e) idx a + (entryScatterDims N E wf).window (ix1 e) a
        ∧ (entryScatterDims N E wf).start (ix1 e) idx a + (entryScatterDims N E wf).window (ix1 e) a
          < (((⟨1, ![N]⟩ : Shape).size a : ℕ) : ℤ) := by
      intro a
      match a with
      | ⟨0, _⟩ =>
        show 0 ≤ (entryScatterDims N E wf).start (ix1 e) idx 0 + (entryScatterDims N E wf).window (ix1 e) 0
          ∧ (entryScatterDims N E wf).start (ix1 e) idx 0 + (entryScatterDims N E wf).window (ix1 e) 0 < ((N : ℕ) : ℤ)
        rw [entries_start, entries_window, hv]
        have := v.isLt
        omega
    rw [dif_pos hc]
    congr 1
    funext a
    refine Fin.ext ?_
    match a with
    | ⟨0, _⟩ =>
      show ((entryScatterDims N E wf).start (ix1 e) idx 0 + (entryScatterDims N E wf).window (ix1 e) 0).toNat = v.val
      rw [entries_start, entries_window, hv]
      omega

end Entries

/-- THE ENTRY SCATTER-ADD READ AT v: the operand's entry plus the updates over the edges whose start index, read signed,
    is v. -/
theorem scatterAdd_entries_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (v : Fin N) :
    Ideal.hostScatterAdd (entryScatterDims N E wf) x idx upd (ix1 v)
      = x (ix1 v) + ∑ e : Fin E, if (idx (ix2 e 0)).toInt = (v.val : ℤ) then upd (ix1 e) else 0 := by
  unfold Ideal.hostScatterAdd
  congr 1
  rw [Finset.sum_filter, sum_idx1]
  refine Finset.sum_congr rfl fun e _ => ?_
  simp only [entries_resultIdx?_eq_some_iff]

/-! ## The row gather and the entry gather -/

/-- The dimension numbers of a row gather: the operand's axis 0 is collapsed and indexed (slice size 1), its axis 1 is
    taken whole (slice size C) onto the result's offset axis 1. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, k): the table at the row `idx[e,0]` read signed and clamped into `[0, N − 1]`, column k. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have h1 : (1 : Fin 2) ∈ (rowGatherDims N E C wf).sKept :=
      (GatherDims.mem_sKept _ _).mpr ⟨show (1 : Fin 2) ∉ ([0] : List (Fin 2)) by decide, List.not_mem_nil⟩
    unfold GatherDims.start GatherDims.offCoord
    rw [dif_neg (show (1 : Fin 2) ∉ ([0] : List (Fin 2)) by decide), dif_pos h1]
    simp only [Nat.add_zero, Nat.zero_add]
    rfl

/-- The dimension numbers of an entry gather: the operand's one axis is collapsed and indexed; no offset axis. -/
abbrev entryGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ENTRY GATHER READ AT e: the table at `idx[e,0]` read signed and clamped into `[0, N − 1]`. -/
theorem gather_entries_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entryGatherDims N E wf) x idx (ix1 e)
      = x (ix1 ⟨min (idx (ix2 e 0)).toInt.toNat (N - 1), by omega⟩) := by
  unfold Host.gather
  congr 1
  funext a
  refine Fin.ext ?_
  match a with
  | ⟨0, _⟩ =>
    show (entryGatherDims N E wf).start (ix1 e) idx 0 + (entryGatherDims N E wf).batchCoord (ix1 e) 0
      + (entryGatherDims N E wf).offCoord (ix1 e) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entryGatherDims N E wf).startIndexMap from List.mem_singleton.mpr rfl)]
    have hsi : (entryGatherDims N E wf).siIdx (ix1 e) ⟨List.idxOf (0 : Fin 1) (entryGatherDims N E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl

end Cert.LibSegmentScatter

end
-- ==== Proof.RefValue.lean ====
import proofs.«401610_j38122129719601_1_alg».proof.Proof.Gen.ReferenceIdeal.Read
import proofs.«401610_j38122129719601_1_alg».proof.Proof.Spec
import proofs.«401610_j38122129719601_1_alg».proof.Proof.LibSegmentScatter
import Idealize.ShloMosaic.Lib.ValueIdx
import Idealize.ShloMosaic.Lib.Pipeline.Value
import Idealize.ShloMosaic.PureOps.Ideal.Laws

/-! # The reference program's result is the rating of every edge

The reference gathers, for each edge, one row of the customer table and one row of the product table, normalizes both,
takes their cosine, lays the two raw rows and the cosine side by side as 129 features, and applies a two-layer
perceptron followed by the logistic `1 / (1 + exp (-y))`. This file reads its result index by index over the extended
reals and finds the specification's `G`:

* under the range condition a start index is below 100000, hence non-negative read signed, so the wrap-around
  `select (v < 0) (v + 100000) v` is `v` and the clamped row gather reads the table at the row of `v`;
* a float sum from the zero word is the plain sum (`0 + Σ = Σ`), so the norms and the inner product are the
  specification's sums;
* the three-piece concatenation along the column axis reads the customer row below column 64, the product row from 64
  to 127 and the cosine at column 128: the specification's `feat`;
* both matrix products are sums over the contracted axis; the rectifier is `max · 0`; and the quotient
  `1 / (1 + exp (-y))` with `1` the value of the word `0x3F800000` is the definition of the logistic. -/

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The rows the two index arrays select

A word below 100000 is non-negative read signed, so the wrap-around `select (v < 0) (v + 100000) v` leaves it
as it is, and the clamped row gather reads the table at the row of that word. -/

/-- The printed gather record is the row gather of the segment library at this program's extents. -/
theorem gatherRec_eq :
    gather_S100000x64_S1000000x1_S1000000x64_1_0_n_n_0_1_164
      = Cert.LibSegmentScatter.rowGatherDims 100000 1000000 64 gather_S100000x64_S1000000x1_S1000000x64_1_0_n_n_0_1_164_wf := rfl

/-- A word below 100000 is not negative, so the wrap-around leaves it unchanged. -/
theorem wrap_eq (v : BitVec 32) (hv : v.toNat < 100000) :
    Scalar.select (IntOp.cmpi .slt v 0#32) (IntOp.addi v 100000#32) v = v := by
  have h2 : v.toInt = (v.toNat : ℤ) := by
    rw [BitVec.toInt_eq_toNat_cond]; split <;> omega
  have hs : v.slt 0#32 = false := by
    rw [BitVec.slt, h2]
    simp
  have h0 : IntOp.cmpi .slt v 0#32 = 0#1 := by
    show BitVec.ofBool (v.slt 0#32) = 0#1
    rw [hs]; rfl
  rw [h0, select_zero]

/-- The column of start indices of the first gather, at edge `e`: the edge's own word. -/
theorem v5_at (x2 : (⟨S1000000, .i32⟩ : BufTy).Contents (Elt Ideal)) (h2 : Cert.Proof.Spec.InRange x2)
    (e : Fin 1000000) (z : Fin 1) :
    val_main_v5 (F := Ideal) x2 (ix2 e z) = x2 (ix1 e) := by
  have hi : idx_main_v5 (ix2 e z) = ix1 e := funext fun a => Fin.ext (by match a with | ⟨0, _⟩ => rfl)
  rw [val_main_v5_apply, hi, val_main_v4_apply, val_main_v1_apply, val_main_v3_apply, val_main_v0_apply, val_main_v2_apply,
    val_main_c_apply, val_main_c_0_apply]
  exact wrap_eq _ (h2 (ix1 e))

/-- The column of start indices of the second gather, at edge `e`: the edge's own word. -/
theorem v12_at (x3 : (⟨S1000000, .i32⟩ : BufTy).Contents (Elt Ideal)) (h3 : Cert.Proof.Spec.InRange x3)
    (e : Fin 1000000) (z : Fin 1) :
    val_main_v12 (F := Ideal) x3 (ix2 e z) = x3 (ix1 e) := by
  have hi : idx_main_v12 (ix2 e z) = ix1 e := funext fun a => Fin.ext (by match a with | ⟨0, _⟩ => rfl)
  rw [val_main_v12_apply, hi, val_main_v11_apply, val_main_v8_apply, val_main_v10_apply, val_main_v7_apply, val_main_v9_apply,
    val_main_c_1_apply, val_main_c_2_apply]
  exact wrap_eq _ (h3 (ix1 e))

/-- The row of a table that the word `s[e]` selects. -/
def row (x : (⟨2, ![100000, 64]⟩ : Shape).Idx → EReal) (s : (⟨1, ![1000000]⟩ : Shape).Idx → BitVec 32)
    (e : Fin 1000000) : Fin 64 → EReal :=
  fun k => x (ix2 (Cert.Proof.Spec.rowIx (s (ix1 e))) k)

/-- The first gathered array, at edge `e` and column `k`: the customer table at the row the edge's word selects. -/
theorem v6_at (x0 : (⟨S100000x64, .f32⟩ : BufTy).Contents (Elt Ideal)) (x2 : (⟨S1000000, .i32⟩ : BufTy).Contents (Elt Ideal))
    (h2 : Cert.Proof.Spec.InRange x2) (e : Fin 1000000) (k : Fin 64) :
    val_main_v6 (F := Ideal) x0 x2 (ix2 e k) = row x0 x2 e k := by
  unfold val_main_v6
  rw [gatherRec_eq]
  refine (Cert.LibSegmentScatter.gather_rows_apply (by decide) _ x0 (val_main_v5 (F := Ideal) x2) e k).trans ?_
  refine congrArg x0 (congrArg (fun r : Fin 100000 => ix2 r k) (Fin.ext ?_))
  show min (BitVec.toInt (val_main_v5 (F := Ideal) x2 (ix2 e 0))).toNat (100000 - 1) = min (x2 (ix1 e)).toInt.toNat (100000 - 1)
  rw [v5_at x2 h2 e 0]

/-- The second gathered array, at edge `e` and column `k`: the product table at the row the edge's word selects. -/
theorem v13_at (x1 : (⟨S100000x64, .f32⟩ : BufTy).Contents (Elt Ideal)) (x3 : (⟨S1000000, .i32⟩ : BufTy).Contents (Elt Ideal))
    (h3 : Cert.Proof.Spec.InRange x3) (e : Fin 1000000) (k : Fin 64) :
    val_main_v13 (F := Ideal) x1 x3 (ix2 e k) = row x1 x3 e k := by
  unfold val_main_v13
  rw [gatherRec_eq]
  refine (Cert.LibSegmentScatter.gather_rows_apply (by decide) _ x1 (val_main_v12 (F := Ideal) x3) e k).trans ?_
  refine congrArg x1 (congrArg (fun r : Fin 100000 => ix2 r k) (Fin.ext ?_))
  show min (BitVec.toInt (val_main_v12 (F := Ideal) x3 (ix2 e 0))).toNat (100000 - 1) = min (x3 (ix1 e)).toInt.toNat (100000 - 1)
  rw [v12_at x3 h3 e 0]

/-! ## Norms and normalized rows

A float sum from a zero initial value is the plain sum; the square root of the sum of squares is the norm; a row divided
by its floored norm is the normalized row. Both tables go the same way. -/

/-- The sum of squares of the customer row of edge `e`. -/
theorem call0_v1_at (x0 : (⟨S100000x64, .f32⟩ : BufTy).Contents (Elt Ideal)) (x2 : (⟨S1000000, .i32⟩ : BufTy).Contents (Elt Ideal)) (h2 : Cert.Proof.Spec.InRange x2) (e : Fin 1000000) :
    val_main_call0_v1 (F := Ideal) x0 x2 (ix1 e) = ∑ k : Fin 64, row x0 x2 e k * row x0 x2 e k := by
  have hi : ∀ k : Fin 64, idx_main_call0_v1 (ix1 e) k = ix2 e k := fun k =>
    funext fun a => Fin.ext (by match a with | ⟨0, _⟩ => rfl | ⟨1, _⟩ => rfl)
  rw [val_main_call0_v1_apply, val_main_call0_cst_apply, Ideal.ofBits_def, Ideal.ofBits_zero_f32, zero_add]
  refine Finset.sum_congr rfl fun k _ => ?_
  rw [hi k, val_main_call0_v0_apply, Ideal.mulf_def, v6_at x0 x2 h2 e k]

/-- The norm of the customer row of edge `e`, kept as a column. -/
theorem v14_at (x0 : (⟨S100000x64, .f32⟩ : BufTy).Contents (Elt Ideal)) (x2 : (⟨S1000000, .i32⟩ : BufTy).Contents (Elt Ideal)) (h2 : Cert.Proof.Spec.InRange x2) (e : Fin 1000000) (z : Fin 1) :
    val_main_v14 (F := Ideal) x0 x2 (ix2 e z) = Cert.Proof.Spec.norm (row x0 x2 e) := by
  have hi : idx_main_call0_v2 (ix2 e z) = ix1 e := funext fun a => Fin.ext (by match a with | ⟨0, _⟩ => rfl)
  rw [val_main_v14_apply, Ideal.hostUnary_sqrt_def, val_main_call0_v2_apply, hi, call0_v1_at x0 x2 h2 e]
  rfl

/-- The floored norm of the customer row of edge `e`. -/
theorem v16_at (x0 : (⟨S100000x64, .f32⟩ : BufTy).Contents (Elt Ideal)) (x2 : (⟨S1000000, .i32⟩ : BufTy).Contents (Elt Ideal)) (h2 : Cert.Proof.Spec.InRange x2) (e : Fin 1000000) (z : Fin 1) :
    val_main_v16 (F := Ideal) x0 x2 (ix2 e z) = max (Cert.Proof.Spec.norm (row x0 x2 e)) Cert.Proof.Spec.eps₁ := by
  rw [val_main_v16_apply, Ideal.maximumf_def, v14_at x0 x2 h2 e z, val_main_v15_apply, val_main_cst_apply,
    Ideal.ofBits_def]

/-- The normalized the customer row of edge `e`, at column `k`. -/
theorem v18_at (x0 : (⟨S100000x64, .f32⟩ : BufTy).Contents (Elt Ideal)) (x2 : (⟨S1000000, .i32⟩ : BufTy).Contents (Elt Ideal)) (h2 : Cert.Proof.Spec.InRange x2) (e : Fin 1000000) (k : Fin 64) :
    val_main_v18 (F := Ideal) x0 x2 (ix2 e k) = Cert.Proof.Spec.unit (row x0 x2 e) k := by
  have hi : idx_main_v17 (ix2 e k) = ix2 e 0 :=
    funext fun a => Fin.ext (by match a with | ⟨0, _⟩ => rfl | ⟨1, _⟩ => rfl)
  rw [val_main_v18_apply, Ideal.hostDivf_def, v6_at x0 x2 h2 e k, val_main_v17_apply, hi,
    v16_at x0 x2 h2 e 0]
  rfl

/-- The sum of squares of the normalized the customer row of edge `e`. -/
theorem call2_v1_at (x0 : (⟨S100000x64, .f32⟩ : BufTy).Contents (Elt Ideal)) (x2 : (⟨S1000000, .i32⟩ : BufTy).Contents (Elt Ideal)) (h2 : Cert.Proof.Spec.InRange x2) (e : Fin 1000000) :
    val_main_call2_v1 (F := Ideal) x0 x2 (ix1 e)
      = ∑ k : Fin 64, Cert.Proof.Spec.unit (row x0 x2 e) k * Cert.Proof.Spec.unit (row x0 x2 e) k := by
  have hi : ∀ k : Fin 64, idx_main_call2_v1 (ix1 e) k = ix2 e k := fun k =>
    funext fun a => Fin.ext (by match a with | ⟨0, _⟩ => rfl | ⟨1, _⟩ => rfl)
  rw [val_main_call2_v1_apply, val_main_call2_cst_apply, Ideal.ofBits_def, Ideal.ofBits_zero_f32, zero_add]
  refine Finset.sum_congr rfl fun k _ => ?_
  rw [hi k, val_main_call2_v0_apply, Ideal.mulf_def, v18_at x0 x2 h2 e k]

/-- The norm of the normalized the customer row of edge `e`. -/
theorem v24_at (x0 : (⟨S100000x64, .f32⟩ : BufTy).Contents (Elt Ideal)) (x2 : (⟨S1000000, .i32⟩ : BufTy).Contents (Elt Ideal)) (h2 : Cert.Proof.Spec.InRange x2) (e : Fin 1000000) :
    val_main_v24 (F := Ideal) x0 x2 (ix1 e) = Cert.Proof.Spec.norm (Cert.Proof.Spec.unit (row x0 x2 e)) := by
  rw [val_main_v24_apply, Ideal.hostUnary_sqrt_def, call2_v1_at x0 x2 h2 e]
  rfl

/-- The sum of squares of the product row of edge `e`. -/
theorem call1_v1_at (x1 : (⟨S100000x64, .f32⟩ : BufTy).Contents (Elt Ideal)) (x3 : (⟨S1000000, .i32⟩ : BufTy).Contents (Elt Ideal)) (h3 : Cert.Proof.Spec.InRange x3) (e : Fin 1000000) :
    val_main_call1_v1 (F := Ideal) x1 x3 (ix1 e) = ∑ k : Fin 64, row x1 x3 e k * row x1 x3 e k := by
  have hi : ∀ k : Fin 64, idx_main_call1_v1 (ix1 e) k = ix2 e k := fun k =>
    funext fun a => Fin.ext (by match a with | ⟨0, _⟩ => rfl | ⟨1, _⟩ => rfl)
  rw [val_main_call1_v1_apply, val_main_call1_cst_apply, Ideal.ofBits_def, Ideal.ofBits_zero_f32, zero_add]
  refine Finset.sum_congr rfl fun k _ => ?_
  rw [hi k, val_main_call1_v0_apply, Ideal.mulf_def, v13_at x1 x3 h3 e k]

/-- The norm of the product row of edge `e`, kept as a column. -/
theorem v19_at (x1 : (⟨S100000x64, .f32⟩ : BufTy).Contents (Elt Ideal)) (x3 : (⟨S1000000, .i32⟩ : BufTy).Contents (Elt Ideal)) (h3 : Cert.Proof.Spec.InRange x3) (e : Fin 1000000) (z : Fin 1) :
    val_main_v19 (F := Ideal) x1 x3 (ix2 e z) = Cert.Proof.Spec.norm (row x1 x3 e) := by
  have hi : idx_main_call1_v2 (ix2 e z) = ix1 e := funext fun a => Fin.ext (by match a with | ⟨0, _⟩ => rfl)
  rw [val_main_v19_apply, Ideal.hostUnary_sqrt_def, val_main_call1_v2_apply, hi, call1_v1_at x1 x3 h3 e]
  rfl

/-- The floored norm of the product row of edge `e`. -/
theorem v21_at (x1 : (⟨S100000x64, .f32⟩ : BufTy).Contents (Elt Ideal)) (x3 : (⟨S1000000, .i32⟩ : BufTy).Contents (Elt Ideal)) (h3 : Cert.Proof.Spec.InRange x3) (e : Fin 1000000) (z : Fin 1) :
    val_main_v21 (F := Ideal) x1 x3 (ix2 e z) = max (Cert.Proof.Spec.norm (row x1 x3 e)) Cert.Proof.Spec.eps₁ := by
  rw [val_main_v21_apply, Ideal.maximumf_def, v19_at x1 x3 h3 e z, val_main_v20_apply, val_main_cst_3_apply,
    Ideal.ofBits_def]

/-- The normalized the product row of edge `e`, at column `k`. -/
theorem v23_at (x1 : (⟨S100000x64, .f32⟩ : BufTy).Contents (Elt Ideal)) (x3 : (⟨S1000000, .i32⟩ : BufTy).Contents (Elt Ideal)) (h3 : Cert.Proof.Spec.InRange x3) (e : Fin 1000000) (k : Fin 64) :
    val_main_v23 (F := Ideal) x1 x3 (ix2 e k) = Cert.Proof.Spec.unit (row x1 x3 e) k := by
  have hi : idx_main_v22 (ix2 e k) = ix2 e 0 :=
    funext fun a => Fin.ext (by match a with | ⟨0, _⟩ => rfl | ⟨1, _⟩ => rfl)
  rw [val_main_v23_apply, Ideal.hostDivf_def, v13_at x1 x3 h3 e k, val_main_v22_apply, hi,
    v21_at x1 x3 h3 e 0]
  rfl

/-- The sum of squares of the normalized the product row of edge `e`. -/
theorem call3_v1_at (x1 : (⟨S100000x64, .f32⟩ : BufTy).Contents (Elt Ideal)) (x3 : (⟨S1000000, .i32⟩ : BufTy).Contents (Elt Ideal)) (h3 : Cert.Proof.Spec.InRange x3) (e : Fin 1000000) :
    val_main_call3_v1 (F := Ideal) x1 x3 (ix1 e)
      = ∑ k : Fin 64, Cert.Proof.Spec.unit (row x1 x3 e) k * Cert.Proof.Spec.unit (row x1 x3 e) k := by
  have hi : ∀ k : Fin 64, idx_main_call3_v1 (ix1 e) k = ix2 e k := fun k =>
    funext fun a => Fin.ext (by match a with | ⟨0, _⟩ => rfl | ⟨1, _⟩ => rfl)
  rw [val_main_call3_v1_apply, val_main_call3_cst_apply, Ideal.ofBits_def, Ideal.ofBits_zero_f32, zero_add]
  refine Finset.sum_congr rfl fun k _ => ?_
  rw [hi k, val_main_call3_v0_apply, Ideal.mulf_def, v23_at x1 x3 h3 e k]

/-- The norm of the normalized the product row of edge `e`. -/
theorem v25_at (x1 : (⟨S100000x64, .f32⟩ : BufTy).Contents (Elt Ideal)) (x3 : (⟨S1000000, .i32⟩ : BufTy).Contents (Elt Ideal)) (h3 : Cert.Proof.Spec.InRange x3) (e : Fin 1000000) :
    val_main_v25 (F := Ideal) x1 x3 (ix1 e) = Cert.Proof.Spec.norm (Cert.Proof.Spec.unit (row x1 x3 e)) := by
  rw [val_main_v25_apply, Ideal.hostUnary_sqrt_def, call3_v1_at x1 x3 h3 e]
  rfl

/-! ## The cosine of the two normalized rows -/

/-- The floored product of the two normalized rows' norms. -/
theorem v28_at (x0 x1 : (⟨S100000x64, .f32⟩ : BufTy).Contents (Elt Ideal)) (x2 x3 : (⟨S1000000, .i32⟩ : BufTy).Contents (Elt Ideal))
    (h2 : Cert.Proof.Spec.InRange x2) (h3 : Cert.Proof.Spec.InRange x3) (e : Fin 1000000) :
    val_main_v28 (F := Ideal) x0 x1 x2 x3 (ix1 e)
      = max (Cert.Proof.Spec.norm (Cert.Proof.Spec.unit (row x0 x2 e)) * Cert.Proof.Spec.norm (Cert.Proof.Spec.unit (row x1 x3 e)))
          Cert.Proof.Spec.eps₂ := by
  rw [val_main_v28_apply, Ideal.maximumf_def, val_main_v26_apply, Ideal.mulf_def, v24_at x0 x2 h2 e, v25_at x1 x3 h3 e,
    val_main_v27_apply, val_main_cst_4_apply, Ideal.ofBits_def]

/-- The inner product of the two normalized rows. -/
theorem v30_at (x0 x1 : (⟨S100000x64, .f32⟩ : BufTy).Contents (Elt Ideal)) (x2 x3 : (⟨S1000000, .i32⟩ : BufTy).Contents (Elt Ideal))
    (h2 : Cert.Proof.Spec.InRange x2) (h3 : Cert.Proof.Spec.InRange x3) (e : Fin 1000000) :
    val_main_v30 (F := Ideal) x0 x1 x2 x3 (ix1 e)
      = ∑ k : Fin 64, Cert.Proof.Spec.unit (row x0 x2 e) k * Cert.Proof.Spec.unit (row x1 x3 e) k := by
  have hi : ∀ k : Fin 64, idx_main_v30 (ix1 e) k = ix2 e k := fun k =>
    funext fun a => Fin.ext (by match a with | ⟨0, _⟩ => rfl | ⟨1, _⟩ => rfl)
  rw [val_main_v30_apply, val_main_cst_5_apply, Ideal.ofBits_def, Ideal.ofBits_zero_f32, zero_add]
  refine Finset.sum_congr rfl fun k _ => ?_
  rw [hi k, val_main_v29_apply, Ideal.mulf_def, v18_at x0 x2 h2 e k, v23_at x1 x3 h3 e k]

/-- The cosine of edge `e`, kept as a column. -/
theorem v32_at (x0 x1 : (⟨S100000x64, .f32⟩ : BufTy).Contents (Elt Ideal)) (x2 x3 : (⟨S1000000, .i32⟩ : BufTy).Contents (Elt Ideal))
    (h2 : Cert.Proof.Spec.InRange x2) (h3 : Cert.Proof.Spec.InRange x3) (e : Fin 1000000) (z : Fin 1) :
    val_main_v32 (F := Ideal) x0 x1 x2 x3 (ix2 e z) = Cert.Proof.Spec.cosine (row x0 x2 e) (row x1 x3 e) := by
  have hi : idx_main_v32 (ix2 e z) = ix1 e := funext fun a => Fin.ext (by match a with | ⟨0, _⟩ => rfl)
  rw [val_main_v32_apply, hi, val_main_v31_apply, Ideal.hostDivf_def, v30_at x0 x1 x2 x3 h2 h3 e, v28_at x0 x1 x2 x3 h2 h3 e]
  rfl

/-! ## The 129 features: the two rows and the cosine laid side by side

Column `c` of the joined array falls in the customer row below 64, in the product row from 64 to 127, and is the
cosine at 128. -/

theorem v33_at (x0 x1 : (⟨S100000x64, .f32⟩ : BufTy).Contents (Elt Ideal)) (x2 x3 : (⟨S1000000, .i32⟩ : BufTy).Contents (Elt Ideal))
    (h2 : Cert.Proof.Spec.InRange x2) (h3 : Cert.Proof.Spec.InRange x3) (e : Fin 1000000) (c : Fin 129) :
    val_main_v33 (F := Ideal) x0 x1 x2 x3 (ix2 e c) = Cert.Proof.Spec.feat (row x0 x2 e) (row x1 x3 e) c := by
  unfold val_main_v33 Cert.Proof.Spec.feat
  have key := concatenate_apply_piece (α := EReal) (t := S1000000x129) (1 : Fin 2)
    [⟨S1000000x64, val_main_v6 (F := Ideal) x0 x2⟩, ⟨S1000000x64, val_main_v13 (F := Ideal) x1 x3⟩,
      ⟨S1000000x1, val_main_v32 (F := Ideal) x0 x1 x2 x3⟩]
    concatenates_S1000000x64_S1000000x64_S1000000x1_S1000000x129_d1 (ix2 e c)
  by_cases c0 : c.val < 64
  · rw [dif_pos c0]
    refine (key 0 ?_ S1000000x64 (val_main_v6 (F := Ideal) x0 x2) rfl rfl
      0 rfl (ix2 e ⟨c.val, c0⟩) ?_ ?_).trans (v6_at x0 x2 h2 e ⟨c.val, c0⟩)
    · show (0 : ℕ) < 3
      omega
    · intro b hb
      match b with
      | ⟨0, _⟩ => rfl
      | ⟨1, _⟩ => exact absurd (Fin.ext rfl) hb
    · show 0 + c.val = c.val
      omega
  · rw [dif_neg c0]
    by_cases c1 : c.val < 128
    · rw [dif_pos c1]
      refine (key 1 ?_ S1000000x64 (val_main_v13 (F := Ideal) x1 x3) rfl rfl
        64 rfl (ix2 e ⟨c.val - 64, by omega⟩) ?_ ?_).trans (v13_at x1 x3 h3 e ⟨c.val - 64, by omega⟩)
      · show (1 : ℕ) < 3
        omega
      · intro b hb
        match b with
        | ⟨0, _⟩ => rfl
        | ⟨1, _⟩ => exact absurd (Fin.ext rfl) hb
      · show 64 + (c.val - 64) = c.val
        omega
    · rw [dif_neg c1]
      refine (key 2 ?_ S1000000x1 (val_main_v32 (F := Ideal) x0 x1 x2 x3) rfl rfl
        128 rfl (ix2 e 0) ?_ ?_).trans (v32_at x0 x1 x2 x3 h2 h3 e 0)
      · show (2 : ℕ) < 3
        omega
      · intro b hb
        match b with
        | ⟨0, _⟩ => rfl
        | ⟨1, _⟩ => exact absurd (Fin.ext rfl) hb
      · show 128 + 0 = c.val
        have := c.isLt
        omega

/-! ## The two layers and the logistic -/

/-- The first layer before its bias: the features against column `j` of the first weight matrix. -/
theorem v34_at (x0 x1 : (⟨S100000x64, .f32⟩ : BufTy).Contents (Elt Ideal)) (x2 x3 : (⟨S1000000, .i32⟩ : BufTy).Contents (Elt Ideal))
    (x4 : (⟨S129x64, .f32⟩ : BufTy).Contents (Elt Ideal)) (h2 : Cert.Proof.Spec.InRange x2) (h3 : Cert.Proof.Spec.InRange x3) (e : Fin 1000000) (j : Fin 64) :
    val_main_v34 (F := Ideal) x0 x1 x2 x3 x4 (ix2 e j)
      = ∑ c : Fin 129, Cert.Proof.Spec.feat (row x0 x2 e) (row x1 x3 e) c * x4 (ix2 c j) := by
  have hl : ∀ c : Fin 129, lidx_main_v34 (ix2 e j) c = ix2 e c := fun c =>
    funext fun a => Fin.ext (by match a with | ⟨0, _⟩ => rfl | ⟨1, _⟩ => rfl)
  have hr : ∀ c : Fin 129, ridx_main_v34 (ix2 e j) c = ix2 c j := fun c =>
    funext fun a => Fin.ext (by match a with | ⟨0, _⟩ => rfl | ⟨1, _⟩ => rfl)
  rw [val_main_v34_apply]
  refine Finset.sum_congr rfl fun c _ => ?_
  rw [hl c, hr c, v33_at x0 x1 x2 x3 h2 h3 e c]

/-- The hidden layer of edge `e`, at unit `j`. -/
theorem v38_at (x0 x1 : (⟨S100000x64, .f32⟩ : BufTy).Contents (Elt Ideal)) (x2 x3 : (⟨S1000000, .i32⟩ : BufTy).Contents (Elt Ideal))
    (x4 : (⟨S129x64, .f32⟩ : BufTy).Contents (Elt Ideal)) (x5 : (⟨S64, .f32⟩ : BufTy).Contents (Elt Ideal)) (h2 : Cert.Proof.Spec.InRange x2) (h3 : Cert.Proof.Spec.InRange x3) (e : Fin 1000000) (j : Fin 64) :
    val_main_v38 (F := Ideal) x0 x1 x2 x3 x4 x5 (ix2 e j)
      = Cert.Proof.Spec.hidden (row x0 x2 e) (row x1 x3 e) (fun a j => x4 (ix2 a j)) (fun j => x5 (ix1 j)) j := by
  have hb : idx_main_v35 (idx_main_v36 (ix2 e j)) = ix1 j := funext fun a => Fin.ext (by match a with | ⟨0, _⟩ => rfl)
  rw [val_main_v38_apply, Ideal.maximumf_def, val_main_v37_apply, Ideal.addf_def, v34_at x0 x1 x2 x3 x4 h2 h3 e j,
    val_main_v36_apply, val_main_v35_apply, hb, val_main_call4_v0_apply, val_main_call4_cst_apply, Ideal.ofBits_def,
    Ideal.ofBits_zero_f32]
  rfl

/-- The second layer with its bias: the argument of the logistic. -/
theorem v42_at (x0 x1 : (⟨S100000x64, .f32⟩ : BufTy).Contents (Elt Ideal)) (x2 x3 : (⟨S1000000, .i32⟩ : BufTy).Contents (Elt Ideal))
    (x4 : (⟨S129x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (h2 : Cert.Proof.Spec.InRange x2) (h3 : Cert.Proof.Spec.InRange x3) (e : Fin 1000000) :
    val_main_v42 (F := Ideal) x0 x1 x2 x3 x4 x5 x6 x7 (ix2 e 0)
      = (∑ j : Fin 64, Cert.Proof.Spec.hidden (row x0 x2 e) (row x1 x3 e) (fun a j => x4 (ix2 a j)) (fun j => x5 (ix1 j)) j
            * x6 (ix2 j 0)) + x7 (ix1 0) := by
  have hl : ∀ j : Fin 64, lidx_main_v39 (ix2 e 0) j = ix2 e j := fun j =>
    funext fun a => Fin.ext (by match a with | ⟨0, _⟩ => rfl | ⟨1, _⟩ => rfl)
  have hr : ∀ j : Fin 64, ridx_main_v39 (ix2 e (0 : Fin 1)) j = ix2 j 0 := fun j =>
    funext fun a => Fin.ext (by match a with | ⟨0, _⟩ => rfl | ⟨1, _⟩ => rfl)
  have hb : idx_main_v40 (idx_main_v41 (ix2 e (0 : Fin 1))) = ix1 0 := funext fun a => Fin.ext (by match a with | ⟨0, _⟩ => rfl)
  rw [val_main_v42_apply, Ideal.addf_def, val_main_v39_apply, val_main_v41_apply, val_main_v40_apply, hb]
  refine congrArg (· + x7 (ix1 0)) (Finset.sum_congr rfl fun j _ => ?_)
  rw [hl j, hr j, v38_at x0 x1 x2 x3 x4 x5 h2 h3 e j]

/-- The word `0x3F800000` denotes one. -/
theorem ofBits_one_f32 : Ideal.ofBits .f32 0x3F800000#32 = 1 := IdealRules.sign_bit.ideal_onePat .f32

/-- The result of the reference at edge `e`: the rating of the edge. -/
theorem v48_at (x0 x1 : (⟨S100000x64, .f32⟩ : BufTy).Contents (Elt Ideal)) (x2 x3 : (⟨S1000000, .i32⟩ : BufTy).Contents (Elt Ideal))
    (x4 : (⟨S129x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (h2 : Cert.Proof.Spec.InRange x2) (h3 : Cert.Proof.Spec.InRange x3) (e : Fin 1000000) :
    val_main_v48 (F := Ideal) x0 x1 x2 x3 x4 x5 x6 x7 (ix2 e 0)
      = Cert.Proof.Spec.score (row x0 x2 e) (row x1 x3 e) (fun a j => x4 (ix2 a j)) (fun j => x5 (ix1 j)) (fun j => x6 (ix2 j 0))
          (x7 (ix1 0)) := by
  rw [val_main_v48_apply, Ideal.hostDivf_def, val_main_v47_apply, val_main_cst_7_apply, Ideal.ofBits_def, val_main_v46_apply,
    Ideal.addf_def, val_main_v45_apply, val_main_cst_6_apply, Ideal.ofBits_def, val_main_v44_apply, Ideal.hostUnary_exp_def,
    val_main_v43_apply, Ideal.hostNegf_def, Ideal.negf_def, v42_at x0 x1 x2 x3 x4 x5 x6 x7 h2 h3 e, ofBits_one_f32]
  rfl

/-! ## The reference is the specification -/

/-- Under the range condition on both index arrays, the reference program's result is `G`. -/
theorem ref_eq_G (x0 x1 : (⟨S100000x64, .f32⟩ : BufTy).Contents (Elt Ideal)) (x2 x3 : (⟨S1000000, .i32⟩ : BufTy).Contents (Elt Ideal))
    (x4 : (⟨S129x64, .f32⟩ : BufTy).Contents (Elt Ideal)) (x5 : (⟨S64, .f32⟩ : BufTy).Contents (Elt Ideal)) (x6 : (⟨S64x1, .f32⟩ : BufTy).Contents (Elt Ideal)) (x7 : (⟨S1, .f32⟩ : BufTy).Contents (Elt Ideal)) (h2 : Cert.Proof.Spec.InRange x2) (h3 : Cert.Proof.Spec.InRange x3) :
    Cert.ReferenceIdeal.Read.val_main_v48 (F := Ideal) x0 x1 x2 x3 x4 x5 x6 x7 = Cert.Proof.Spec.G x0 x1 x2 x3 x4 x5 x6 x7 := by
  funext i
  obtain ⟨e, z, rfl⟩ : ∃ (e : Fin 1000000) (z : Fin 1), i = ix2 e z := ⟨i 0, i 1, eq_ix2 i⟩
  obtain rfl : z = 0 := Subsingleton.elim _ _
  exact v48_at x0 x1 x2 x3 x4 x5 x6 x7 h2 h3 e

end Cert.ReferenceIdeal.RefValue

end
-- ==== Proof.KernelKit.lean ====
import proofs.«401610_j38122129719601_1_alg».proof.Proof.Gen.Kernel.Frame
import proofs.«401610_j38122129719601_1_alg».proof.Proof.Gen.Kernel.Loops
import Idealize.ShloMosaic.Lib.Batch

/-! # The gather kernel's own transfers: the region invariant, conjunct by conjunct

The kernel copies table rows out of the two embedding tables, which stay in HBM, into two scratch blocks, on 32 DMA
semaphores of its own (16 per table), and waits for every copy inside the grid point that issued it. Between grid points
nothing is in flight: the two tables are whole at their launch contents, the two scratch blocks hold anything, every one
of the 32 semaphores is at zero. This module spells that invariant out and states @main around the region for it. -/

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two tables, left in HBM, and the two scratch blocks their rows are copied into. -/
abbrev M3 : Memref sig .tc .hbm S100000x64 .f32 := Memref.whole main_arg0
abbrev M4 : Memref sig .tc .hbm S100000x64 .f32 := Memref.whole main_arg1
abbrev M10 : Memref sig .tc .vmem S1024x64 .f32 := Memref.whole cc0_scratch0
abbrev M11 : Memref sig .tc .vmem S1024x64 .f32 := Memref.whole cc0_scratch1

/-- Each window's current staging memref at point `t`, and its wholeness. -/
abbrev ms0 (t : Fin cfg0.N) : Memref sig .tc .smem S1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S129x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)

/-- A memref's buffer on core `c`: its contents type. -/
abbrev HbBuf (c : Dev nD) {sp : Space} {S : Shape} {e : EltTy} (M : Memref sig .tc sp S e) : Type := Buf (Elt F) (M.view.loc (c : Thread nD τ))

/-- The kernel's own DMA semaphores: cells 10 to 41 of the pool (16 for each table's copies). -/
abbrev osem0 : Fin 32 → SemLoc sig := fun j => SemLoc.dma ⟨10 + j.val, by have := j.isLt; show 10 + j.val < 42; omega⟩
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The tables the kernel reads by its own copies: unscoped, no window's array. -/
def H0 : Finset (Ref sig .tc) := {main_arg0, main_arg1}
theorem H0_sub : H0 ⊆ Pipeline.restRefs sig spec0 := by decide
/-- Their points-tos at the region-entry contents, listed. -/
theorem hbmPts0_eq (c : Dev nD) :
    (bigSep H0 (fun b => ((c : Thread nD τ).loc b) ↦{fullShare} V m c b) : sProp 𝕄)
      = iprop((M3.view.loc (c : Thread nD τ) ↦{fullShare} V m c main_arg0) ∗ (M4.view.loc (c : Thread nD τ) ↦{fullShare} V m c main_arg1)) := by
  rw [BI.bigSep_eq_bigSepL_of_eq [main_arg0, main_arg1] (by decide) (by decide)]; rfl

/-- The region invariant conjunct by conjunct: the two scratch blocks at some contents, the generator register at some
    state, the 32 cells at zero, the two tables at their region-entry contents. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ (∃ r, prngReg c r)
          ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0)
          ∗ iprop((M3.view.loc (c : Thread nD τ) ↦{fullShare} V m c main_arg0) ∗ (M4.view.loc (c : Thread nD τ) ↦{fullShare} V m c main_arg1))) := by
  rw [Pipeline.ΦD_eq, scopedRest0_eq, ownSems00_eq, hbmPts0_eq]

/-- @main around the region at the algebra that carries the transfers' counters: the host lines before it, the region,
    the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

end Cert.Kernel.Body

end
-- ==== Proof.KernelLoop.lean ====
import proofs.«401610_j38122129719601_1_alg».proof.Proof.KernelKit
import Idealize.ShloMosaic.Lib.ValueIdx

/-! # The gather loop and the kernel body's run

One grid point handles 1024 edges. Its counted loop runs 64 trips; trip `k` reads the 16 index words `16k … 16k+15` of each
of the two index blocks, starts for each word a copy of the table row it names into the row of the same number of a
scratch block — 32 copies in flight at once, each on a semaphore of its own —, and waits for all of them. So before trip
`k` rows `0 … 16k−1` of each scratch block already hold the table rows their index words name, and after the last trip
every row does. The body then loads the two scratch blocks whole, computes, and stores the ratings block. -/

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The index words name table rows -/

/-- Every word of an index block lies below the table's row count. -/
def WordsOK (x : S1024.Idx → Elt F .i32) : Prop := ∀ e, (show BitVec 32 from x e).toNat < 100000

/-- A table row's offsets `(v, 0)` with its extents `(1, 64)` lie inside the table when `v` is below the row count: the
    side condition the body assumes of each index word it reads. -/
theorem chk_core (v : BitVec 32) (h : v.toNat < 100000) :
    ∀ a : Fin 2, (![v.toNat, 0] : Fin 2 → ℕ) a + S1x64.size a ≤ S100000x64.size a := by
  intro a
  match a with
  | ⟨0, _⟩ => show v.toNat + 1 ≤ 100000; omega
  | ⟨1, _⟩ => show 0 + 64 ≤ 64; omega

/-- A word loaded from an index block whose words are all row numbers is a row number. -/
theorem word_lt (a : Memref sig .tc .smem S1024 .i32) (ha : a.IsWhole) (x : S1024.Idx → Elt F .i32) (hx : WordsOK x)
    (r : LoadRect S1024) (i : r.shape.Idx) :
    (show BitVec 32 from View.readAt (Elt F) a.view r (ha.unread x) i).toNat < 100000 := by
  rw [View.readAt_apply, ha.read_unread]; exact hx _

/-! ## What the scratch blocks hold -/

/-- Rows `0 … n−1` of the scratch block `D` (contents `g`) are the rows of the table `S` (contents `f`) that the index
    words `x` name. -/
def RowsOK (c : Dev nD) (D : Memref sig .tc .vmem S1024x64 .f32) (S : Memref sig .tc .hbm S100000x64 .f32)
    (g : HbBuf (F := F) c D) (f : HbBuf (F := F) c S) (x : S1024.Idx → Elt F .i32) (hx : WordsOK x) (n : ℕ) : Prop :=
  ∀ (r : Fin 1024) (col : Fin 64), r.val < n →
    D.view.read (Elt F) g (ix2 r col) = S.view.read (Elt F) f (ix2 ⟨(show BitVec 32 from x (ix1 r)).toNat, hx _⟩ col)

/-- The block of table rows the index words name: what a scratch block holds once every row has landed. -/
def gathered (c : Dev nD) (S : Memref sig .tc .hbm S100000x64 .f32) (f : HbBuf (F := F) c S) (x : S1024.Idx → Elt F .i32)
    (hx : WordsOK x) : Vec F S1024x64 .f32 :=
  fun y => S.view.read (Elt F) f (ix2 ⟨(show BitVec 32 from x (ix1 (y 0))).toNat, hx _⟩ (y 1))

theorem read_eq_gathered (c : Dev nD) (D : Memref sig .tc .vmem S1024x64 .f32) (S : Memref sig .tc .hbm S100000x64 .f32)
    (g : HbBuf (F := F) c D) (f : HbBuf (F := F) c S) (x : S1024.Idx → Elt F .i32) (hx : WordsOK x)
    (h : RowsOK c D S g f x hx 1024) : D.view.read (Elt F) g = gathered c S f x hx := by
  funext y
  have hy := eq_ix2 y
  rw [hy]
  exact h (y 0) (y 1) (y 0).isLt

/-! ## The loop's invariant -/

/-- Before trip `k`: both index blocks held, each table held as one read share per semaphore its copies complete on, the
    scratch blocks' first `16k` rows landed, every semaphore at zero. -/
def inv (c : Dev nD) (a1 a2 : Memref sig .tc .smem S1024 .i32) (h1 : a1.IsWhole) (h2 : a2.IsWhole)
    (x1 x2 : S1024.Idx → Elt F .i32) (hx1 : WordsOK x1) (hx2 : WordsOK x2) (f3 : HbBuf (F := F) c M3) (f4 : HbBuf (F := F) c M4)
    (k : ℕ) (_ : Unit) : sProp 𝕄 :=
  iprop((a1.view.loc (c : Thread nD τ) ↦[a1.view.set]{fullShare} h1.unread x1) ∗ (a2.view.loc (c : Thread nD τ) ↦[a2.view.set]{fullShare} h2.unread x2)
    ∗ (M3.view.loc (c : Thread nD τ) ↦{Transfers.shareTokN fullShare 10} f3) ∗ (M3.view.loc (c : Thread nD τ) ↦{Transfers.shareTokN fullShare 11} f3) ∗ (M3.view.loc (c : Thread nD τ) ↦{Transfers.shareTokN fullShare 12} f3) ∗ (M3.view.loc (c : Thread nD τ) ↦{Transfers.shareTokN fullShare 13} f3) ∗ (M3.view.loc (c : Thread nD τ) ↦{Transfers.shareTokN fullShare 14} f3) ∗ (M3.view.loc (c : Thread nD τ) ↦{Transfers.shareTokN fullShare 15} f3) ∗ (M3.view.loc (c : Thread nD τ) ↦{Transfers.shareTokN fullShare 16} f3) ∗ (M3.view.loc (c : Thread nD τ) ↦{Transfers.shareTokN fullShare 17} f3) ∗ (M3.view.loc (c : Thread nD τ) ↦{Transfers.shareTokN fullShare 18} f3) ∗ (M3.view.loc (c : Thread nD τ) ↦{Transfers.shareTokN fullShare 19} f3) ∗ (M3.view.loc (c : Thread nD τ) ↦{Transfers.shareTokN fullShare 20} f3) ∗ (M3.view.loc (c : Thread nD τ) ↦{Transfers.shareTokN fullShare 21} f3) ∗ (M3.view.loc (c : Thread nD τ) ↦{Transfers.shareTokN fullShare 22} f3) ∗ (M3.view.loc (c : Thread nD τ) ↦{Transfers.shareTokN fullShare 23} f3) ∗ (M3.view.loc (c : Thread nD τ) ↦{Transfers.shareTokN fullShare 24} f3) ∗ (M3.view.loc (c : Thread nD τ) ↦{Transfers.shareTokN fullShare 25} f3)
    ∗ (M4.view.loc (c : Thread nD τ) ↦{Transfers.shareTokN fullShare 26} f4) ∗ (M4.view.loc (c : Thread nD τ) ↦{Transfers.shareTokN fullShare 27} f4) ∗ (M4.view.loc (c : Thread nD τ) ↦{Transfers.shareTokN fullShare 28} f4) ∗ (M4.view.loc (c : Thread nD τ) ↦{Transfers.shareTokN fullShare 29} f4) ∗ (M4.view.loc (c : Thread nD τ) ↦{Transfers.shareTokN fullShare 30} f4) ∗ (M4.view.loc (c : Thread nD τ) ↦{Transfers.shareTokN fullShare 31} f4) ∗ (M4.view.loc (c : Thread nD τ) ↦{Transfers.shareTokN fullShare 32} f4) ∗ (M4.view.loc (c : Thread nD τ) ↦{Transfers.shareTokN fullShare 33} f4) ∗ (M4.view.loc (c : Thread nD τ) ↦{Transfers.shareTokN fullShare 34} f4) ∗ (M4.view.loc (c : Thread nD τ) ↦{Transfers.shareTokN fullShare 35} f4) ∗ (M4.view.loc (c : Thread nD τ) ↦{Transfers.shareTokN fullShare 36} f4) ∗ (M4.view.loc (c : Thread nD τ) ↦{Transfers.shareTokN fullShare 37} f4) ∗ (M4.view.loc (c : Thread nD τ) ↦{Transfers.shareTokN fullShare 38} f4) ∗ (M4.view.loc (c : Thread nD τ) ↦{Transfers.shareTokN fullShare 39} f4) ∗ (M4.view.loc (c : Thread nD τ) ↦{Transfers.shareTokN fullShare 40} f4) ∗ (M4.view.loc (c : Thread nD τ) ↦{Transfers.shareTokN fullShare 41} f4)
    ∗ (∃ g : HbBuf (F := F) c M10, (M10.view.loc (c : Thread nD τ) ↦{fullShare} g) ∗ ⌜RowsOK c M10 M3 g f3 x1 hx1 (16 * k)⌝)
    ∗ (∃ g : HbBuf (F := F) c M11, (M11.view.loc (c : Thread nD τ) ↦{fullShare} g) ∗ ⌜RowsOK c M11 M4 g f4 x2 hx2 (16 * k)⌝)
    ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0
    ∗ (∃ W, owes (c : Thread nD τ) 0 W))

/-- A table held whole is its 16 read shares and the remainder. -/
def restA (c : Dev nD) (f3 : HbBuf (F := F) c M3) : sProp 𝕄 :=
  iprop((M3.view.loc (c : Thread nD τ) ↦{Transfers.shareDrop fullShare 26} f3) ∗ (M3.view.loc (c : Thread nD τ) ↦{Transfers.shareTokN fullShare 0} f3) ∗ (M3.view.loc (c : Thread nD τ) ↦{Transfers.shareTokN fullShare 1} f3) ∗ (M3.view.loc (c : Thread nD τ) ↦{Transfers.shareTokN fullShare 2} f3) ∗ (M3.view.loc (c : Thread nD τ) ↦{Transfers.shareTokN fullShare 3} f3) ∗ (M3.view.loc (c : Thread nD τ) ↦{Transfers.shareTokN fullShare 4} f3) ∗ (M3.view.loc (c : Thread nD τ) ↦{Transfers.shareTokN fullShare 5} f3) ∗ (M3.view.loc (c : Thread nD τ) ↦{Transfers.shareTokN fullShare 6} f3) ∗ (M3.view.loc (c : Thread nD τ) ↦{Transfers.shareTokN fullShare 7} f3) ∗ (M3.view.loc (c : Thread nD τ) ↦{Transfers.shareTokN fullShare 8} f3) ∗ (M3.view.loc (c : Thread nD τ) ↦{Transfers.shareTokN fullShare 9} f3))
def restB (c : Dev nD) (f4 : HbBuf (F := F) c M4) : sProp 𝕄 :=
  iprop((M4.view.loc (c : Thread nD τ) ↦{Transfers.shareDrop fullShare 42} f4) ∗ (M4.view.loc (c : Thread nD τ) ↦{Transfers.shareTokN fullShare 0} f4) ∗ (M4.view.loc (c : Thread nD τ) ↦{Transfers.shareTokN fullShare 1} f4) ∗ (M4.view.loc (c : Thread nD τ) ↦{Transfers.shareTokN fullShare 2} f4) ∗ (M4.view.loc (c : Thread nD τ) ↦{Transfers.shareTokN fullShare 3} f4) ∗ (M4.view.loc (c : Thread nD τ) ↦{Transfers.shareTokN fullShare 4} f4) ∗ (M4.view.loc (c : Thread nD τ) ↦{Transfers.shareTokN fullShare 5} f4) ∗ (M4.view.loc (c : Thread nD τ) ↦{Transfers.shareTokN fullShare 6} f4) ∗ (M4.view.loc (c : Thread nD τ) ↦{Transfers.shareTokN fullShare 7} f4) ∗ (M4.view.loc (c : Thread nD τ) ↦{Transfers.shareTokN fullShare 8} f4) ∗ (M4.view.loc (c : Thread nD τ) ↦{Transfers.shareTokN fullShare 9} f4) ∗ (M4.view.loc (c : Thread nD τ) ↦{Transfers.shareTokN fullShare 10} f4) ∗ (M4.view.loc (c : Thread nD τ) ↦{Transfers.shareTokN fullShare 11} f4) ∗ (M4.view.loc (c : Thread nD τ) ↦{Transfers.shareTokN fullShare 12} f4) ∗ (M4.view.loc (c : Thread nD τ) ↦{Transfers.shareTokN fullShare 13} f4) ∗ (M4.view.loc (c : Thread nD τ) ↦{Transfers.shareTokN fullShare 14} f4) ∗ (M4.view.loc (c : Thread nD τ) ↦{Transfers.shareTokN fullShare 15} f4) ∗ (M4.view.loc (c : Thread nD τ) ↦{Transfers.shareTokN fullShare 16} f4) ∗ (M4.view.loc (c : Thread nD τ) ↦{Transfers.shareTokN fullShare 17} f4) ∗ (M4.view.loc (c : Thread nD τ) ↦{Transfers.shareTokN fullShare 18} f4) ∗ (M4.view.loc (c : Thread nD τ) ↦{Transfers.shareTokN fullShare 19} f4) ∗ (M4.view.loc (c : Thread nD τ) ↦{Transfers.shareTokN fullShare 20} f4) ∗ (M4.view.loc (c : Thread nD τ) ↦{Transfers.shareTokN fullShare 21} f4) ∗ (M4.view.loc (c : Thread nD τ) ↦{Transfers.shareTokN fullShare 22} f4) ∗ (M4.view.loc (c : Thread nD τ) ↦{Transfers.shareTokN fullShare 23} f4) ∗ (M4.view.loc (c : Thread nD τ) ↦{Transfers.shareTokN fullShare 24} f4) ∗ (M4.view.loc (c : Thread nD τ) ↦{Transfers.shareTokN fullShare 25} f4))

theorem splitA (c : Dev nD) (f3 : HbBuf (F := F) c M3) :
    (M3.view.loc (c : Thread nD τ) ↦{fullShare} f3 : sProp 𝕄) ⊣⊢ iprop(restA c f3 ∗ (M3.view.loc (c : Thread nD τ) ↦{Transfers.shareTokN fullShare 10} f3) ∗ (M3.view.loc (c : Thread nD τ) ↦{Transfers.shareTokN fullShare 11} f3) ∗ (M3.view.loc (c : Thread nD τ) ↦{Transfers.shareTokN fullShare 12} f3) ∗ (M3.view.loc (c : Thread nD τ) ↦{Transfers.shareTokN fullShare 13} f3) ∗ (M3.view.loc (c : Thread nD τ) ↦{Transfers.shareTokN fullShare 14} f3) ∗ (M3.view.loc (c : Thread nD τ) ↦{Transfers.shareTokN fullShare 15} f3) ∗ (M3.view.loc (c : Thread nD τ) ↦{Transfers.shareTokN fullShare 16} f3) ∗ (M3.view.loc (c : Thread nD τ) ↦{Transfers.shareTokN fullShare 17} f3) ∗ (M3.view.loc (c : Thread nD τ) ↦{Transfers.shareTokN fullShare 18} f3) ∗ (M3.view.loc (c : Thread nD τ) ↦{Transfers.shareTokN fullShare 19} f3) ∗ (M3.view.loc (c : Thread nD τ) ↦{Transfers.shareTokN fullShare 20} f3) ∗ (M3.view.loc (c : Thread nD τ) ↦{Transfers.shareTokN fullShare 21} f3) ∗ (M3.view.loc (c : Thread nD τ) ↦{Transfers.shareTokN fullShare 22} f3) ∗ (M3.view.loc (c : Thread nD τ) ↦{Transfers.shareTokN fullShare 23} f3) ∗ (M3.view.loc (c : Thread nD τ) ↦{Transfers.shareTokN fullShare 24} f3) ∗ (M3.view.loc (c : Thread nD τ) ↦{Transfers.shareTokN fullShare 25} f3)) := by
  have h : (M3.view.loc (c : Thread nD τ) ↦{fullShare} f3 : sProp 𝕄) ⊣⊢ iprop((M3.view.loc (c : Thread nD τ) ↦{Transfers.shareDrop fullShare 26} f3) ∗ (M3.view.loc (c : Thread nD τ) ↦{Transfers.shareTokN fullShare 0} f3) ∗ (M3.view.loc (c : Thread nD τ) ↦{Transfers.shareTokN fullShare 1} f3) ∗ (M3.view.loc (c : Thread nD τ) ↦{Transfers.shareTokN fullShare 2} f3) ∗ (M3.view.loc (c : Thread nD τ) ↦{Transfers.shareTokN fullShare 3} f3) ∗ (M3.view.loc (c : Thread nD τ) ↦{Transfers.shareTokN fullShare 4} f3) ∗ (M3.view.loc (c : Thread nD τ) ↦{Transfers.shareTokN fullShare 5} f3) ∗ (M3.view.loc (c : Thread nD τ) ↦{Transfers.shareTokN fullShare 6} f3) ∗ (M3.view.loc (c : Thread nD τ) ↦{Transfers.shareTokN fullShare 7} f3) ∗ (M3.view.loc (c : Thread nD τ) ↦{Transfers.shareTokN fullShare 8} f3) ∗ (M3.view.loc (c : Thread nD τ) ↦{Transfers.shareTokN fullShare 9} f3) ∗ (M3.view.loc (c : Thread nD τ) ↦{Transfers.shareTokN fullShare 10} f3) ∗ (M3.view.loc (c : Thread nD τ) ↦{Transfers.shareTokN fullShare 11} f3) ∗ (M3.view.loc (c : Thread nD τ) ↦{Transfers.shareTokN fullShare 12} f3) ∗ (M3.view.loc (c : Thread nD τ) ↦{Transfers.shareTokN fullShare 13} f3) ∗ (M3.view.loc (c : Thread nD τ) ↦{Transfers.shareTokN fullShare 14} f3) ∗ (M3.view.loc (c : Thread nD τ) ↦{Transfers.shareTokN fullShare 15} f3) ∗ (M3.view.loc (c : Thread nD τ) ↦{Transfers.shareTokN fullShare 16} f3) ∗ (M3.view.loc (c : Thread nD τ) ↦{Transfers.shareTokN fullShare 17} f3) ∗ (M3.view.loc (c : Thread nD τ) ↦{Transfers.shareTokN fullShare 18} f3) ∗ (M3.view.loc (c : Thread nD τ) ↦{Transfers.shareTokN fullShare 19} f3) ∗ (M3.view.loc (c : Thread nD τ) ↦{Transfers.shareTokN fullShare 20} f3) ∗ (M3.view.loc (c : Thread nD τ) ↦{Transfers.shareTokN fullShare 21} f3) ∗ (M3.view.loc (c : Thread nD τ) ↦{Transfers.shareTokN fullShare 22} f3) ∗ (M3.view.loc (c : Thread nD τ) ↦{Transfers.shareTokN fullShare 23} f3) ∗ (M3.view.loc (c : Thread nD τ) ↦{Transfers.shareTokN fullShare 24} f3) ∗ (M3.view.loc (c : Thread nD τ) ↦{Transfers.shareTokN fullShare 25} f3)) := by
    have h0 := Transfers.pointsTo_toks_range (Ix := Unit) (Name := ℕ) (U := Pipeline.UD sig nD τ) (Lvl := ℕ) (ℓ := M3.view.loc (c : Thread nD τ)) (S := Finset.univ) (f := f3) fullShare 26
    rw [BI.bigSep_eq_bigSepL_of_eq [0, 1, 2, 3, 4, 5, 6, 7, 8, 9, 10, 11, 12, 13, 14, 15, 16, 17, 18, 19, 20, 21, 22, 23, 24, 25] (by decide) (by decide)] at h0
    exact h0
  unfold restA
  refine ⟨h.1.trans ?_, BIBase.Entails.trans ?_ h.2⟩
  · iintro ⟨Hd, IA0, IA1, IA2, IA3, IA4, IA5, IA6, IA7, IA8, IA9, TA0, TA1, TA2, TA3, TA4, TA5, TA6, TA7, TA8, TA9, TA10, TA11, TA12, TA13, TA14, TA15⟩
    isplitl [Hd IA0 IA1 IA2 IA3 IA4 IA5 IA6 IA7 IA8 IA9]
    · isplitl [Hd]; · iexact Hd
      isplitl [IA0]; · iexact IA0
      isplitl [IA1]; · iexact IA1
      isplitl [IA2]; · iexact IA2
      isplitl [IA3]; · iexact IA3
      isplitl [IA4]; · iexact IA4
      isplitl [IA5]; · iexact IA5
      isplitl [IA6]; · iexact IA6
      isplitl [IA7]; · iexact IA7
      isplitl [IA8]; · iexact IA8
      iexact IA9
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  · iintro ⟨⟨Hd, IA0, IA1, IA2, IA3, IA4, IA5, IA6, IA7, IA8, IA9⟩, TA0, TA1, TA2, TA3, TA4, TA5, TA6, TA7, TA8, TA9, TA10, TA11, TA12, TA13, TA14, TA15⟩
    isplitl [Hd]; · iexact Hd
    isplitl [IA0]; · iexact IA0
    isplitl [IA1]; · iexact IA1
    isplitl [IA2]; · iexact IA2
    isplitl [IA3]; · iexact IA3
    isplitl [IA4]; · iexact IA4
    isplitl [IA5]; · iexact IA5
    isplitl [IA6]; · iexact IA6
    isplitl [IA7]; · iexact IA7
    isplitl [IA8]; · iexact IA8
    isplitl [IA9]; · iexact IA9
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15

theorem splitB (c : Dev nD) (f4 : HbBuf (F := F) c M4) :
    (M4.view.loc (c : Thread nD τ) ↦{fullShare} f4 : sProp 𝕄) ⊣⊢ iprop(restB c f4 ∗ (M4.view.loc (c : Thread nD τ) ↦{Transfers.shareTokN fullShare 26} f4) ∗ (M4.view.loc (c : Thread nD τ) ↦{Transfers.shareTokN fullShare 27} f4) ∗ (M4.view.loc (c : Thread nD τ) ↦{Transfers.shareTokN fullShare 28} f4) ∗ (M4.view.loc (c : Thread nD τ) ↦{Transfers.shareTokN fullShare 29} f4) ∗ (M4.view.loc (c : Thread nD τ) ↦{Transfers.shareTokN fullShare 30} f4) ∗ (M4.view.loc (c : Thread nD τ) ↦{Transfers.shareTokN fullShare 31} f4) ∗ (M4.view.loc (c : Thread nD τ) ↦{Transfers.shareTokN fullShare 32} f4) ∗ (M4.view.loc (c : Thread nD τ) ↦{Transfers.shareTokN fullShare 33} f4) ∗ (M4.view.loc (c : Thread nD τ) ↦{Transfers.shareTokN fullShare 34} f4) ∗ (M4.view.loc (c : Thread nD τ) ↦{Transfers.shareTokN fullShare 35} f4) ∗ (M4.view.loc (c : Thread nD τ) ↦{Transfers.shareTokN fullShare 36} f4) ∗ (M4.view.loc (c : Thread nD τ) ↦{Transfers.shareTokN fullShare 37} f4) ∗ (M4.view.loc (c : Thread nD τ) ↦{Transfers.shareTokN fullShare 38} f4) ∗ (M4.view.loc (c : Thread nD τ) ↦{Transfers.shareTokN fullShare 39} f4) ∗ (M4.view.loc (c : Thread nD τ) ↦{Transfers.shareTokN fullShare 40} f4) ∗ (M4.view.loc (c : Thread nD τ) ↦{Transfers.shareTokN fullShare 41} f4)) := by
  have h : (M4.view.loc (c : Thread nD τ) ↦{fullShare} f4 : sProp 𝕄) ⊣⊢ iprop((M4.view.loc (c : Thread nD τ) ↦{Transfers.shareDrop fullShare 42} f4) ∗ (M4.view.loc (c : Thread nD τ) ↦{Transfers.shareTokN fullShare 0} f4) ∗ (M4.view.loc (c : Thread nD τ) ↦{Transfers.shareTokN fullShare 1} f4) ∗ (M4.view.loc (c : Thread nD τ) ↦{Transfers.shareTokN fullShare 2} f4) ∗ (M4.view.loc (c : Thread nD τ) ↦{Transfers.shareTokN fullShare 3} f4) ∗ (M4.view.loc (c : Thread nD τ) ↦{Transfers.shareTokN fullShare 4} f4) ∗ (M4.view.loc (c : Thread nD τ) ↦{Transfers.shareTokN fullShare 5} f4) ∗ (M4.view.loc (c : Thread nD τ) ↦{Transfers.shareTokN fullShare 6} f4) ∗ (M4.view.loc (c : Thread nD τ) ↦{Transfers.shareTokN fullShare 7} f4) ∗ (M4.view.loc (c : Thread nD τ) ↦{Transfers.shareTokN fullShare 8} f4) ∗ (M4.view.loc (c : Thread nD τ) ↦{Transfers.shareTokN fullShare 9} f4) ∗ (M4.view.loc (c : Thread nD τ) ↦{Transfers.shareTokN fullShare 10} f4) ∗ (M4.view.loc (c : Thread nD τ) ↦{Transfers.shareTokN fullShare 11} f4) ∗ (M4.view.loc (c : Thread nD τ) ↦{Transfers.shareTokN fullShare 12} f4) ∗ (M4.view.loc (c : Thread nD τ) ↦{Transfers.shareTokN fullShare 13} f4) ∗ (M4.view.loc (c : Thread nD τ) ↦{Transfers.shareTokN fullShare 14} f4) ∗ (M4.view.loc (c : Thread nD τ) ↦{Transfers.shareTokN fullShare 15} f4) ∗ (M4.view.loc (c : Thread nD τ) ↦{Transfers.shareTokN fullShare 16} f4) ∗ (M4.view.loc (c : Thread nD τ) ↦{Transfers.shareTokN fullShare 17} f4) ∗ (M4.view.loc (c : Thread nD τ) ↦{Transfers.shareTokN fullShare 18} f4) ∗ (M4.view.loc (c : Thread nD τ) ↦{Transfers.shareTokN fullShare 19} f4) ∗ (M4.view.loc (c : Thread nD τ) ↦{Transfers.shareTokN fullShare 20} f4) ∗ (M4.view.loc (c : Thread nD τ) ↦{Transfers.shareTokN fullShare 21} f4) ∗ (M4.view.loc (c : Thread nD τ) ↦{Transfers.shareTokN fullShare 22} f4) ∗ (M4.view.loc (c : Thread nD τ) ↦{Transfers.shareTokN fullShare 23} f4) ∗ (M4.view.loc (c : Thread nD τ) ↦{Transfers.shareTokN fullShare 24} f4) ∗ (M4.view.loc (c : Thread nD τ) ↦{Transfers.shareTokN fullShare 25} f4) ∗ (M4.view.loc (c : Thread nD τ) ↦{Transfers.shareTokN fullShare 26} f4) ∗ (M4.view.loc (c : Thread nD τ) ↦{Transfers.shareTokN fullShare 27} f4) ∗ (M4.view.loc (c : Thread nD τ) ↦{Transfers.shareTokN fullShare 28} f4) ∗ (M4.view.loc (c : Thread nD τ) ↦{Transfers.shareTokN fullShare 29} f4) ∗ (M4.view.loc (c : Thread nD τ) ↦{Transfers.shareTokN fullShare 30} f4) ∗ (M4.view.loc (c : Thread nD τ) ↦{Transfers.shareTokN fullShare 31} f4) ∗ (M4.view.loc (c : Thread nD τ) ↦{Transfers.shareTokN fullShare 32} f4) ∗ (M4.view.loc (c : Thread nD τ) ↦{Transfers.shareTokN fullShare 33} f4) ∗ (M4.view.loc (c : Thread nD τ) ↦{Transfers.shareTokN fullShare 34} f4) ∗ (M4.view.loc (c : Thread nD τ) ↦{Transfers.shareTokN fullShare 35} f4) ∗ (M4.view.loc (c : Thread nD τ) ↦{Transfers.shareTokN fullShare 36} f4) ∗ (M4.view.loc (c : Thread nD τ) ↦{Transfers.shareTokN fullShare 37} f4) ∗ (M4.view.loc (c : Thread nD τ) ↦{Transfers.shareTokN fullShare 38} f4) ∗ (M4.view.loc (c : Thread nD τ) ↦{Transfers.shareTokN fullShare 39} f4) ∗ (M4.view.loc (c : Thread nD τ) ↦{Transfers.shareTokN fullShare 40} f4) ∗ (M4.view.loc (c : Thread nD τ) ↦{Transfers.shareTokN fullShare 41} f4)) := by
    have h0 := Transfers.pointsTo_toks_range (Ix := Unit) (Name := ℕ) (U := Pipeline.UD sig nD τ) (Lvl := ℕ) (ℓ := M4.view.loc (c : Thread nD τ)) (S := Finset.univ) (f := f4) fullShare 42
    rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41] (by decide) (by decide)] at h0
    exact h0
  unfold restB
  refine ⟨h.1.trans ?_, BIBase.Entails.trans ?_ h.2⟩
  · iintro ⟨Hd, IB0, IB1, IB2, IB3, IB4, IB5, IB6, IB7, IB8, IB9, IB10, IB11, IB12, IB13, IB14, IB15, IB16, IB17, IB18, IB19, IB20, IB21, IB22, IB23, IB24, IB25, TB0, TB1, TB2, TB3, TB4, TB5, TB6, TB7, TB8, TB9, TB10, TB11, TB12, TB13, TB14, TB15⟩
    isplitl [Hd IB0 IB1 IB2 IB3 IB4 IB5 IB6 IB7 IB8 IB9 IB10 IB11 IB12 IB13 IB14 IB15 IB16 IB17 IB18 IB19 IB20 IB21 IB22 IB23 IB24 IB25]
    · isplitl [Hd]; · iexact Hd
      isplitl [IB0]; · iexact IB0
      isplitl [IB1]; · iexact IB1
      isplitl [IB2]; · iexact IB2
      isplitl [IB3]; · iexact IB3
      isplitl [IB4]; · iexact IB4
      isplitl [IB5]; · iexact IB5
      isplitl [IB6]; · iexact IB6
      isplitl [IB7]; · iexact IB7
      isplitl [IB8]; · iexact IB8
      isplitl [IB9]; · iexact IB9
      isplitl [IB10]; · iexact IB10
      isplitl [IB11]; · iexact IB11
      isplitl [IB12]; · iexact IB12
      isplitl [IB13]; · iexact IB13
      isplitl [IB14]; · iexact IB14
      isplitl [IB15]; · iexact IB15
      isplitl [IB16]; · iexact IB16
      isplitl [IB17]; · iexact IB17
      isplitl [IB18]; · iexact IB18
      isplitl [IB19]; · iexact IB19
      isplitl [IB20]; · iexact IB20
      isplitl [IB21]; · iexact IB21
      isplitl [IB22]; · iexact IB22
      isplitl [IB23]; · iexact IB23
      isplitl [IB24]; · iexact IB24
      iexact IB25
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  · iintro ⟨⟨Hd, IB0, IB1, IB2, IB3, IB4, IB5, IB6, IB7, IB8, IB9, IB10, IB11, IB12, IB13, IB14, IB15, IB16, IB17, IB18, IB19, IB20, IB21, IB22, IB23, IB24, IB25⟩, TB0, TB1, TB2, TB3, TB4, TB5, TB6, TB7, TB8, TB9, TB10, TB11, TB12, TB13, TB14, TB15⟩
    isplitl [Hd]; · iexact Hd
    isplitl [IB0]; · iexact IB0
    isplitl [IB1]; · iexact IB1
    isplitl [IB2]; · iexact IB2
    isplitl [IB3]; · iexact IB3
    isplitl [IB4]; · iexact IB4
    isplitl [IB5]; · iexact IB5
    isplitl [IB6]; · iexact IB6
    isplitl [IB7]; · iexact IB7
    isplitl [IB8]; · iexact IB8
    isplitl [IB9]; · iexact IB9
    isplitl [IB10]; · iexact IB10
    isplitl [IB11]; · iexact IB11
    isplitl [IB12]; · iexact IB12
    isplitl [IB13]; · iexact IB13
    isplitl [IB14]; · iexact IB14
    isplitl [IB15]; · iexact IB15
    isplitl [IB16]; · iexact IB16
    isplitl [IB17]; · iexact IB17
    isplitl [IB18]; · iexact IB18
    isplitl [IB19]; · iexact IB19
    isplitl [IB20]; · iexact IB20
    isplitl [IB21]; · iexact IB21
    isplitl [IB22]; · iexact IB22
    isplitl [IB23]; · iexact IB23
    isplitl [IB24]; · iexact IB24
    isplitl [IB25]; · iexact IB25
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15

end Cert.Kernel.Body

end
-- ==== Proof.KernelOffs.lean ====
import proofs.«401610_j38122129719601_1_alg».proof.Kernel

/-! # The gather loop's offsets in closed form

Trip `k` of the loop handles the 16 edges `16k + j`, `j < 16`: it reads index word `16k + j` of each index block and
copies into row `16k + j` of each scratch block, from column 0. The printed offset chains (32-bit multiplications and
additions of the trip's induction variable) are these numbers for every one of the 64 trips: no chain wraps. -/

namespace Cert.Kernel.Offs

open Cert.Kernel Idealize.ShloMosaic

theorem word0 : ∀ k : Fin k0_t1_loop.trips, k0_off1 k 0 = 16 * k.val + 0 := by decide +kernel
theorem rowA0 : ∀ k : Fin k0_t1_loop.trips, k0_off2 k 0 = 16 * k.val + 0 := by decide +kernel
theorem rowB0 : ∀ k : Fin k0_t1_loop.trips, k0_off4 k 0 = 16 * k.val + 0 := by decide +kernel
theorem word1 : ∀ k : Fin k0_t1_loop.trips, k0_off6 k 0 = 16 * k.val + 1 := by decide +kernel
theorem rowA1 : ∀ k : Fin k0_t1_loop.trips, k0_off7 k 0 = 16 * k.val + 1 := by decide +kernel
theorem rowB1 : ∀ k : Fin k0_t1_loop.trips, k0_off9 k 0 = 16 * k.val + 1 := by decide +kernel
theorem word2 : ∀ k : Fin k0_t1_loop.trips, k0_off11 k 0 = 16 * k.val + 2 := by decide +kernel
theorem rowA2 : ∀ k : Fin k0_t1_loop.trips, k0_off12 k 0 = 16 * k.val + 2 := by decide +kernel
theorem rowB2 : ∀ k : Fin k0_t1_loop.trips, k0_off14 k 0 = 16 * k.val + 2 := by decide +kernel
theorem word3 : ∀ k : Fin k0_t1_loop.trips, k0_off16 k 0 = 16 * k.val + 3 := by decide +kernel
theorem rowA3 : ∀ k : Fin k0_t1_loop.trips, k0_off17 k 0 = 16 * k.val + 3 := by decide +kernel
theorem rowB3 : ∀ k : Fin k0_t1_loop.trips, k0_off19 k 0 = 16 * k.val + 3 := by decide +kernel
theorem word4 : ∀ k : Fin k0_t1_loop.trips, k0_off21 k 0 = 16 * k.val + 4 := by decide +kernel
theorem rowA4 : ∀ k : Fin k0_t1_loop.trips, k0_off22 k 0 = 16 * k.val + 4 := by decide +kernel
theorem rowB4 : ∀ k : Fin k0_t1_loop.trips, k0_off24 k 0 = 16 * k.val + 4 := by decide +kernel
theorem word5 : ∀ k : Fin k0_t1_loop.trips, k0_off26 k 0 = 16 * k.val + 5 := by decide +kernel
theorem rowA5 : ∀ k : Fin k0_t1_loop.trips, k0_off27 k 0 = 16 * k.val + 5 := by decide +kernel
theorem rowB5 : ∀ k : Fin k0_t1_loop.trips, k0_off29 k 0 = 16 * k.val + 5 := by decide +kernel
theorem word6 : ∀ k : Fin k0_t1_loop.trips, k0_off31 k 0 = 16 * k.val + 6 := by decide +kernel
theorem rowA6 : ∀ k : Fin k0_t1_loop.trips, k0_off32 k 0 = 16 * k.val + 6 := by decide +kernel
theorem rowB6 : ∀ k : Fin k0_t1_loop.trips, k0_off34 k 0 = 16 * k.val + 6 := by decide +kernel
theorem word7 : ∀ k : Fin k0_t1_loop.trips, k0_off36 k 0 = 16 * k.val + 7 := by decide +kernel
theorem rowA7 : ∀ k : Fin k0_t1_loop.trips, k0_off37 k 0 = 16 * k.val + 7 := by decide +kernel
theorem rowB7 : ∀ k : Fin k0_t1_loop.trips, k0_off39 k 0 = 16 * k.val + 7 := by decide +kernel
theorem word8 : ∀ k : Fin k0_t1_loop.trips, k0_off41 k 0 = 16 * k.val + 8 := by decide +kernel
theorem rowA8 : ∀ k : Fin k0_t1_loop.trips, k0_off42 k 0 = 16 * k.val + 8 := by decide +kernel
theorem rowB8 : ∀ k : Fin k0_t1_loop.trips, k0_off44 k 0 = 16 * k.val + 8 := by decide +kernel
theorem word9 : ∀ k : Fin k0_t1_loop.trips, k0_off46 k 0 = 16 * k.val + 9 := by decide +kernel
theorem rowA9 : ∀ k : Fin k0_t1_loop.trips, k0_off47 k 0 = 16 * k.val + 9 := by decide +kernel
theorem rowB9 : ∀ k : Fin k0_t1_loop.trips, k0_off49 k 0 = 16 * k.val + 9 := by decide +kernel
theorem word10 : ∀ k : Fin k0_t1_loop.trips, k0_off51 k 0 = 16 * k.val + 10 := by decide +kernel
theorem rowA10 : ∀ k : Fin k0_t1_loop.trips, k0_off52 k 0 = 16 * k.val + 10 := by decide +kernel
theorem rowB10 : ∀ k : Fin k0_t1_loop.trips, k0_off54 k 0 = 16 * k.val + 10 := by decide +kernel
theorem word11 : ∀ k : Fin k0_t1_loop.trips, k0_off56 k 0 = 16 * k.val + 11 := by decide +kernel
theorem rowA11 : ∀ k : Fin k0_t1_loop.trips, k0_off57 k 0 = 16 * k.val + 11 := by decide +kernel
theorem rowB11 : ∀ k : Fin k0_t1_loop.trips, k0_off59 k 0 = 16 * k.val + 11 := by decide +kernel
theorem word12 : ∀ k : Fin k0_t1_loop.trips, k0_off61 k 0 = 16 * k.val + 12 := by decide +kernel
theorem rowA12 : ∀ k : Fin k0_t1_loop.trips, k0_off62 k 0 = 16 * k.val + 12 := by decide +kernel
theorem rowB12 : ∀ k : Fin k0_t1_loop.trips, k0_off64 k 0 = 16 * k.val + 12 := by decide +kernel
theorem word13 : ∀ k : Fin k0_t1_loop.trips, k0_off66 k 0 = 16 * k.val + 13 := by decide +kernel
theorem rowA13 : ∀ k : Fin k0_t1_loop.trips, k0_off67 k 0 = 16 * k.val + 13 := by decide +kernel
theorem rowB13 : ∀ k : Fin k0_t1_loop.trips, k0_off69 k 0 = 16 * k.val + 13 := by decide +kernel
theorem word14 : ∀ k : Fin k0_t1_loop.trips, k0_off71 k 0 = 16 * k.val + 14 := by decide +kernel
theorem rowA14 : ∀ k : Fin k0_t1_loop.trips, k0_off72 k 0 = 16 * k.val + 14 := by decide +kernel
theorem rowB14 : ∀ k : Fin k0_t1_loop.trips, k0_off74 k 0 = 16 * k.val + 14 := by decide +kernel
theorem word15 : ∀ k : Fin k0_t1_loop.trips, k0_off76 k 0 = 16 * k.val + 15 := by decide +kernel
theorem rowA15 : ∀ k : Fin k0_t1_loop.trips, k0_off77 k 0 = 16 * k.val + 15 := by decide +kernel
theorem rowB15 : ∀ k : Fin k0_t1_loop.trips, k0_off79 k 0 = 16 * k.val + 15 := by decide +kernel

theorem trips_eq : k0_t1_loop.trips = 64 := by decide +kernel

end Cert.Kernel.Offs
-- ==== Proof.LibRowWindow.lean ====
import Idealize.ShloMosaic.Signature.Memref
import Idealize.ShloMosaic.Lib.ValueIdx

/-! # One row of a rank-2 buffer, viewed as a rank-1 memref

A memref `M` of shape `R × C` is restricted to the unit-stride rectangle of sizes `1 × C` at offsets `off`
(one whole row: the rectangle being in bounds, `off 1 = 0` and `off 0 < R`), and the leading axis of size one is
then dropped. The result `W` is a rank-1 memref of `C` elements in the buffer of `M`.

* Where the window sits: element `col` of `W` is element `(off 0, col)` of `M` (`emb_rowWin`).
* Reading: `W` reads at `col` what `M` reads at `(off 0, col)` (`read_rowWin`, `read_rowWin_fun`).
* Writing: after an unmasked write of a payload `p` through `W`, `M` reads `p col` at `(off 0, col)` and its
  old contents at every `(r, col)` with `r ≠ off 0` (`read_write_rowWin`).

Each statement comes twice: for views (suffix `V`: a slice of a view re-indexed by the rank-1 shape) and for the
memref formed by a slice and a squeeze, which is that view by definition. -/

namespace Cert.LibRowWindow

open Idealize.ShloMosaic Idealize.ShloMosaic.ValueIdx

variable {sig : RefSig} {κ : Kind} {sp : Space} {Val : EltTy → Type} {e : EltTy} {R C : ℕ}

/-- The rank-1 index `col` has the row-major position of `(0, col)` in the shape `1 × C`, so the two are matched
    when the leading axis of size one is dropped. -/
theorem reshapeEquiv_row (h : (⟨1, ![C]⟩ : Shape).numel = (⟨2, ![1, C]⟩ : Shape).numel) (col : Fin C) :
    Shape.reshapeEquiv h (ix1 col) = ix2 (⟨0, Nat.one_pos⟩ : Fin 1) col :=
  Shape.reshapeEquiv_eq_of_rowMajor h (by
    rw [Shape.rowMajor_val_two, Shape.rowMajor_val_one]
    show 0 * C + col.val = col.val
    omega)

/-- A rectangle of sizes `1 × C` inside `R × C` starts at column zero and at a row below `R`. -/
theorem off_facts (off : Fin 2 → ℕ)
    (inb : ∀ a, off a + (⟨2, ![1, C]⟩ : Shape).size a ≤ (⟨2, ![R, C]⟩ : Shape).size a) : off 0 < R ∧ off 1 = 0 := by
  have h0 : off 0 + 1 ≤ R := inb 0
  have h1 : off 1 + C ≤ C := inb 1
  omega

/-- The unit-stride rectangle of one row places `(0, col)` at `(off 0, col)`. -/
theorem unit_emb_row (off : Fin 2 → ℕ)
    (inb : ∀ a, off a + (⟨2, ![1, C]⟩ : Shape).size a ≤ (⟨2, ![R, C]⟩ : Shape).size a) (hr : off 0 < R) (col : Fin C) :
    (Rect.unit (s := ⟨2, ![R, C]⟩) off (⟨2, ![1, C]⟩ : Shape).size inb).emb (ix2 (⟨0, Nat.one_pos⟩ : Fin 1) col)
      = ix2 (⟨off 0, hr⟩ : Fin R) col := by
  have h1 : off 1 = 0 := (off_facts off inb).2
  funext a
  refine Fin.ext ?_
  match a with
  | ⟨0, _⟩ => show off 0 + 1 * 0 = off 0; omega
  | ⟨1, _⟩ => show off 1 + 1 * col.val = col.val; omega

/-- Where the row window sits: its element `col` is the whole view's element `(off 0, col)`. -/
theorem emb_rowWinV (V : View sig κ sp ⟨2, ![R, C]⟩ e) (off : Fin 2 → ℕ)
    (inb : ∀ a, off a + (⟨2, ![1, C]⟩ : Shape).size a ≤ (⟨2, ![R, C]⟩ : Shape).size a)
    (h : (⟨1, ![C]⟩ : Shape).numel = (⟨2, ![1, C]⟩ : Shape).numel) (hr : off 0 < R) (col : Fin C) :
    ((V.slice (Rect.unit (s := ⟨2, ![R, C]⟩) off (⟨2, ![1, C]⟩ : Shape).size inb)).reshape ⟨1, ![C]⟩ h).emb (ix1 col)
      = V.emb (ix2 (⟨off 0, hr⟩ : Fin R) col) := by
  show V.emb ((Rect.unit (s := ⟨2, ![R, C]⟩) off (⟨2, ![1, C]⟩ : Shape).size inb).emb (Shape.reshapeEquiv h (ix1 col))) = _
  exact congrArg V.emb ((congrArg _ (reshapeEquiv_row h col)).trans (unit_emb_row off inb hr col))

/-- Reading through the row window is reading the whole view on that row. -/
theorem read_rowWinV (V : View sig κ sp ⟨2, ![R, C]⟩ e) (off : Fin 2 → ℕ)
    (inb : ∀ a, off a + (⟨2, ![1, C]⟩ : Shape).size a ≤ (⟨2, ![R, C]⟩ : Shape).size a)
    (h : (⟨1, ![C]⟩ : Shape).numel = (⟨2, ![1, C]⟩ : Shape).numel) (hr : off 0 < R)
    (g : V.ty.Contents Val) (col : Fin C) :
    ((V.slice (Rect.unit (s := ⟨2, ![R, C]⟩) off (⟨2, ![1, C]⟩ : Shape).size inb)).reshape ⟨1, ![C]⟩ h).read Val g (ix1 col)
      = V.read Val g (ix2 (⟨off 0, hr⟩ : Fin R) col) :=
  congrArg (fun i => _root_.cast (congrArg Val V.elt_eq) (g i)) (emb_rowWinV V off inb h hr col)

/-- The whole view read after an unmasked write through the row window: the payload on the window's row, the old
    contents on every other row. -/
theorem read_write_rowWinV (V : View sig κ sp ⟨2, ![R, C]⟩ e) (off : Fin 2 → ℕ)
    (inb : ∀ a, off a + (⟨2, ![1, C]⟩ : Shape).size a ≤ (⟨2, ![R, C]⟩ : Shape).size a)
    (h : (⟨1, ![C]⟩ : Shape).numel = (⟨2, ![1, C]⟩ : Shape).numel)
    (g : V.ty.Contents Val) (p : (⟨1, ![C]⟩ : Shape).Idx → Val e) (r : Fin R) (col : Fin C) :
    V.read Val
        (((V.slice (Rect.unit (s := ⟨2, ![R, C]⟩) off (⟨2, ![1, C]⟩ : Shape).size inb)).reshape ⟨1, ![C]⟩ h).write Val g p
          Finset.univ)
        (ix2 r col)
      = if r.val = off 0 then p (ix1 col) else V.read Val g (ix2 r col) := by
  have hr : off 0 < R := (off_facts off inb).1
  by_cases hrow : r.val = off 0
  · rw [if_pos hrow]
    obtain rfl : r = ⟨off 0, hr⟩ := Fin.ext hrow
    rw [← read_rowWinV V off inb h hr _ col]
    exact View.read_write_of_mem
      (v := (V.slice (Rect.unit (s := ⟨2, ![R, C]⟩) off (⟨2, ![1, C]⟩ : Shape).size inb)).reshape ⟨1, ![C]⟩ h) g p
      (Finset.mem_univ _)
  · rw [if_neg hrow]
    refine View.read_congr_at _ (View.write_of_not_mem _ _ _ ?_)
    intro hm
    obtain ⟨x, -, hx⟩ := Finset.mem_map.mp hm
    obtain ⟨c', rfl⟩ : ∃ c' : Fin C, x = ix1 c' := ⟨x 0, eq_ix1 x⟩
    rw [emb_rowWinV V off inb h hr] at hx
    have h0 := congrFun (V.emb.injective hx) 0
    exact hrow (congrArg Fin.val h0).symm

/-! ## The same for the memref formed by a slice and a squeeze -/

/-- Where the row window sits. -/
theorem emb_rowWin (M : Memref sig κ sp ⟨2, ![R, C]⟩ e) (off : Fin 2 → ℕ)
    (inb : ∀ a, off a + (⟨2, ![1, C]⟩ : Shape).size a ≤ (⟨2, ![R, C]⟩ : Shape).size a)
    (hstr : ∀ a, (Rect.unit (s := ⟨2, ![R, C]⟩) off (⟨2, ![1, C]⟩ : Shape).size inb).stride a = 1)
    (hsq : (⟨2, ![1, C]⟩ : Shape).Squeezes ⟨1, ![C]⟩) (hr : off 0 < R) (col : Fin C) :
    (Memref.squeeze (s := ⟨2, ![1, C]⟩)
        (M.slice (Rect.unit (s := ⟨2, ![R, C]⟩) off (⟨2, ![1, C]⟩ : Shape).size inb) hstr) ⟨1, ![C]⟩ hsq).view.emb (ix1 col)
      = M.view.emb (ix2 (⟨off 0, hr⟩ : Fin R) col) :=
  emb_rowWinV M.view off inb hsq.numel_eq hr col

/-- Reading through the row window is reading the whole memref on that row. -/
theorem read_rowWin (M : Memref sig κ sp ⟨2, ![R, C]⟩ e) (off : Fin 2 → ℕ)
    (inb : ∀ a, off a + (⟨2, ![1, C]⟩ : Shape).size a ≤ (⟨2, ![R, C]⟩ : Shape).size a)
    (hstr : ∀ a, (Rect.unit (s := ⟨2, ![R, C]⟩) off (⟨2, ![1, C]⟩ : Shape).size inb).stride a = 1)
    (hsq : (⟨2, ![1, C]⟩ : Shape).Squeezes ⟨1, ![C]⟩) (hr : off 0 < R)
    (g : M.view.ty.Contents Val) (col : Fin C) :
    (Memref.squeeze (s := ⟨2, ![1, C]⟩)
        (M.slice (Rect.unit (s := ⟨2, ![R, C]⟩) off (⟨2, ![1, C]⟩ : Shape).size inb) hstr) ⟨1, ![C]⟩ hsq).view.read Val g (ix1 col)
      = M.view.read Val g (ix2 (⟨off 0, hr⟩ : Fin R) col) :=
  read_rowWinV M.view off inb hsq.numel_eq hr g col

/-- The same as one function of the rank-1 index. -/
theorem read_rowWin_fun (M : Memref sig κ sp ⟨2, ![R, C]⟩ e) (off : Fin 2 → ℕ)
    (inb : ∀ a, off a + (⟨2, ![1, C]⟩ : Shape).size a ≤ (⟨2, ![R, C]⟩ : Shape).size a)
    (hstr : ∀ a, (Rect.unit (s := ⟨2, ![R, C]⟩) off (⟨2, ![1, C]⟩ : Shape).size inb).stride a = 1)
    (hsq : (⟨2, ![1, C]⟩ : Shape).Squeezes ⟨1, ![C]⟩) (hr : off 0 < R)
    (g : M.view.ty.Contents Val) :
    (Memref.squeeze (s := ⟨2, ![1, C]⟩)
        (M.slice (Rect.unit (s := ⟨2, ![R, C]⟩) off (⟨2, ![1, C]⟩ : Shape).size inb) hstr) ⟨1, ![C]⟩ hsq).view.read Val g
      = fun j : (⟨1, ![C]⟩ : Shape).Idx => M.view.read Val g (ix2 (⟨off 0, hr⟩ : Fin R) (j 0)) := by
  funext j
  rw [eq_ix1 j]
  exact read_rowWin M off inb hstr hsq hr g (j 0)

/-- The whole memref read after an unmasked write through the row window: the payload on the window's row, the old
    contents on every other row. -/
theorem read_write_rowWin (M : Memref sig κ sp ⟨2, ![R, C]⟩ e) (off : Fin 2 → ℕ)
    (inb : ∀ a, off a + (⟨2, ![1, C]⟩ : Shape).size a ≤ (⟨2, ![R, C]⟩ : Shape).size a)
    (hstr : ∀ a, (Rect.unit (s := ⟨2, ![R, C]⟩) off (⟨2, ![1, C]⟩ : Shape).size inb).stride a = 1)
    (hsq : (⟨2, ![1, C]⟩ : Shape).Squeezes ⟨1, ![C]⟩)
    (g : M.view.ty.Contents Val) (p : (⟨1, ![C]⟩ : Shape).Idx → Val e) (r : Fin R) (col : Fin C) :
    M.view.read Val
        ((Memref.squeeze (s := ⟨2, ![1, C]⟩)
          (M.slice (Rect.unit (s := ⟨2, ![R, C]⟩) off (⟨2, ![1, C]⟩ : Shape).size inb) hstr) ⟨1, ![C]⟩ hsq).view.write Val g p
          Finset.univ)
        (ix2 r col)
      = if r.val = off 0 then p (ix1 col) else M.view.read Val g (ix2 r col) :=
  read_write_rowWinV M.view off inb hsq.numel_eq g p r col

end Cert.LibRowWindow
-- ==== Proof.KernelRows.lean ====
import proofs.«401610_j38122129719601_1_alg».proof.Proof.KernelLoop
import proofs.«401610_j38122129719601_1_alg».proof.Proof.KernelOffs
import proofs.«401610_j38122129719601_1_alg».proof.Proof.LibRowWindow
import Idealize.ShloMosaic.Lib.Pipeline.Value

/-! # One copy lands one row

A copy of the table row an index word names into row `n` of a scratch block whose rows `0 … n−1` have already landed
leaves rows `0 … n` landed: the written row reads the table row, every other row reads what it read before. -/

noncomputable section

namespace Cert.Kernel.Body

open Cert.Kernel Cert.Kernel.Gen
open Idealize.ShloMosaic Idealize.ShloMosaic.TcCoe Idealize.ShloMosaic.ValueIdx

variable {F : FTy → Type} [FloatOps F]

/-- The word a scalar load reads at offset `o` of an index block held at the words `x` is `x` at `o`. -/
theorem word_eq (a : Memref sig .tc .smem S1024 .i32) (ha : a.IsWhole) (x : S1024.Idx → Elt F .i32)
    (off : Fin 1 → ℕ) (inb : ∀ b, off b + S1.size b ≤ S1024.size b) (hfirst : 0 < S1.numel) (n : ℕ) (hn : n < 1024) (h0 : off 0 = n) :
    View.readAt (Elt F) a.view (Rect.unit (s := S1024) off S1.size inb).toLoadRect (ha.unread x) (Shape.Idx.first hfirst)
      = x (ix1 ⟨n, hn⟩) := by
  rw [View.readAt_apply, ha.read_unread]
  congr 1
  funext b
  match b with
  | ⟨0, _⟩ => exact Fin.ext (by
      show off 0 + 1 * 0 = n
      omega)

/-- A block stored whole through the zero-offset rectangle reads back as stored, whatever the buffer held. -/
theorem read_writes_unit_zero {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [⟨Rect.unit off s.size inb, w⟩]) = w := by
  subst h
  exact View.read_writes_whole v f w

/-- Row `n` lands: the scratch block written through the window of row `n` with the table row that the word `w`, the
    `n`-th index word, names. -/
theorem rows_layer (c : Dev nD) (D : Memref sig .tc .vmem S1024x64 .f32) (S : Memref sig .tc .hbm S100000x64 .f32)
    (g : HbBuf (F := F) c D) (f : HbBuf (F := F) c S) (x : S1024.Idx → Elt F .i32) (hx : WordsOK x) (n : ℕ) (hn : n < 1024)
    (off : Fin 2 → ℕ) (inb : ∀ a, off a + S1x64.size a ≤ S1024x64.size a)
    (hstr : ∀ a, (Rect.unit (s := S1024x64) off S1x64.size inb).stride a = 1) (hsq : S1x64.Squeezes S64)
    (w : Elt F .i32) (offS : Fin 2 → ℕ) (inbS : ∀ a, offS a + S1x64.size a ≤ S100000x64.size a)
    (hstrS : ∀ a, (Rect.unit (s := S100000x64) offS S1x64.size inbS).stride a = 1) (hsqS : S1x64.Squeezes S64)
    (h0 : off 0 = n) (hS0 : offS 0 = (show BitVec 32 from w).toNat) (hw : w = x (ix1 ⟨n, hn⟩))
    (hg : RowsOK c D S g f x hx n) :
    RowsOK c D S
      (((D.slice (Rect.unit (s := S1024x64) off S1x64.size inb) hstr).squeeze S64 hsq).view.write (Elt F) g
        (ReadAs.same.apply (((S.slice (Rect.unit (s := S100000x64) offS S1x64.size inbS) hstrS).squeeze S64 hsqS).view.read (Elt F) f))
        Finset.univ) f x hx (n + 1) := by
  intro r col hr
  rw [Cert.LibRowWindow.read_write_rowWin]
  by_cases hrn : r.val = off 0
  · rw [if_pos hrn]
    have hrn' : r = ⟨n, hn⟩ := Fin.ext (hrn.trans h0)
    subst hrn'
    have hS : offS 0 < 100000 := by rw [hS0, hw]; exact hx _
    rw [ReadAs.apply_same, Cert.LibRowWindow.read_rowWin S offS inbS hstrS hsqS hS f col]
    congr 2
    exact Fin.ext (by show offS 0 = _; rw [hS0, hw])
  · rw [if_neg hrn]
    exact hg r col (lt_of_le_of_ne (Nat.lt_succ_iff.mp hr) (fun h => hrn (h.trans h0.symm)))

end Cert.Kernel.Body

end
-- ==== Proof.KernelRun.lean ====
import proofs.«401610_j38122129719601_1_alg».proof.Proof.KernelRows

/-! # The kernel body's run at one grid point

From the two index blocks (all their words table rows), the weights' blocks, the output's staging buffer at anything, the
two scratch blocks at anything, the 32 semaphores at zero and the two tables whole, the body runs to its end: the gather
loop by its invariant, then the arithmetic over the two gathered blocks, stored into the output's staging buffer; everything
else is handed back as it was found. -/

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The ratings block a grid point stores: the body's arithmetic over the two gathered blocks and the weights. -/
def outBlock (c : Dev nD) (x1 x2 : S1024.Idx → Elt F .i32) (hx1 : WordsOK x1) (hx2 : WordsOK x2)
    (f3 : HbBuf (F := F) c M3) (f4 : HbBuf (F := F) c M4)
    (x5 : Vec F S129x64 .f32) (x6 : Vec F S64 .f32) (x7 : Vec F S64x1 .f32) (x8 : Vec F S1 .f32) : Vec F S1024 .f32 :=
  k0_pay1 (k0_pay2 (gathered c M3 f3 x1 hx1) (gathered c M4 f4 x2 hx2) x5) x6 x7 x8

set_option maxHeartbeats 8000000 in
theorem kernelRun (c : Dev nD) (i : grid0.Coords) (arg1 : Memref sig .tc .smem S1024 .i32) (harg1 : arg1.IsWhole) (arg2 : Memref sig .tc .smem S1024 .i32) (harg2 : arg2.IsWhole) (arg5 : Memref sig .tc .vmem S129x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S1024 .f32) (harg9 : arg9.IsWhole)
    (x1 x2 : S1024.Idx → Elt F .i32) (hx1 : WordsOK x1) (hx2 : WordsOK x2)
    (x5 : Vec F S129x64 .f32) (x6 : Vec F S64 .f32) (x7 : Vec F S64x1 .f32) (x8 : Vec F S1 .f32)
    (f3 : HbBuf (F := F) c M3) (f4 : HbBuf (F := F) c M4) (W : Waits sig Unit) (K : PUnit → sProp 𝕄) :
    iprop(owns (c : Thread nD τ) arg1 fullShare x1 ∗ owns (c : Thread nD τ) arg2 fullShare x2
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ (∃ g : HbBuf (F := F) c M10, M10.view.loc (c : Thread nD τ) ↦{fullShare} g)
        ∗ (∃ g : HbBuf (F := F) c M11, M11.view.loc (c : Thread nD τ) ↦{fullShare} g)
        ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0
        ∗ (M3.view.loc (c : Thread nD τ) ↦{fullShare} f3) ∗ (M4.view.loc (c : Thread nD τ) ↦{fullShare} f4)
        ∗ owes (c : Thread nD τ) 0 W
        ∗ (iprop(owns (c : Thread nD τ) arg1 fullShare x1 ∗ owns (c : Thread nD τ) arg2 fullShare x2
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (outBlock c x1 x2 hx1 hx2 f3 f4 x5 x6 x7 x8)
            ∗ (∃ g : HbBuf (F := F) c M10, M10.view.loc (c : Thread nD τ) ↦{fullShare} g)
            ∗ (∃ g : HbBuf (F := F) c M11, M11.view.loc (c : Thread nD τ) ↦{fullShare} g)
            ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0
            ∗ (M3.view.loc (c : Thread nD τ) ↦{fullShare} f3) ∗ (M4.view.loc (c : Thread nD τ) ↦{fullShare} f4)
            ∗ (∃ W', owes (c : Thread nD τ) 0 W')) -∗ K ⟨⟩))
      ⊢ wp frame (wpE (defs₀ (F := F)) Variants.none c none) Set.univ (cc0__kernel (F := F) i arg1 harg1 arg2 harg2 M3 (Memref.isWhole_whole _) M4 (Memref.isWhole_whole _) arg5 harg5 arg6 harg6 arg7 harg7 arg8 harg8 arg9 harg9 M10 (Memref.isWhole_whole _) M11 (Memref.isWhole_whole _) cc0_scratch2 cc0_scratch3) K := by
  simp only [cc0__kernel_eq_skeleton]; unfold cc0__kernel_skel
  unfold owns
  iintro ⟨⟨%f1, %hf1, H1⟩, ⟨%f2, %hf2, H2⟩, ⟨%f5, %hf5, H5⟩, ⟨%f6, %hf6, H6⟩, ⟨%f7, %hf7, H7⟩, ⟨%f8, %hf8, H8⟩, ⟨%d9, %f9, -, H9⟩, ⟨%g10, H10⟩, ⟨%g11, H11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, H3, H4, HW, Hk⟩
  obtain rfl := harg1.eq_unread hf1
  obtain rfl := harg2.eq_unread hf2
  obtain rfl := harg5.eq_unread hf5
  obtain rfl := harg6.eq_unread hf6
  obtain rfl := harg7.eq_unread hf7
  obtain rfl := harg8.eq_unread hf8
  ihave H3' := (splitA c f3).1 $$ H3
  icases H3' with ⟨R3, TA0, TA1, TA2, TA3, TA4, TA5, TA6, TA7, TA8, TA9, TA10, TA11, TA12, TA13, TA14, TA15⟩
  ihave H4' := (splitB c f4).1 $$ H4
  icases H4' with ⟨R4, TB0, TB1, TB2, TB3, TB4, TB5, TB6, TB7, TB8, TB9, TB10, TB11, TB12, TB13, TB14, TB15⟩
  simp only [k0_part15_eq_skeleton]; unfold k0_part15_skel
  simp only [Prog.bind_assoc]
  sl_for (inv c arg1 arg2 harg1 harg2 x1 x2 hx1 hx2 f3 f4) $$ [H1 H2 TA0 TA1 TA2 TA3 TA4 TA5 TA6 TA7 TA8 TA9 TA10 TA11 TA12 TA13 TA14 TA15 TB0 TB1 TB2 TB3 TB4 TB5 TB6 TB7 TB8 TB9 TB10 TB11 TB12 TB13 TB14 TB15 H10 H11 Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 HW]
  case region =>
    intro k acc
    unfold inv
    iintro ⟨H1, H2, TA0, TA1, TA2, TA3, TA4, TA5, TA6, TA7, TA8, TA9, TA10, TA11, TA12, TA13, TA14, TA15, TB0, TB1, TB2, TB3, TB4, TB5, TB6, TB7, TB8, TB9, TB10, TB11, TB12, TB13, TB14, TB15, ⟨%g10', H10, %hg10⟩, ⟨%g11', H11, %hg11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, ⟨%W', HW⟩⟩
    sl_exec (disch := (refine chk_core _ (word_lt _ _ _ ?_ _ _); first | exact hx1 | exact hx2))
    sl_step

    isplitl [H1]; · iexact H1
    isplitl [H2]; · iexact H2
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    isplitl [TA15]; · iexact TA15
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    isplitl [TB15]; · iexact TB15
    isplitl [H10]
    · iexists _; isplitl [H10]; · iexact H10
      ipureintro
      have hk : k.val < 64 := lt_of_lt_of_eq k.isLt Offs.trips_eq
      rw [show 16 * (k.val + 1) = 16 * k.val + 15 + 1 from by omega]
      sl_unfold_run_names
      refine rows_layer c M10 M3 _ f3 x1 hx1 (16 * k.val + 15) (by omega) _ _ _ _ _ _ _ _ _ (Offs.rowA15 k) rfl (word_eq arg1 harg1 x1 _ _ _ _ _ (Offs.word15 k)) ?_
      show RowsOK c M10 M3 _ f3 x1 hx1 (16 * k.val + 14 + 1)
      refine rows_layer c M10 M3 _ f3 x1 hx1 (16 * k.val + 14) (by omega) _ _ _ _ _ _ _ _ _ (Offs.rowA14 k) rfl (word_eq arg1 harg1 x1 _ _ _ _ _ (Offs.word14 k)) ?_
      show RowsOK c M10 M3 _ f3 x1 hx1 (16 * k.val + 13 + 1)
      refine rows_layer c M10 M3 _ f3 x1 hx1 (16 * k.val + 13) (by omega) _ _ _ _ _ _ _ _ _ (Offs.rowA13 k) rfl (word_eq arg1 harg1 x1 _ _ _ _ _ (Offs.word13 k)) ?_
      show RowsOK c M10 M3 _ f3 x1 hx1 (16 * k.val + 12 + 1)
      refine rows_layer c M10 M3 _ f3 x1 hx1 (16 * k.val + 12) (by omega) _ _ _ _ _ _ _ _ _ (Offs.rowA12 k) rfl (word_eq arg1 harg1 x1 _ _ _ _ _ (Offs.word12 k)) ?_
      show RowsOK c M10 M3 _ f3 x1 hx1 (16 * k.val + 11 + 1)
      refine rows_layer c M10 M3 _ f3 x1 hx1 (16 * k.val + 11) (by omega) _ _ _ _ _ _ _ _ _ (Offs.rowA11 k) rfl (word_eq arg1 harg1 x1 _ _ _ _ _ (Offs.word11 k)) ?_
      show RowsOK c M10 M3 _ f3 x1 hx1 (16 * k.val + 10 + 1)
      refine rows_layer c M10 M3 _ f3 x1 hx1 (16 * k.val + 10) (by omega) _ _ _ _ _ _ _ _ _ (Offs.rowA10 k) rfl (word_eq arg1 harg1 x1 _ _ _ _ _ (Offs.word10 k)) ?_
      show RowsOK c M10 M3 _ f3 x1 hx1 (16 * k.val + 9 + 1)
      refine rows_layer c M10 M3 _ f3 x1 hx1 (16 * k.val + 9) (by omega) _ _ _ _ _ _ _ _ _ (Offs.rowA9 k) rfl (word_eq arg1 harg1 x1 _ _ _ _ _ (Offs.word9 k)) ?_
      show RowsOK c M10 M3 _ f3 x1 hx1 (16 * k.val + 8 + 1)
      refine rows_layer c M10 M3 _ f3 x1 hx1 (16 * k.val + 8) (by omega) _ _ _ _ _ _ _ _ _ (Offs.rowA8 k) rfl (word_eq arg1 harg1 x1 _ _ _ _ _ (Offs.word8 k)) ?_
      show RowsOK c M10 M3 _ f3 x1 hx1 (16 * k.val + 7 + 1)
      refine rows_layer c M10 M3 _ f3 x1 hx1 (16 * k.val + 7) (by omega) _ _ _ _ _ _ _ _ _ (Offs.rowA7 k) rfl (word_eq arg1 harg1 x1 _ _ _ _ _ (Offs.word7 k)) ?_
      show RowsOK c M10 M3 _ f3 x1 hx1 (16 * k.val + 6 + 1)
      refine rows_layer c M10 M3 _ f3 x1 hx1 (16 * k.val + 6) (by omega) _ _ _ _ _ _ _ _ _ (Offs.rowA6 k) rfl (word_eq arg1 harg1 x1 _ _ _ _ _ (Offs.word6 k)) ?_
      show RowsOK c M10 M3 _ f3 x1 hx1 (16 * k.val + 5 + 1)
      refine rows_layer c M10 M3 _ f3 x1 hx1 (16 * k.val + 5) (by omega) _ _ _ _ _ _ _ _ _ (Offs.rowA5 k) rfl (word_eq arg1 harg1 x1 _ _ _ _ _ (Offs.word5 k)) ?_
      show RowsOK c M10 M3 _ f3 x1 hx1 (16 * k.val + 4 + 1)
      refine rows_layer c M10 M3 _ f3 x1 hx1 (16 * k.val + 4) (by omega) _ _ _ _ _ _ _ _ _ (Offs.rowA4 k) rfl (word_eq arg1 harg1 x1 _ _ _ _ _ (Offs.word4 k)) ?_
      show RowsOK c M10 M3 _ f3 x1 hx1 (16 * k.val + 3 + 1)
      refine rows_layer c M10 M3 _ f3 x1 hx1 (16 * k.val + 3) (by omega) _ _ _ _ _ _ _ _ _ (Offs.rowA3 k) rfl (word_eq arg1 harg1 x1 _ _ _ _ _ (Offs.word3 k)) ?_
      show RowsOK c M10 M3 _ f3 x1 hx1 (16 * k.val + 2 + 1)
      refine rows_layer c M10 M3 _ f3 x1 hx1 (16 * k.val + 2) (by omega) _ _ _ _ _ _ _ _ _ (Offs.rowA2 k) rfl (word_eq arg1 harg1 x1 _ _ _ _ _ (Offs.word2 k)) ?_
      show RowsOK c M10 M3 _ f3 x1 hx1 (16 * k.val + 1 + 1)
      refine rows_layer c M10 M3 _ f3 x1 hx1 (16 * k.val + 1) (by omega) _ _ _ _ _ _ _ _ _ (Offs.rowA1 k) rfl (word_eq arg1 harg1 x1 _ _ _ _ _ (Offs.word1 k)) ?_
      show RowsOK c M10 M3 _ f3 x1 hx1 (16 * k.val + 0 + 1)
      refine rows_layer c M10 M3 _ f3 x1 hx1 (16 * k.val + 0) (by omega) _ _ _ _ _ _ _ _ _ (Offs.rowA0 k) rfl (word_eq arg1 harg1 x1 _ _ _ _ _ (Offs.word0 k)) ?_
      exact hg10
    isplitl [H11]
    · iexists _; isplitl [H11]; · iexact H11
      ipureintro
      have hk : k.val < 64 := lt_of_lt_of_eq k.isLt Offs.trips_eq
      rw [show 16 * (k.val + 1) = 16 * k.val + 15 + 1 from by omega]
      sl_unfold_run_names
      refine rows_layer c M11 M4 _ f4 x2 hx2 (16 * k.val + 15) (by omega) _ _ _ _ _ _ _ _ _ (Offs.rowB15 k) rfl (word_eq arg2 harg2 x2 _ _ _ _ _ (Offs.word15 k)) ?_
      show RowsOK c M11 M4 _ f4 x2 hx2 (16 * k.val + 14 + 1)
      refine rows_layer c M11 M4 _ f4 x2 hx2 (16 * k.val + 14) (by omega) _ _ _ _ _ _ _ _ _ (Offs.rowB14 k) rfl (word_eq arg2 harg2 x2 _ _ _ _ _ (Offs.word14 k)) ?_
      show RowsOK c M11 M4 _ f4 x2 hx2 (16 * k.val + 13 + 1)
      refine rows_layer c M11 M4 _ f4 x2 hx2 (16 * k.val + 13) (by omega) _ _ _ _ _ _ _ _ _ (Offs.rowB13 k) rfl (word_eq arg2 harg2 x2 _ _ _ _ _ (Offs.word13 k)) ?_
      show RowsOK c M11 M4 _ f4 x2 hx2 (16 * k.val + 12 + 1)
      refine rows_layer c M11 M4 _ f4 x2 hx2 (16 * k.val + 12) (by omega) _ _ _ _ _ _ _ _ _ (Offs.rowB12 k) rfl (word_eq arg2 harg2 x2 _ _ _ _ _ (Offs.word12 k)) ?_
      show RowsOK c M11 M4 _ f4 x2 hx2 (16 * k.val + 11 + 1)
      refine rows_layer c M11 M4 _ f4 x2 hx2 (16 * k.val + 11) (by omega) _ _ _ _ _ _ _ _ _ (Offs.rowB11 k) rfl (word_eq arg2 harg2 x2 _ _ _ _ _ (Offs.word11 k)) ?_
      show RowsOK c M11 M4 _ f4 x2 hx2 (16 * k.val + 10 + 1)
      refine rows_layer c M11 M4 _ f4 x2 hx2 (16 * k.val + 10) (by omega) _ _ _ _ _ _ _ _ _ (Offs.rowB10 k) rfl (word_eq arg2 harg2 x2 _ _ _ _ _ (Offs.word10 k)) ?_
      show RowsOK c M11 M4 _ f4 x2 hx2 (16 * k.val + 9 + 1)
      refine rows_layer c M11 M4 _ f4 x2 hx2 (16 * k.val + 9) (by omega) _ _ _ _ _ _ _ _ _ (Offs.rowB9 k) rfl (word_eq arg2 harg2 x2 _ _ _ _ _ (Offs.word9 k)) ?_
      show RowsOK c M11 M4 _ f4 x2 hx2 (16 * k.val + 8 + 1)
      refine rows_layer c M11 M4 _ f4 x2 hx2 (16 * k.val + 8) (by omega) _ _ _ _ _ _ _ _ _ (Offs.rowB8 k) rfl (word_eq arg2 harg2 x2 _ _ _ _ _ (Offs.word8 k)) ?_
      show RowsOK c M11 M4 _ f4 x2 hx2 (16 * k.val + 7 + 1)
      refine rows_layer c M11 M4 _ f4 x2 hx2 (16 * k.val + 7) (by omega) _ _ _ _ _ _ _ _ _ (Offs.rowB7 k) rfl (word_eq arg2 harg2 x2 _ _ _ _ _ (Offs.word7 k)) ?_
      show RowsOK c M11 M4 _ f4 x2 hx2 (16 * k.val + 6 + 1)
      refine rows_layer c M11 M4 _ f4 x2 hx2 (16 * k.val + 6) (by omega) _ _ _ _ _ _ _ _ _ (Offs.rowB6 k) rfl (word_eq arg2 harg2 x2 _ _ _ _ _ (Offs.word6 k)) ?_
      show RowsOK c M11 M4 _ f4 x2 hx2 (16 * k.val + 5 + 1)
      refine rows_layer c M11 M4 _ f4 x2 hx2 (16 * k.val + 5) (by omega) _ _ _ _ _ _ _ _ _ (Offs.rowB5 k) rfl (word_eq arg2 harg2 x2 _ _ _ _ _ (Offs.word5 k)) ?_
      show RowsOK c M11 M4 _ f4 x2 hx2 (16 * k.val + 4 + 1)
      refine rows_layer c M11 M4 _ f4 x2 hx2 (16 * k.val + 4) (by omega) _ _ _ _ _ _ _ _ _ (Offs.rowB4 k) rfl (word_eq arg2 harg2 x2 _ _ _ _ _ (Offs.word4 k)) ?_
      show RowsOK c M11 M4 _ f4 x2 hx2 (16 * k.val + 3 + 1)
      refine rows_layer c M11 M4 _ f4 x2 hx2 (16 * k.val + 3) (by omega) _ _ _ _ _ _ _ _ _ (Offs.rowB3 k) rfl (word_eq arg2 harg2 x2 _ _ _ _ _ (Offs.word3 k)) ?_
      show RowsOK c M11 M4 _ f4 x2 hx2 (16 * k.val + 2 + 1)
      refine rows_layer c M11 M4 _ f4 x2 hx2 (16 * k.val + 2) (by omega) _ _ _ _ _ _ _ _ _ (Offs.rowB2 k) rfl (word_eq arg2 harg2 x2 _ _ _ _ _ (Offs.word2 k)) ?_
      show RowsOK c M11 M4 _ f4 x2 hx2 (16 * k.val + 1 + 1)
      refine rows_layer c M11 M4 _ f4 x2 hx2 (16 * k.val + 1) (by omega) _ _ _ _ _ _ _ _ _ (Offs.rowB1 k) rfl (word_eq arg2 harg2 x2 _ _ _ _ _ (Offs.word1 k)) ?_
      show RowsOK c M11 M4 _ f4 x2 hx2 (16 * k.val + 0 + 1)
      refine rows_layer c M11 M4 _ f4 x2 hx2 (16 * k.val + 0) (by omega) _ _ _ _ _ _ _ _ _ (Offs.rowB0 k) rfl (word_eq arg2 harg2 x2 _ _ _ _ _ (Offs.word0 k)) ?_
      exact hg11
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexists _; iexact HW
  · unfold inv
    isplitl [H1]; · iexact H1
    isplitl [H2]; · iexact H2
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    isplitl [TA15]; · iexact TA15
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    isplitl [TB15]; · iexact TB15
    isplitl [H10]
    · iexists _; isplitl [H10]; · iexact H10
      ipureintro; intro r col h; omega
    isplitl [H11]
    · iexists _; isplitl [H11]; · iexact H11
      ipureintro; intro r col h; omega
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexists _; iexact HW
  iintro %acc HI
  unfold inv
  icases HI with ⟨H1, H2, TA0, TA1, TA2, TA3, TA4, TA5, TA6, TA7, TA8, TA9, TA10, TA11, TA12, TA13, TA14, TA15, TB0, TB1, TB2, TB3, TB4, TB5, TB6, TB7, TB8, TB9, TB10, TB11, TB12, TB13, TB14, TB15, ⟨%g10', H10, %hg10⟩, ⟨%g11', H11, %hg11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, ⟨%W', HW⟩⟩
  sl_exec
  sl_step

  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    have hz2 : (![0, 0] : Fin 2 → ℕ) = fun _ => 0 := by funext a; fin_cases a <;> rfl
    have hz1 : (![0] : Fin 1 → ℕ) = fun _ => 0 := by funext a; fin_cases a; rfl
    have hT : 16 * Scf.trips k0_t1_loop.lb k0_t1_loop.ub k0_t1_loop.st = 1024 := by decide +kernel
    rw [hT] at hg10 hg11
    have e10 := read_eq_gathered c M10 M3 g10' f3 x1 hx1 hg10
    have e11 := read_eq_gathered c M11 M4 g11' f4 x2 hx2 hg11
    rw [read_writes_unit_zero _ _ hz1]
    unfold outBlock
    simp only [View.readAt_eq_ld, View.ld_unit_zero (S := S1024x64) hz2, View.ld_unit_zero (S := S129x64) hz2, View.ld_unit_zero (S := S64) hz1, View.ld_unit_zero (S := S64x1) hz2, View.ld_unit_zero (S := S1) hz1, e10, e11, harg5.read_unread, harg6.read_unread, harg7.read_unread, harg8.read_unread]
  isplitl [H10]; · iexists _; iexact H10
  isplitl [H11]; · iexists _; iexact H11
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [R3 TA0 TA1 TA2 TA3 TA4 TA5 TA6 TA7 TA8 TA9 TA10 TA11 TA12 TA13 TA14 TA15]
  · iapply (splitA c f3).2
    isplitl [R3]; · iexact R3
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [R4 TB0 TB1 TB2 TB3 TB4 TB5 TB6 TB7 TB8 TB9 TB10 TB11 TB12 TB13 TB14 TB15]
  · iapply (splitB c f4).2
    isplitl [R4]; · iexact R4
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  iexists _; iexact HW

end Cert.Kernel.Body

end
-- ==== Proof.KernelHyps.lean ====
import proofs.«401610_j38122129719601_1_alg».proof.Proof.KernelLoop

/-! # The hypothesis the frame runs under

Every index word of every block of the two padded index arrays, as the region finds them, names a table row. -/

noncomputable section

namespace Cert.Kernel.Body

open Cert.Kernel Cert.Kernel.Gen
open Idealize.ShloMosaic Idealize.ShloMosaic.TcCoe

variable {F : FTy → Type} [FloatOps F]

/-- Every index word of every block of the two padded index arrays names a table row. -/
def Hyps (m : (ℓ : Loc nD τ sig) → Buf (Elt F) ℓ) : Prop :=
  ∀ (c : Dev nD) (t : Fin cfg0.N), WordsOK (F := F) (iblk m c 0 t) ∧ WordsOK (F := F) (iblk m c 1 t)

end Cert.Kernel.Body

end
-- ==== Proof.KernelFrame.lean ====
import proofs.«401610_j38122129719601_1_alg».proof.Proof.KernelRun
import proofs.«401610_j38122129719601_1_alg».proof.Proof.KernelHyps

/-! # The frame run of the gather program

The proof data of the one pipeline: every array as the region finds it; after the body each input window's buffer still
at its block, the output's at the ratings block of the point; the region invariant of the kernel's own transfers. The
body meets its obligation at every grid point by its run, and the launch theorem for a kernel with transfers of its own,
continued by the host lines after the region, gives the run of @main: every argument array ends as launched. All of it
under the hypothesis that every index word of every block names a table row. -/

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hH : Hyps m)

/-- The ratings block point `t` stores. -/
def outAt (c : Dev nD) (t : Fin cfg0.N) : Vec F S1024 .f32 :=
  outBlock c (iblk m c 0 t) (iblk m c 1 t) (hH c t).1 (hH c t).2 (V m c main_arg0) (V m c main_arg1)
    (iblk m c 2 t) (iblk m c 3 t) (iblk m c 4 t) (iblk m c 5 t)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m hH c t
  Φ _ := Pipeline.ΦD osem0 spec0 H0 (V m) c
  q _ := fullShare
  owed _ := 0

theorem A_eq (c : Dev nD) (w : Fin cfg0.W) : (dats m hH 0 c).A w = V m c (Pipeline.arrRef spec0 w) := by
  dsimp only [dats]

theorem after0 (c : Dev nD) (t : Fin cfg0.N) : (dats m hH 0 c).after 0 t = iblk m c 0 t := by dsimp only [dats]
theorem after1 (c : Dev nD) (t : Fin cfg0.N) : (dats m hH 0 c).after 1 t = iblk m c 1 t := by dsimp only [dats]
theorem after2 (c : Dev nD) (t : Fin cfg0.N) : (dats m hH 0 c).after 2 t = iblk m c 2 t := by dsimp only [dats]
theorem after3 (c : Dev nD) (t : Fin cfg0.N) : (dats m hH 0 c).after 3 t = iblk m c 3 t := by dsimp only [dats]
theorem after4 (c : Dev nD) (t : Fin cfg0.N) : (dats m hH 0 c).after 4 t = iblk m c 4 t := by dsimp only [dats]
theorem after5 (c : Dev nD) (t : Fin cfg0.N) : (dats m hH 0 c).after 5 t = iblk m c 5 t := by dsimp only [dats]
theorem after6 (c : Dev nD) (t : Fin cfg0.N) : (dats m hH 0 c).after 6 t = outAt m hH c t := by dsimp only [dats]

/-- An input window's current staging buffer holds its block at every point, fetched there or not. -/
theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m hH 0 c).before 0 t d = iblk m c 0 t :=
  before0_of m (dats m hH 0 c) (A_eq m hH c 0) (after0 m hH c) t d
theorem before1 (c : Dev nD) (t : Fin cfg0.N) (d) : (dats m hH 0 c).before 1 t d = iblk m c 1 t :=
  before1_of m (dats m hH 0 c) (A_eq m hH c 1) (after1 m hH c) t d
theorem before2 (c : Dev nD) (t : Fin cfg0.N) (d) : (dats m hH 0 c).before 2 t d = iblk m c 2 t :=
  before2_of m (dats m hH 0 c) (A_eq m hH c 2) (after2 m hH c) t d
theorem before3 (c : Dev nD) (t : Fin cfg0.N) (d) : (dats m hH 0 c).before 3 t d = iblk m c 3 t :=
  before3_of m (dats m hH 0 c) (A_eq m hH c 3) (after3 m hH c) t d
theorem before4 (c : Dev nD) (t : Fin cfg0.N) (d) : (dats m hH 0 c).before 4 t d = iblk m c 4 t :=
  before4_of m (dats m hH 0 c) (A_eq m hH c 4) (after4 m hH c) t d
theorem before5 (c : Dev nD) (t : Fin cfg0.N) (d) : (dats m hH 0 c).before 5 t d = iblk m c 5 t :=
  before5_of m (dats m hH 0 c) (A_eq m hH c 5) (after5 m hH c) t d

/-! ## The body obligation, at a generic point -/

def bodyPre (c : Dev nD) (t : Fin cfg0.N) : sProp 𝕄 :=
  iprop((dats m hH 0 c).Φ t.castSucc ∗ (dats m hH 0 c).owesAt () t.castSucc
    ∗ (∃ d, owns (c : Thread nD τ) (ms0 t) fullShare ((dats m hH 0 c).before 0 t d))
    ∗ (∃ d, owns (c : Thread nD τ) (ms1 t) fullShare ((dats m hH 0 c).before 1 t d))
    ∗ (∃ d, owns (c : Thread nD τ) (ms2 t) fullShare ((dats m hH 0 c).before 2 t d))
    ∗ (∃ d, owns (c : Thread nD τ) (ms3 t) fullShare ((dats m hH 0 c).before 3 t d))
    ∗ (∃ d, owns (c : Thread nD τ) (ms4 t) fullShare ((dats m hH 0 c).before 4 t d))
    ∗ (∃ d, owns (c : Thread nD τ) (ms5 t) fullShare ((dats m hH 0 c).before 5 t d))
    ∗ (∃ d, owns (c : Thread nD τ) (ms6 t) fullShare ((dats m hH 0 c).before 6 t d)))

def bodyPost (c : Dev nD) (t : Fin cfg0.N) : sProp 𝕄 :=
  iprop((dats m hH 0 c).Φ t.succ ∗ (dats m hH 0 c).owesAt () t.succ
    ∗ owns (c : Thread nD τ) (ms0 t) fullShare ((dats m hH 0 c).after 0 t)
    ∗ owns (c : Thread nD τ) (ms1 t) fullShare ((dats m hH 0 c).after 1 t)
    ∗ owns (c : Thread nD τ) (ms2 t) fullShare ((dats m hH 0 c).after 2 t)
    ∗ owns (c : Thread nD τ) (ms3 t) fullShare ((dats m hH 0 c).after 3 t)
    ∗ owns (c : Thread nD τ) (ms4 t) fullShare ((dats m hH 0 c).after 4 t)
    ∗ owns (c : Thread nD τ) (ms5 t) fullShare ((dats m hH 0 c).after 5 t)
    ∗ owns (c : Thread nD τ) (ms6 t) fullShare ((dats m hH 0 c).after 6 t))

theorem sound_body (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0, before1, before2, before3, before4, before5]
  rw [show (dats m hH 0 c).Φ t.succ = (dats m hH 0 c).Φ t.castSucc from rfl,
    after0, after1, after2, after3, after4, after5, after6]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  unfold outAt
  iintro ⟨⟨⟨⟨%g10, H10⟩, ⟨%g11, H11⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31⟩, ⟨H3, H4⟩⟩, ⟨%W, -, HW⟩, ⟨%d0, H0⟩, ⟨%d1, H1⟩, ⟨%d2, H2⟩, ⟨%d3, H5⟩, ⟨%d4, H6⟩, ⟨%d5, H7⟩, ⟨%d6, H9⟩⟩
  iapply (kernelRun c (grid0.coords t) (ms0 t) (hs0 t) (ms1 t) (hs1 t) (ms2 t) (hs2 t) (ms3 t) (hs3 t) (ms4 t) (hs4 t) (ms5 t) (hs5 t) (ms6 t) (hs6 t)
    (iblk m c 0 t) (iblk m c 1 t) (hH c t).1 (hH c t).2 (iblk m c 2 t) (iblk m c 3 t) (iblk m c 4 t) (iblk m c 5 t) (V m c main_arg0) (V m c main_arg1) W _)
  isplitl [H0]; · iexact H0
  isplitl [H1]; · iexact H1
  isplitl [H2]; · iexact H2
  isplitl [H5]; · iexact H5
  isplitl [H6]; · iexact H6
  isplitl [H7]; · iexact H7
  isplitl [H9]; · iexists _; iexact H9
  isplitl [H10]; · iexists _; iexact H10
  isplitl [H11]; · iexists _; iexact H11
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [H3]; · iexact H3
  isplitl [H4]; · iexact H4
  isplitl [HW]; · iexact HW
  iintro ⟨H0, H1, H2, H5, H6, H7, H9, ⟨%g10', H10⟩, ⟨%g11', H11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, H3, H4, ⟨%W', HW'⟩⟩
  isplitl [H10 H11 Hg Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 H3 H4]
  · isplitl [H10 H11]
    · isplitl [H10]; · iexists _; iexact H10
      iexists _; iexact H11
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      iexact Q31
    isplitl [H3]; · iexact H3
    iexact H4
  isplitl [HW']
  · iexists W'; isplitr; · ipureintro; exact fun _ _ => Or.inl trivial
    iexact HW'
  isplitl [H0]; · iexact H0
  isplitl [H1]; · iexact H1
  isplitl [H2]; · iexact H2
  isplitl [H5]; · iexact H5
  isplitl [H6]; · iexact H6
  isplitl [H7]; · iexact H7
  iexact H9

/-- The library's body obligation, at every point. -/
theorem body_obligation (c : Dev nD) : BodyObligation (dats (F := F) m hH 0 c) (defs₀ (F := F)) Variants.none () Set.univ := fun t => by
  rw [bigSep_W0, bigSep_W0]
  exact sound_body m hH c t

/-! ## The run -/

/-- The host lines after the region touch neither table. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  intro b hb
  simp only [H0, Finset.mem_insert, Finset.mem_singleton] at hb
  rcases hop with rfl | rfl <;> rcases hb with rfl | rfl <;>
    simp only [StableHlo.unary_bufs, StableHlo.reshape_bufs, Finset.mem_insert, Finset.mem_singleton, not_or] <;>
    exact ⟨StableHlo.devRef_ne_of_ne (by decide), StableHlo.devRef_ne_of_ne (by decide)⟩

set_option backward.isDefEq.respectTransparency.types false in
/-- Every weakly fair execution of @main terminates; every array of the pipeline ends at what the proof data computes,
    every other unscoped buffer as the host lines after the region leave it. -/
theorem run_main : θ_run defs (onTc (τ := τ) (main (F := F))) (s₀ m ρ)
    (Pipeline.FramePost cfgs (dats m hH) 0 (Pipeline.afterTail₀ cfgs (dats m hH) 0 (V0 m) [hostOps1])) :=
  Pipeline.θ_run_frame_dma_around cfgs (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_subD) (hfresh := sfx_fresh) (hkeep := sfx_keeps)
    (hmain := hmainD m Variants.none) (hA := A_eq m hH) (hin := fun _ => .rfl) (hout := fun _ => .rfl)

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The frame claim's post from the frame run's: a staged input by the proof data's array, an array no window stages by
    the post's second clause. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c)))⟩) h

include hH in
/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m hH) (A_eq m hH) (run_main m ρ hH)

end Cert.Kernel.Body

end
-- ==== Proof.KernelHypsPre.lean ====
import proofs.«401610_j38122129719601_1_alg».proof.Proof.KernelHyps
import proofs.«401610_j38122129719601_1_alg».proof.Proof.Spec
import Idealize.ShloMosaic.Lib.StableHlo.Run

/-! # The index words of the padded arrays name table rows

Each of the two index arrays holds 1000000 words. Before the region runs, each is extended by 448 zero words at its end, to
1000448 words, and the region reads the extended arrays block by block, 1024 words a block. A word of an extended array is
either a word of the array it extends or the word zero; so when every word of the two index arrays lies below the table's
row count 100000, so does every word of the two extended arrays, and with them every word of every block: a block's word is
the extended array's word at some index. -/

noncomputable section

namespace Cert.Kernel.Body

open Cert.Kernel Cert.Kernel.Gen
open Idealize.ShloMosaic Idealize.ShloMosaic.TcCoe

variable {F : FTy → Type} [FloatOps F]

/-- A property that holds of every entry of an array and of the padding value holds of every entry of the padded array:
    an entry of the padded array is one or the other. -/
theorem pad_all {s t u : Shape} {α : Type} (P : α → Prop) (lo hi interior : Fin s.rank → Nat) (x : s.Idx → α)
    (v : u.Idx → α) (h : s.Pads lo hi interior t) (hu : 0 < u.numel) (hx : ∀ k, P (x k))
    (hv : P (v (Shape.Idx.first hu))) (j : t.Idx) : P (pad t lo hi interior x v h hu j) := by
  unfold pad
  split
  · exact hx _
  · exact hv

/-- Every word of the first extended index array, as the region finds it, lies below the row count. -/
theorem words_v0 (m : (ℓ : Loc nD τ sig) → Buf (Elt F) ℓ) (c : Dev nD)
    (h2 : Cert.Proof.Spec.InRange (m ((c : Thread nD τ).loc main_arg2))) (j : S1000448.Idx) :
    ((V m c main_v0 : S1000448.Idx → BitVec 32) j).toNat < 100000 := by
  have e : (V m c main_v0 : S1000448.Idx → BitVec 32)
      = pad S1000448 ![0] ![448] ![0] (m ((c : Thread nD τ).loc main_arg2) : S1000000.Idx → BitVec 32)
          (constantI S_ 32 0#32) pads_S1000000_S1000448_04480 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact pad_all (fun w : BitVec 32 => w.toNat < 100000) _ _ _ _ _ _ _ h2 (by decide) j

/-- Every word of the second extended index array, as the region finds it, lies below the row count. -/
theorem words_v1 (m : (ℓ : Loc nD τ sig) → Buf (Elt F) ℓ) (c : Dev nD)
    (h3 : Cert.Proof.Spec.InRange (m ((c : Thread nD τ).loc main_arg3))) (j : S1000448.Idx) :
    ((V m c main_v1 : S1000448.Idx → BitVec 32) j).toNat < 100000 := by
  have e : (V m c main_v1 : S1000448.Idx → BitVec 32)
      = pad S1000448 ![0] ![448] ![0] (m ((c : Thread nD τ).loc main_arg3) : S1000000.Idx → BitVec 32)
          (constantI S_ 32 0#32) pads_S1000000_S1000448_04480 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact pad_all (fun w : BitVec 32 => w.toNat < 100000) _ _ _ _ _ _ _ h3 (by decide) j

/-- When every word of the two index arrays names a table row, so does every word of every block of the two extended
    arrays: a block's word is the extended array's word at the index the block's window sends it to. -/
theorem hyps_of_inRange (m : (ℓ : Loc nD τ sig) → Buf (Elt F) ℓ)
    (h2 : ∀ c : Dev nD, Cert.Proof.Spec.InRange (m ((c : Thread nD τ).loc main_arg2)))
    (h3 : ∀ c : Dev nD, Cert.Proof.Spec.InRange (m ((c : Thread nD τ).loc main_arg3))) : Hyps m := by
  intro c t
  refine ⟨fun y => ?_, fun y => ?_⟩
  · exact words_v0 m c (h2 c) (((cfg0.win 0).blk t).view.emb y)
  · exact words_v1 m c (h3 c) (((cfg0.win 1).blk t).view.emb y)

end Cert.Kernel.Body

end
-- ==== Proof.KernelIdealKit.lean ====
import proofs.«401610_j38122129719601_1_alg».proof.Proof.Gen.KernelIdeal.Frame
import proofs.«401610_j38122129719601_1_alg».proof.Proof.Gen.KernelIdeal.Loops
import Idealize.ShloMosaic.Lib.Batch

/-! # The gather kernel's own transfers: the region invariant, conjunct by conjunct

The kernel copies table rows out of the two embedding tables, which stay in HBM, into two scratch blocks, on 32 DMA
semaphores of its own (16 per table), and waits for every copy inside the grid point that issued it. Between grid points
nothing is in flight: the two tables are whole at their launch contents, the two scratch blocks hold anything, every one
of the 32 semaphores is at zero. This module spells that invariant out and states @main around the region for it. -/

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The two tables, left in HBM, and the two scratch blocks their rows are copied into. -/
abbrev M3 : Memref sig .tc .hbm S100000x64 .f32 := Memref.whole main_arg0
abbrev M4 : Memref sig .tc .hbm S100000x64 .f32 := Memref.whole main_arg1
abbrev M10 : Memref sig .tc .vmem S1024x64 .f32 := Memref.whole cc0_scratch0
abbrev M11 : Memref sig .tc .vmem S1024x64 .f32 := Memref.whole cc0_scratch1

/-- Each window's current staging memref at point `t`, and its wholeness. -/
abbrev ms0 (t : Fin cfg0.N) : Memref sig .tc .smem S1024 .i32 := win0_0.stage (cfg0.slots t 0)
abbrev hs0 (t : Fin cfg0.N) : (ms0 t).IsWhole := hstage0_0 ((cfg0.slots t 0).cast nbuf0_0)
abbrev ms1 (t : Fin cfg0.N) : Memref sig .tc .smem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S129x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024 .f32 := win0_6.stage (cfg0.slots t 6)
abbrev hs6 (t : Fin cfg0.N) : (ms6 t).IsWhole := hstage0_6 ((cfg0.slots t 6).cast nbuf0_6)

/-- A memref's buffer on core `c`: its contents type. -/
abbrev HbBuf (c : Dev nD) {sp : Space} {S : Shape} {e : EltTy} (M : Memref sig .tc sp S e) : Type := Buf (Elt F) (M.view.loc (c : Thread nD τ))

/-- The kernel's own DMA semaphores: cells 10 to 41 of the pool (16 for each table's copies). -/
abbrev osem0 : Fin 32 → SemLoc sig := fun j => SemLoc.dma ⟨10 + j.val, by have := j.isLt; show 10 + j.val < 42; omega⟩
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0) := by
  rw [Pipeline.ownSems0_eq_of_list c osem0 [0, 1, 2, 3, 4, 5, 6, 7, 8, 9, 10, 11, 12, 13, 14, 15, 16, 17, 18, 19, 20, 21, 22, 23, 24, 25, 26, 27, 28, 29, 30, 31] (by decide) (by decide)]; rfl

/-- The tables the kernel reads by its own copies: unscoped, no window's array. -/
def H0 : Finset (Ref sig .tc) := {main_arg0, main_arg1}
theorem H0_sub : H0 ⊆ Pipeline.restRefs sig spec0 := by decide
/-- Their points-tos at the region-entry contents, listed. -/
theorem hbmPts0_eq (c : Dev nD) :
    (bigSep H0 (fun b => ((c : Thread nD τ).loc b) ↦{fullShare} V m c b) : sProp 𝕄)
      = iprop((M3.view.loc (c : Thread nD τ) ↦{fullShare} V m c main_arg0) ∗ (M4.view.loc (c : Thread nD τ) ↦{fullShare} V m c main_arg1)) := by
  rw [BI.bigSep_eq_bigSepL_of_eq [main_arg0, main_arg1] (by decide) (by decide)]; rfl

/-- The region invariant conjunct by conjunct: the two scratch blocks at some contents, the generator register at some
    state, the 32 cells at zero, the two tables at their region-entry contents. -/
theorem PhiD0_eq (c : Dev nD) :
    (Pipeline.ΦD osem0 spec0 H0 (V m) c : sProp 𝕄)
      = iprop(iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))
          ∗ (∃ r, prngReg c r)
          ∗ iprop(semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0)
          ∗ iprop((M3.view.loc (c : Thread nD τ) ↦{fullShare} V m c main_arg0) ∗ (M4.view.loc (c : Thread nD τ) ↦{fullShare} V m c main_arg1))) := by
  rw [Pipeline.ΦD_eq, scopedRest0_eq, ownSems00_eq, hbmPts0_eq]

/-- @main around the region at the algebra that carries the transfers' counters: the host lines before it, the region,
    the host lines after it. -/
theorem hmainD (𝒱₀ : Variants) : Pipeline.HMainK (Ix := Unit) (Name := ℕ) (U := Pipeline.UD sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3] [hostOps1] (by simp only [List.Forall]; exact ⟨hostOps0_sub, hostOps0_1_sub, hostOps0_2_sub, hostOps0_3_sub⟩)
    (by simp only [List.Forall]; exact ⟨hostOps0_fresh, hostOps0_1_fresh, hostOps0_2_fresh, hostOps0_3_fresh⟩) main_chain

end Cert.KernelIdeal.Body

end
-- ==== Proof.KernelIdealLoop.lean ====
import proofs.«401610_j38122129719601_1_alg».proof.Proof.KernelIdealKit
import Idealize.ShloMosaic.Lib.ValueIdx

/-! # The gather loop and the kernel body's run

One grid point handles 1024 edges. Its counted loop runs 64 trips; trip `k` reads the 16 index words `16k … 16k+15` of each
of the two index blocks, starts for each word a copy of the table row it names into the row of the same number of a
scratch block — 32 copies in flight at once, each on a semaphore of its own —, and waits for all of them. So before trip
`k` rows `0 … 16k−1` of each scratch block already hold the table rows their index words name, and after the last trip
every row does. The body then loads the two scratch blocks whole, computes, and stores the ratings block. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The index words name table rows -/

/-- Every word of an index block lies below the table's row count. -/
def WordsOK (x : S1024.Idx → Elt F .i32) : Prop := ∀ e, (show BitVec 32 from x e).toNat < 100000

/-- A table row's offsets `(v, 0)` with its extents `(1, 64)` lie inside the table when `v` is below the row count: the
    side condition the body assumes of each index word it reads. -/
theorem chk_core (v : BitVec 32) (h : v.toNat < 100000) :
    ∀ a : Fin 2, (![v.toNat, 0] : Fin 2 → ℕ) a + S1x64.size a ≤ S100000x64.size a := by
  intro a
  match a with
  | ⟨0, _⟩ => show v.toNat + 1 ≤ 100000; omega
  | ⟨1, _⟩ => show 0 + 64 ≤ 64; omega

/-- A word loaded from an index block whose words are all row numbers is a row number. -/
theorem word_lt (a : Memref sig .tc .smem S1024 .i32) (ha : a.IsWhole) (x : S1024.Idx → Elt F .i32) (hx : WordsOK x)
    (r : LoadRect S1024) (i : r.shape.Idx) :
    (show BitVec 32 from View.readAt (Elt F) a.view r (ha.unread x) i).toNat < 100000 := by
  rw [View.readAt_apply, ha.read_unread]; exact hx _

/-! ## What the scratch blocks hold -/

/-- Rows `0 … n−1` of the scratch block `D` (contents `g`) are the rows of the table `S` (contents `f`) that the index
    words `x` name. -/
def RowsOK (c : Dev nD) (D : Memref sig .tc .vmem S1024x64 .f32) (S : Memref sig .tc .hbm S100000x64 .f32)
    (g : HbBuf (F := F) c D) (f : HbBuf (F := F) c S) (x : S1024.Idx → Elt F .i32) (hx : WordsOK x) (n : ℕ) : Prop :=
  ∀ (r : Fin 1024) (col : Fin 64), r.val < n →
    D.view.read (Elt F) g (ix2 r col) = S.view.read (Elt F) f (ix2 ⟨(show BitVec 32 from x (ix1 r)).toNat, hx _⟩ col)

/-- The block of table rows the index words name: what a scratch block holds once every row has landed. -/
def gathered (c : Dev nD) (S : Memref sig .tc .hbm S100000x64 .f32) (f : HbBuf (F := F) c S) (x : S1024.Idx → Elt F .i32)
    (hx : WordsOK x) : Vec F S1024x64 .f32 :=
  fun y => S.view.read (Elt F) f (ix2 ⟨(show BitVec 32 from x (ix1 (y 0))).toNat, hx _⟩ (y 1))

theorem read_eq_gathered (c : Dev nD) (D : Memref sig .tc .vmem S1024x64 .f32) (S : Memref sig .tc .hbm S100000x64 .f32)
    (g : HbBuf (F := F) c D) (f : HbBuf (F := F) c S) (x : S1024.Idx → Elt F .i32) (hx : WordsOK x)
    (h : RowsOK c D S g f x hx 1024) : D.view.read (Elt F) g = gathered c S f x hx := by
  funext y
  have hy := eq_ix2 y
  rw [hy]
  exact h (y 0) (y 1) (y 0).isLt

/-! ## The loop's invariant -/

/-- Before trip `k`: both index blocks held, each table held as one read share per semaphore its copies complete on, the
    scratch blocks' first `16k` rows landed, every semaphore at zero. -/
def inv (c : Dev nD) (a1 a2 : Memref sig .tc .smem S1024 .i32) (h1 : a1.IsWhole) (h2 : a2.IsWhole)
    (x1 x2 : S1024.Idx → Elt F .i32) (hx1 : WordsOK x1) (hx2 : WordsOK x2) (f3 : HbBuf (F := F) c M3) (f4 : HbBuf (F := F) c M4)
    (k : ℕ) (_ : Unit) : sProp 𝕄 :=
  iprop((a1.view.loc (c : Thread nD τ) ↦[a1.view.set]{fullShare} h1.unread x1) ∗ (a2.view.loc (c : Thread nD τ) ↦[a2.view.set]{fullShare} h2.unread x2)
    ∗ (M3.view.loc (c : Thread nD τ) ↦{Transfers.shareTokN fullShare 10} f3) ∗ (M3.view.loc (c : Thread nD τ) ↦{Transfers.shareTokN fullShare 11} f3) ∗ (M3.view.loc (c : Thread nD τ) ↦{Transfers.shareTokN fullShare 12} f3) ∗ (M3.view.loc (c : Thread nD τ) ↦{Transfers.shareTokN fullShare 13} f3) ∗ (M3.view.loc (c : Thread nD τ) ↦{Transfers.shareTokN fullShare 14} f3) ∗ (M3.view.loc (c : Thread nD τ) ↦{Transfers.shareTokN fullShare 15} f3) ∗ (M3.view.loc (c : Thread nD τ) ↦{Transfers.shareTokN fullShare 16} f3) ∗ (M3.view.loc (c : Thread nD τ) ↦{Transfers.shareTokN fullShare 17} f3) ∗ (M3.view.loc (c : Thread nD τ) ↦{Transfers.shareTokN fullShare 18} f3) ∗ (M3.view.loc (c : Thread nD τ) ↦{Transfers.shareTokN fullShare 19} f3) ∗ (M3.view.loc (c : Thread nD τ) ↦{Transfers.shareTokN fullShare 20} f3) ∗ (M3.view.loc (c : Thread nD τ) ↦{Transfers.shareTokN fullShare 21} f3) ∗ (M3.view.loc (c : Thread nD τ) ↦{Transfers.shareTokN fullShare 22} f3) ∗ (M3.view.loc (c : Thread nD τ) ↦{Transfers.shareTokN fullShare 23} f3) ∗ (M3.view.loc (c : Thread nD τ) ↦{Transfers.shareTokN fullShare 24} f3) ∗ (M3.view.loc (c : Thread nD τ) ↦{Transfers.shareTokN fullShare 25} f3)
    ∗ (M4.view.loc (c : Thread nD τ) ↦{Transfers.shareTokN fullShare 26} f4) ∗ (M4.view.loc (c : Thread nD τ) ↦{Transfers.shareTokN fullShare 27} f4) ∗ (M4.view.loc (c : Thread nD τ) ↦{Transfers.shareTokN fullShare 28} f4) ∗ (M4.view.loc (c : Thread nD τ) ↦{Transfers.shareTokN fullShare 29} f4) ∗ (M4.view.loc (c : Thread nD τ) ↦{Transfers.shareTokN fullShare 30} f4) ∗ (M4.view.loc (c : Thread nD τ) ↦{Transfers.shareTokN fullShare 31} f4) ∗ (M4.view.loc (c : Thread nD τ) ↦{Transfers.shareTokN fullShare 32} f4) ∗ (M4.view.loc (c : Thread nD τ) ↦{Transfers.shareTokN fullShare 33} f4) ∗ (M4.view.loc (c : Thread nD τ) ↦{Transfers.shareTokN fullShare 34} f4) ∗ (M4.view.loc (c : Thread nD τ) ↦{Transfers.shareTokN fullShare 35} f4) ∗ (M4.view.loc (c : Thread nD τ) ↦{Transfers.shareTokN fullShare 36} f4) ∗ (M4.view.loc (c : Thread nD τ) ↦{Transfers.shareTokN fullShare 37} f4) ∗ (M4.view.loc (c : Thread nD τ) ↦{Transfers.shareTokN fullShare 38} f4) ∗ (M4.view.loc (c : Thread nD τ) ↦{Transfers.shareTokN fullShare 39} f4) ∗ (M4.view.loc (c : Thread nD τ) ↦{Transfers.shareTokN fullShare 40} f4) ∗ (M4.view.loc (c : Thread nD τ) ↦{Transfers.shareTokN fullShare 41} f4)
    ∗ (∃ g : HbBuf (F := F) c M10, (M10.view.loc (c : Thread nD τ) ↦{fullShare} g) ∗ ⌜RowsOK c M10 M3 g f3 x1 hx1 (16 * k)⌝)
    ∗ (∃ g : HbBuf (F := F) c M11, (M11.view.loc (c : Thread nD τ) ↦{fullShare} g) ∗ ⌜RowsOK c M11 M4 g f4 x2 hx2 (16 * k)⌝)
    ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0
    ∗ (∃ W, owes (c : Thread nD τ) 0 W))

/-- A table held whole is its 16 read shares and the remainder. -/
def restA (c : Dev nD) (f3 : HbBuf (F := F) c M3) : sProp 𝕄 :=
  iprop((M3.view.loc (c : Thread nD τ) ↦{Transfers.shareDrop fullShare 26} f3) ∗ (M3.view.loc (c : Thread nD τ) ↦{Transfers.shareTokN fullShare 0} f3) ∗ (M3.view.loc (c : Thread nD τ) ↦{Transfers.shareTokN fullShare 1} f3) ∗ (M3.view.loc (c : Thread nD τ) ↦{Transfers.shareTokN fullShare 2} f3) ∗ (M3.view.loc (c : Thread nD τ) ↦{Transfers.shareTokN fullShare 3} f3) ∗ (M3.view.loc (c : Thread nD τ) ↦{Transfers.shareTokN fullShare 4} f3) ∗ (M3.view.loc (c : Thread nD τ) ↦{Transfers.shareTokN fullShare 5} f3) ∗ (M3.view.loc (c : Thread nD τ) ↦{Transfers.shareTokN fullShare 6} f3) ∗ (M3.view.loc (c : Thread nD τ) ↦{Transfers.shareTokN fullShare 7} f3) ∗ (M3.view.loc (c : Thread nD τ) ↦{Transfers.shareTokN fullShare 8} f3) ∗ (M3.view.loc (c : Thread nD τ) ↦{Transfers.shareTokN fullShare 9} f3))
def restB (c : Dev nD) (f4 : HbBuf (F := F) c M4) : sProp 𝕄 :=
  iprop((M4.view.loc (c : Thread nD τ) ↦{Transfers.shareDrop fullShare 42} f4) ∗ (M4.view.loc (c : Thread nD τ) ↦{Transfers.shareTokN fullShare 0} f4) ∗ (M4.view.loc (c : Thread nD τ) ↦{Transfers.shareTokN fullShare 1} f4) ∗ (M4.view.loc (c : Thread nD τ) ↦{Transfers.shareTokN fullShare 2} f4) ∗ (M4.view.loc (c : Thread nD τ) ↦{Transfers.shareTokN fullShare 3} f4) ∗ (M4.view.loc (c : Thread nD τ) ↦{Transfers.shareTokN fullShare 4} f4) ∗ (M4.view.loc (c : Thread nD τ) ↦{Transfers.shareTokN fullShare 5} f4) ∗ (M4.view.loc (c : Thread nD τ) ↦{Transfers.shareTokN fullShare 6} f4) ∗ (M4.view.loc (c : Thread nD τ) ↦{Transfers.shareTokN fullShare 7} f4) ∗ (M4.view.loc (c : Thread nD τ) ↦{Transfers.shareTokN fullShare 8} f4) ∗ (M4.view.loc (c : Thread nD τ) ↦{Transfers.shareTokN fullShare 9} f4) ∗ (M4.view.loc (c : Thread nD τ) ↦{Transfers.shareTokN fullShare 10} f4) ∗ (M4.view.loc (c : Thread nD τ) ↦{Transfers.shareTokN fullShare 11} f4) ∗ (M4.view.loc (c : Thread nD τ) ↦{Transfers.shareTokN fullShare 12} f4) ∗ (M4.view.loc (c : Thread nD τ) ↦{Transfers.shareTokN fullShare 13} f4) ∗ (M4.view.loc (c : Thread nD τ) ↦{Transfers.shareTokN fullShare 14} f4) ∗ (M4.view.loc (c : Thread nD τ) ↦{Transfers.shareTokN fullShare 15} f4) ∗ (M4.view.loc (c : Thread nD τ) ↦{Transfers.shareTokN fullShare 16} f4) ∗ (M4.view.loc (c : Thread nD τ) ↦{Transfers.shareTokN fullShare 17} f4) ∗ (M4.view.loc (c : Thread nD τ) ↦{Transfers.shareTokN fullShare 18} f4) ∗ (M4.view.loc (c : Thread nD τ) ↦{Transfers.shareTokN fullShare 19} f4) ∗ (M4.view.loc (c : Thread nD τ) ↦{Transfers.shareTokN fullShare 20} f4) ∗ (M4.view.loc (c : Thread nD τ) ↦{Transfers.shareTokN fullShare 21} f4) ∗ (M4.view.loc (c : Thread nD τ) ↦{Transfers.shareTokN fullShare 22} f4) ∗ (M4.view.loc (c : Thread nD τ) ↦{Transfers.shareTokN fullShare 23} f4) ∗ (M4.view.loc (c : Thread nD τ) ↦{Transfers.shareTokN fullShare 24} f4) ∗ (M4.view.loc (c : Thread nD τ) ↦{Transfers.shareTokN fullShare 25} f4))

theorem splitA (c : Dev nD) (f3 : HbBuf (F := F) c M3) :
    (M3.view.loc (c : Thread nD τ) ↦{fullShare} f3 : sProp 𝕄) ⊣⊢ iprop(restA c f3 ∗ (M3.view.loc (c : Thread nD τ) ↦{Transfers.shareTokN fullShare 10} f3) ∗ (M3.view.loc (c : Thread nD τ) ↦{Transfers.shareTokN fullShare 11} f3) ∗ (M3.view.loc (c : Thread nD τ) ↦{Transfers.shareTokN fullShare 12} f3) ∗ (M3.view.loc (c : Thread nD τ) ↦{Transfers.shareTokN fullShare 13} f3) ∗ (M3.view.loc (c : Thread nD τ) ↦{Transfers.shareTokN fullShare 14} f3) ∗ (M3.view.loc (c : Thread nD τ) ↦{Transfers.shareTokN fullShare 15} f3) ∗ (M3.view.loc (c : Thread nD τ) ↦{Transfers.shareTokN fullShare 16} f3) ∗ (M3.view.loc (c : Thread nD τ) ↦{Transfers.shareTokN fullShare 17} f3) ∗ (M3.view.loc (c : Thread nD τ) ↦{Transfers.shareTokN fullShare 18} f3) ∗ (M3.view.loc (c : Thread nD τ) ↦{Transfers.shareTokN fullShare 19} f3) ∗ (M3.view.loc (c : Thread nD τ) ↦{Transfers.shareTokN fullShare 20} f3) ∗ (M3.view.loc (c : Thread nD τ) ↦{Transfers.shareTokN fullShare 21} f3) ∗ (M3.view.loc (c : Thread nD τ) ↦{Transfers.shareTokN fullShare 22} f3) ∗ (M3.view.loc (c : Thread nD τ) ↦{Transfers.shareTokN fullShare 23} f3) ∗ (M3.view.loc (c : Thread nD τ) ↦{Transfers.shareTokN fullShare 24} f3) ∗ (M3.view.loc (c : Thread nD τ) ↦{Transfers.shareTokN fullShare 25} f3)) := by
  have h : (M3.view.loc (c : Thread nD τ) ↦{fullShare} f3 : sProp 𝕄) ⊣⊢ iprop((M3.view.loc (c : Thread nD τ) ↦{Transfers.shareDrop fullShare 26} f3) ∗ (M3.view.loc (c : Thread nD τ) ↦{Transfers.shareTokN fullShare 0} f3) ∗ (M3.view.loc (c : Thread nD τ) ↦{Transfers.shareTokN fullShare 1} f3) ∗ (M3.view.loc (c : Thread nD τ) ↦{Transfers.shareTokN fullShare 2} f3) ∗ (M3.view.loc (c : Thread nD τ) ↦{Transfers.shareTokN fullShare 3} f3) ∗ (M3.view.loc (c : Thread nD τ) ↦{Transfers.shareTokN fullShare 4} f3) ∗ (M3.view.loc (c : Thread nD τ) ↦{Transfers.shareTokN fullShare 5} f3) ∗ (M3.view.loc (c : Thread nD τ) ↦{Transfers.shareTokN fullShare 6} f3) ∗ (M3.view.loc (c : Thread nD τ) ↦{Transfers.shareTokN fullShare 7} f3) ∗ (M3.view.loc (c : Thread nD τ) ↦{Transfers.shareTokN fullShare 8} f3) ∗ (M3.view.loc (c : Thread nD τ) ↦{Transfers.shareTokN fullShare 9} f3) ∗ (M3.view.loc (c : Thread nD τ) ↦{Transfers.shareTokN fullShare 10} f3) ∗ (M3.view.loc (c : Thread nD τ) ↦{Transfers.shareTokN fullShare 11} f3) ∗ (M3.view.loc (c : Thread nD τ) ↦{Transfers.shareTokN fullShare 12} f3) ∗ (M3.view.loc (c : Thread nD τ) ↦{Transfers.shareTokN fullShare 13} f3) ∗ (M3.view.loc (c : Thread nD τ) ↦{Transfers.shareTokN fullShare 14} f3) ∗ (M3.view.loc (c : Thread nD τ) ↦{Transfers.shareTokN fullShare 15} f3) ∗ (M3.view.loc (c : Thread nD τ) ↦{Transfers.shareTokN fullShare 16} f3) ∗ (M3.view.loc (c : Thread nD τ) ↦{Transfers.shareTokN fullShare 17} f3) ∗ (M3.view.loc (c : Thread nD τ) ↦{Transfers.shareTokN fullShare 18} f3) ∗ (M3.view.loc (c : Thread nD τ) ↦{Transfers.shareTokN fullShare 19} f3) ∗ (M3.view.loc (c : Thread nD τ) ↦{Transfers.shareTokN fullShare 20} f3) ∗ (M3.view.loc (c : Thread nD τ) ↦{Transfers.shareTokN fullShare 21} f3) ∗ (M3.view.loc (c : Thread nD τ) ↦{Transfers.shareTokN fullShare 22} f3) ∗ (M3.view.loc (c : Thread nD τ) ↦{Transfers.shareTokN fullShare 23} f3) ∗ (M3.view.loc (c : Thread nD τ) ↦{Transfers.shareTokN fullShare 24} f3) ∗ (M3.view.loc (c : Thread nD τ) ↦{Transfers.shareTokN fullShare 25} f3)) := by
    have h0 := Transfers.pointsTo_toks_range (Ix := Unit) (Name := ℕ) (U := Pipeline.UD sig nD τ) (Lvl := ℕ) (ℓ := M3.view.loc (c : Thread nD τ)) (S := Finset.univ) (f := f3) fullShare 26
    rw [BI.bigSep_eq_bigSepL_of_eq [0, 1, 2, 3, 4, 5, 6, 7, 8, 9, 10, 11, 12, 13, 14, 15, 16, 17, 18, 19, 20, 21, 22, 23, 24, 25] (by decide) (by decide)] at h0
    exact h0
  unfold restA
  refine ⟨h.1.trans ?_, BIBase.Entails.trans ?_ h.2⟩
  · iintro ⟨Hd, IA0, IA1, IA2, IA3, IA4, IA5, IA6, IA7, IA8, IA9, TA0, TA1, TA2, TA3, TA4, TA5, TA6, TA7, TA8, TA9, TA10, TA11, TA12, TA13, TA14, TA15⟩
    isplitl [Hd IA0 IA1 IA2 IA3 IA4 IA5 IA6 IA7 IA8 IA9]
    · isplitl [Hd]; · iexact Hd
      isplitl [IA0]; · iexact IA0
      isplitl [IA1]; · iexact IA1
      isplitl [IA2]; · iexact IA2
      isplitl [IA3]; · iexact IA3
      isplitl [IA4]; · iexact IA4
      isplitl [IA5]; · iexact IA5
      isplitl [IA6]; · iexact IA6
      isplitl [IA7]; · iexact IA7
      isplitl [IA8]; · iexact IA8
      iexact IA9
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  · iintro ⟨⟨Hd, IA0, IA1, IA2, IA3, IA4, IA5, IA6, IA7, IA8, IA9⟩, TA0, TA1, TA2, TA3, TA4, TA5, TA6, TA7, TA8, TA9, TA10, TA11, TA12, TA13, TA14, TA15⟩
    isplitl [Hd]; · iexact Hd
    isplitl [IA0]; · iexact IA0
    isplitl [IA1]; · iexact IA1
    isplitl [IA2]; · iexact IA2
    isplitl [IA3]; · iexact IA3
    isplitl [IA4]; · iexact IA4
    isplitl [IA5]; · iexact IA5
    isplitl [IA6]; · iexact IA6
    isplitl [IA7]; · iexact IA7
    isplitl [IA8]; · iexact IA8
    isplitl [IA9]; · iexact IA9
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15

theorem splitB (c : Dev nD) (f4 : HbBuf (F := F) c M4) :
    (M4.view.loc (c : Thread nD τ) ↦{fullShare} f4 : sProp 𝕄) ⊣⊢ iprop(restB c f4 ∗ (M4.view.loc (c : Thread nD τ) ↦{Transfers.shareTokN fullShare 26} f4) ∗ (M4.view.loc (c : Thread nD τ) ↦{Transfers.shareTokN fullShare 27} f4) ∗ (M4.view.loc (c : Thread nD τ) ↦{Transfers.shareTokN fullShare 28} f4) ∗ (M4.view.loc (c : Thread nD τ) ↦{Transfers.shareTokN fullShare 29} f4) ∗ (M4.view.loc (c : Thread nD τ) ↦{Transfers.shareTokN fullShare 30} f4) ∗ (M4.view.loc (c : Thread nD τ) ↦{Transfers.shareTokN fullShare 31} f4) ∗ (M4.view.loc (c : Thread nD τ) ↦{Transfers.shareTokN fullShare 32} f4) ∗ (M4.view.loc (c : Thread nD τ) ↦{Transfers.shareTokN fullShare 33} f4) ∗ (M4.view.loc (c : Thread nD τ) ↦{Transfers.shareTokN fullShare 34} f4) ∗ (M4.view.loc (c : Thread nD τ) ↦{Transfers.shareTokN fullShare 35} f4) ∗ (M4.view.loc (c : Thread nD τ) ↦{Transfers.shareTokN fullShare 36} f4) ∗ (M4.view.loc (c : Thread nD τ) ↦{Transfers.shareTokN fullShare 37} f4) ∗ (M4.view.loc (c : Thread nD τ) ↦{Transfers.shareTokN fullShare 38} f4) ∗ (M4.view.loc (c : Thread nD τ) ↦{Transfers.shareTokN fullShare 39} f4) ∗ (M4.view.loc (c : Thread nD τ) ↦{Transfers.shareTokN fullShare 40} f4) ∗ (M4.view.loc (c : Thread nD τ) ↦{Transfers.shareTokN fullShare 41} f4)) := by
  have h : (M4.view.loc (c : Thread nD τ) ↦{fullShare} f4 : sProp 𝕄) ⊣⊢ iprop((M4.view.loc (c : Thread nD τ) ↦{Transfers.shareDrop fullShare 42} f4) ∗ (M4.view.loc (c : Thread nD τ) ↦{Transfers.shareTokN fullShare 0} f4) ∗ (M4.view.loc (c : Thread nD τ) ↦{Transfers.shareTokN fullShare 1} f4) ∗ (M4.view.loc (c : Thread nD τ) ↦{Transfers.shareTokN fullShare 2} f4) ∗ (M4.view.loc (c : Thread nD τ) ↦{Transfers.shareTokN fullShare 3} f4) ∗ (M4.view.loc (c : Thread nD τ) ↦{Transfers.shareTokN fullShare 4} f4) ∗ (M4.view.loc (c : Thread nD τ) ↦{Transfers.shareTokN fullShare 5} f4) ∗ (M4.view.loc (c : Thread nD τ) ↦{Transfers.shareTokN fullShare 6} f4) ∗ (M4.view.loc (c : Thread nD τ) ↦{Transfers.shareTokN fullShare 7} f4) ∗ (M4.view.loc (c : Thread nD τ) ↦{Transfers.shareTokN fullShare 8} f4) ∗ (M4.view.loc (c : Thread nD τ) ↦{Transfers.shareTokN fullShare 9} f4) ∗ (M4.view.loc (c : Thread nD τ) ↦{Transfers.shareTokN fullShare 10} f4) ∗ (M4.view.loc (c : Thread nD τ) ↦{Transfers.shareTokN fullShare 11} f4) ∗ (M4.view.loc (c : Thread nD τ) ↦{Transfers.shareTokN fullShare 12} f4) ∗ (M4.view.loc (c : Thread nD τ) ↦{Transfers.shareTokN fullShare 13} f4) ∗ (M4.view.loc (c : Thread nD τ) ↦{Transfers.shareTokN fullShare 14} f4) ∗ (M4.view.loc (c : Thread nD τ) ↦{Transfers.shareTokN fullShare 15} f4) ∗ (M4.view.loc (c : Thread nD τ) ↦{Transfers.shareTokN fullShare 16} f4) ∗ (M4.view.loc (c : Thread nD τ) ↦{Transfers.shareTokN fullShare 17} f4) ∗ (M4.view.loc (c : Thread nD τ) ↦{Transfers.shareTokN fullShare 18} f4) ∗ (M4.view.loc (c : Thread nD τ) ↦{Transfers.shareTokN fullShare 19} f4) ∗ (M4.view.loc (c : Thread nD τ) ↦{Transfers.shareTokN fullShare 20} f4) ∗ (M4.view.loc (c : Thread nD τ) ↦{Transfers.shareTokN fullShare 21} f4) ∗ (M4.view.loc (c : Thread nD τ) ↦{Transfers.shareTokN fullShare 22} f4) ∗ (M4.view.loc (c : Thread nD τ) ↦{Transfers.shareTokN fullShare 23} f4) ∗ (M4.view.loc (c : Thread nD τ) ↦{Transfers.shareTokN fullShare 24} f4) ∗ (M4.view.loc (c : Thread nD τ) ↦{Transfers.shareTokN fullShare 25} f4) ∗ (M4.view.loc (c : Thread nD τ) ↦{Transfers.shareTokN fullShare 26} f4) ∗ (M4.view.loc (c : Thread nD τ) ↦{Transfers.shareTokN fullShare 27} f4) ∗ (M4.view.loc (c : Thread nD τ) ↦{Transfers.shareTokN fullShare 28} f4) ∗ (M4.view.loc (c : Thread nD τ) ↦{Transfers.shareTokN fullShare 29} f4) ∗ (M4.view.loc (c : Thread nD τ) ↦{Transfers.shareTokN fullShare 30} f4) ∗ (M4.view.loc (c : Thread nD τ) ↦{Transfers.shareTokN fullShare 31} f4) ∗ (M4.view.loc (c : Thread nD τ) ↦{Transfers.shareTokN fullShare 32} f4) ∗ (M4.view.loc (c : Thread nD τ) ↦{Transfers.shareTokN fullShare 33} f4) ∗ (M4.view.loc (c : Thread nD τ) ↦{Transfers.shareTokN fullShare 34} f4) ∗ (M4.view.loc (c : Thread nD τ) ↦{Transfers.shareTokN fullShare 35} f4) ∗ (M4.view.loc (c : Thread nD τ) ↦{Transfers.shareTokN fullShare 36} f4) ∗ (M4.view.loc (c : Thread nD τ) ↦{Transfers.shareTokN fullShare 37} f4) ∗ (M4.view.loc (c : Thread nD τ) ↦{Transfers.shareTokN fullShare 38} f4) ∗ (M4.view.loc (c : Thread nD τ) ↦{Transfers.shareTokN fullShare 39} f4) ∗ (M4.view.loc (c : Thread nD τ) ↦{Transfers.shareTokN fullShare 40} f4) ∗ (M4.view.loc (c : Thread nD τ) ↦{Transfers.shareTokN fullShare 41} f4)) := by
    have h0 := Transfers.pointsTo_toks_range (Ix := Unit) (Name := ℕ) (U := Pipeline.UD sig nD τ) (Lvl := ℕ) (ℓ := M4.view.loc (c : Thread nD τ)) (S := Finset.univ) (f := f4) fullShare 42
    rw [BI.bigSep_eq_bigSepL_of_eq [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41] (by decide) (by decide)] at h0
    exact h0
  unfold restB
  refine ⟨h.1.trans ?_, BIBase.Entails.trans ?_ h.2⟩
  · iintro ⟨Hd, IB0, IB1, IB2, IB3, IB4, IB5, IB6, IB7, IB8, IB9, IB10, IB11, IB12, IB13, IB14, IB15, IB16, IB17, IB18, IB19, IB20, IB21, IB22, IB23, IB24, IB25, TB0, TB1, TB2, TB3, TB4, TB5, TB6, TB7, TB8, TB9, TB10, TB11, TB12, TB13, TB14, TB15⟩
    isplitl [Hd IB0 IB1 IB2 IB3 IB4 IB5 IB6 IB7 IB8 IB9 IB10 IB11 IB12 IB13 IB14 IB15 IB16 IB17 IB18 IB19 IB20 IB21 IB22 IB23 IB24 IB25]
    · isplitl [Hd]; · iexact Hd
      isplitl [IB0]; · iexact IB0
      isplitl [IB1]; · iexact IB1
      isplitl [IB2]; · iexact IB2
      isplitl [IB3]; · iexact IB3
      isplitl [IB4]; · iexact IB4
      isplitl [IB5]; · iexact IB5
      isplitl [IB6]; · iexact IB6
      isplitl [IB7]; · iexact IB7
      isplitl [IB8]; · iexact IB8
      isplitl [IB9]; · iexact IB9
      isplitl [IB10]; · iexact IB10
      isplitl [IB11]; · iexact IB11
      isplitl [IB12]; · iexact IB12
      isplitl [IB13]; · iexact IB13
      isplitl [IB14]; · iexact IB14
      isplitl [IB15]; · iexact IB15
      isplitl [IB16]; · iexact IB16
      isplitl [IB17]; · iexact IB17
      isplitl [IB18]; · iexact IB18
      isplitl [IB19]; · iexact IB19
      isplitl [IB20]; · iexact IB20
      isplitl [IB21]; · iexact IB21
      isplitl [IB22]; · iexact IB22
      isplitl [IB23]; · iexact IB23
      isplitl [IB24]; · iexact IB24
      iexact IB25
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  · iintro ⟨⟨Hd, IB0, IB1, IB2, IB3, IB4, IB5, IB6, IB7, IB8, IB9, IB10, IB11, IB12, IB13, IB14, IB15, IB16, IB17, IB18, IB19, IB20, IB21, IB22, IB23, IB24, IB25⟩, TB0, TB1, TB2, TB3, TB4, TB5, TB6, TB7, TB8, TB9, TB10, TB11, TB12, TB13, TB14, TB15⟩
    isplitl [Hd]; · iexact Hd
    isplitl [IB0]; · iexact IB0
    isplitl [IB1]; · iexact IB1
    isplitl [IB2]; · iexact IB2
    isplitl [IB3]; · iexact IB3
    isplitl [IB4]; · iexact IB4
    isplitl [IB5]; · iexact IB5
    isplitl [IB6]; · iexact IB6
    isplitl [IB7]; · iexact IB7
    isplitl [IB8]; · iexact IB8
    isplitl [IB9]; · iexact IB9
    isplitl [IB10]; · iexact IB10
    isplitl [IB11]; · iexact IB11
    isplitl [IB12]; · iexact IB12
    isplitl [IB13]; · iexact IB13
    isplitl [IB14]; · iexact IB14
    isplitl [IB15]; · iexact IB15
    isplitl [IB16]; · iexact IB16
    isplitl [IB17]; · iexact IB17
    isplitl [IB18]; · iexact IB18
    isplitl [IB19]; · iexact IB19
    isplitl [IB20]; · iexact IB20
    isplitl [IB21]; · iexact IB21
    isplitl [IB22]; · iexact IB22
    isplitl [IB23]; · iexact IB23
    isplitl [IB24]; · iexact IB24
    isplitl [IB25]; · iexact IB25
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15

end Cert.KernelIdeal.Body

end
-- ==== Proof.KernelIdealOffs.lean ====
import proofs.«401610_j38122129719601_1_alg».proof.KernelIdeal

/-! # The gather loop's offsets in closed form

Trip `k` of the loop handles the 16 edges `16k + j`, `j < 16`: it reads index word `16k + j` of each index block and
copies into row `16k + j` of each scratch block, from column 0. The printed offset chains (32-bit multiplications and
additions of the trip's induction variable) are these numbers for every one of the 64 trips: no chain wraps. -/

namespace Cert.KernelIdeal.Offs

open Cert.KernelIdeal Idealize.ShloMosaic

theorem word0 : ∀ k : Fin k0_t1_loop.trips, k0_off1 k 0 = 16 * k.val + 0 := by decide +kernel
theorem rowA0 : ∀ k : Fin k0_t1_loop.trips, k0_off2 k 0 = 16 * k.val + 0 := by decide +kernel
theorem rowB0 : ∀ k : Fin k0_t1_loop.trips, k0_off4 k 0 = 16 * k.val + 0 := by decide +kernel
theorem word1 : ∀ k : Fin k0_t1_loop.trips, k0_off6 k 0 = 16 * k.val + 1 := by decide +kernel
theorem rowA1 : ∀ k : Fin k0_t1_loop.trips, k0_off7 k 0 = 16 * k.val + 1 := by decide +kernel
theorem rowB1 : ∀ k : Fin k0_t1_loop.trips, k0_off9 k 0 = 16 * k.val + 1 := by decide +kernel
theorem word2 : ∀ k : Fin k0_t1_loop.trips, k0_off11 k 0 = 16 * k.val + 2 := by decide +kernel
theorem rowA2 : ∀ k : Fin k0_t1_loop.trips, k0_off12 k 0 = 16 * k.val + 2 := by decide +kernel
theorem rowB2 : ∀ k : Fin k0_t1_loop.trips, k0_off14 k 0 = 16 * k.val + 2 := by decide +kernel
theorem word3 : ∀ k : Fin k0_t1_loop.trips, k0_off16 k 0 = 16 * k.val + 3 := by decide +kernel
theorem rowA3 : ∀ k : Fin k0_t1_loop.trips, k0_off17 k 0 = 16 * k.val + 3 := by decide +kernel
theorem rowB3 : ∀ k : Fin k0_t1_loop.trips, k0_off19 k 0 = 16 * k.val + 3 := by decide +kernel
theorem word4 : ∀ k : Fin k0_t1_loop.trips, k0_off21 k 0 = 16 * k.val + 4 := by decide +kernel
theorem rowA4 : ∀ k : Fin k0_t1_loop.trips, k0_off22 k 0 = 16 * k.val + 4 := by decide +kernel
theorem rowB4 : ∀ k : Fin k0_t1_loop.trips, k0_off24 k 0 = 16 * k.val + 4 := by decide +kernel
theorem word5 : ∀ k : Fin k0_t1_loop.trips, k0_off26 k 0 = 16 * k.val + 5 := by decide +kernel
theorem rowA5 : ∀ k : Fin k0_t1_loop.trips, k0_off27 k 0 = 16 * k.val + 5 := by decide +kernel
theorem rowB5 : ∀ k : Fin k0_t1_loop.trips, k0_off29 k 0 = 16 * k.val + 5 := by decide +kernel
theorem word6 : ∀ k : Fin k0_t1_loop.trips, k0_off31 k 0 = 16 * k.val + 6 := by decide +kernel
theorem rowA6 : ∀ k : Fin k0_t1_loop.trips, k0_off32 k 0 = 16 * k.val + 6 := by decide +kernel
theorem rowB6 : ∀ k : Fin k0_t1_loop.trips, k0_off34 k 0 = 16 * k.val + 6 := by decide +kernel
theorem word7 : ∀ k : Fin k0_t1_loop.trips, k0_off36 k 0 = 16 * k.val + 7 := by decide +kernel
theorem rowA7 : ∀ k : Fin k0_t1_loop.trips, k0_off37 k 0 = 16 * k.val + 7 := by decide +kernel
theorem rowB7 : ∀ k : Fin k0_t1_loop.trips, k0_off39 k 0 = 16 * k.val + 7 := by decide +kernel
theorem word8 : ∀ k : Fin k0_t1_loop.trips, k0_off41 k 0 = 16 * k.val + 8 := by decide +kernel
theorem rowA8 : ∀ k : Fin k0_t1_loop.trips, k0_off42 k 0 = 16 * k.val + 8 := by decide +kernel
theorem rowB8 : ∀ k : Fin k0_t1_loop.trips, k0_off44 k 0 = 16 * k.val + 8 := by decide +kernel
theorem word9 : ∀ k : Fin k0_t1_loop.trips, k0_off46 k 0 = 16 * k.val + 9 := by decide +kernel
theorem rowA9 : ∀ k : Fin k0_t1_loop.trips, k0_off47 k 0 = 16 * k.val + 9 := by decide +kernel
theorem rowB9 : ∀ k : Fin k0_t1_loop.trips, k0_off49 k 0 = 16 * k.val + 9 := by decide +kernel
theorem word10 : ∀ k : Fin k0_t1_loop.trips, k0_off51 k 0 = 16 * k.val + 10 := by decide +kernel
theorem rowA10 : ∀ k : Fin k0_t1_loop.trips, k0_off52 k 0 = 16 * k.val + 10 := by decide +kernel
theorem rowB10 : ∀ k : Fin k0_t1_loop.trips, k0_off54 k 0 = 16 * k.val + 10 := by decide +kernel
theorem word11 : ∀ k : Fin k0_t1_loop.trips, k0_off56 k 0 = 16 * k.val + 11 := by decide +kernel
theorem rowA11 : ∀ k : Fin k0_t1_loop.trips, k0_off57 k 0 = 16 * k.val + 11 := by decide +kernel
theorem rowB11 : ∀ k : Fin k0_t1_loop.trips, k0_off59 k 0 = 16 * k.val + 11 := by decide +kernel
theorem word12 : ∀ k : Fin k0_t1_loop.trips, k0_off61 k 0 = 16 * k.val + 12 := by decide +kernel
theorem rowA12 : ∀ k : Fin k0_t1_loop.trips, k0_off62 k 0 = 16 * k.val + 12 := by decide +kernel
theorem rowB12 : ∀ k : Fin k0_t1_loop.trips, k0_off64 k 0 = 16 * k.val + 12 := by decide +kernel
theorem word13 : ∀ k : Fin k0_t1_loop.trips, k0_off66 k 0 = 16 * k.val + 13 := by decide +kernel
theorem rowA13 : ∀ k : Fin k0_t1_loop.trips, k0_off67 k 0 = 16 * k.val + 13 := by decide +kernel
theorem rowB13 : ∀ k : Fin k0_t1_loop.trips, k0_off69 k 0 = 16 * k.val + 13 := by decide +kernel
theorem word14 : ∀ k : Fin k0_t1_loop.trips, k0_off71 k 0 = 16 * k.val + 14 := by decide +kernel
theorem rowA14 : ∀ k : Fin k0_t1_loop.trips, k0_off72 k 0 = 16 * k.val + 14 := by decide +kernel
theorem rowB14 : ∀ k : Fin k0_t1_loop.trips, k0_off74 k 0 = 16 * k.val + 14 := by decide +kernel
theorem word15 : ∀ k : Fin k0_t1_loop.trips, k0_off76 k 0 = 16 * k.val + 15 := by decide +kernel
theorem rowA15 : ∀ k : Fin k0_t1_loop.trips, k0_off77 k 0 = 16 * k.val + 15 := by decide +kernel
theorem rowB15 : ∀ k : Fin k0_t1_loop.trips, k0_off79 k 0 = 16 * k.val + 15 := by decide +kernel

theorem trips_eq : k0_t1_loop.trips = 64 := by decide +kernel

end Cert.KernelIdeal.Offs
-- ==== Proof.KernelIdealRows.lean ====
import proofs.«401610_j38122129719601_1_alg».proof.Proof.KernelIdealLoop
import proofs.«401610_j38122129719601_1_alg».proof.Proof.KernelIdealOffs
import proofs.«401610_j38122129719601_1_alg».proof.Proof.LibRowWindow
import Idealize.ShloMosaic.Lib.Pipeline.Value

/-! # One copy lands one row

A copy of the table row an index word names into row `n` of a scratch block whose rows `0 … n−1` have already landed
leaves rows `0 … n` landed: the written row reads the table row, every other row reads what it read before. -/

noncomputable section

namespace Cert.KernelIdeal.Body

open Cert.KernelIdeal Cert.KernelIdeal.Gen
open Idealize.ShloMosaic Idealize.ShloMosaic.TcCoe Idealize.ShloMosaic.ValueIdx

variable {F : FTy → Type} [FloatOps F]

/-- The word a scalar load reads at offset `o` of an index block held at the words `x` is `x` at `o`. -/
theorem word_eq (a : Memref sig .tc .smem S1024 .i32) (ha : a.IsWhole) (x : S1024.Idx → Elt F .i32)
    (off : Fin 1 → ℕ) (inb : ∀ b, off b + S1.size b ≤ S1024.size b) (hfirst : 0 < S1.numel) (n : ℕ) (hn : n < 1024) (h0 : off 0 = n) :
    View.readAt (Elt F) a.view (Rect.unit (s := S1024) off S1.size inb).toLoadRect (ha.unread x) (Shape.Idx.first hfirst)
      = x (ix1 ⟨n, hn⟩) := by
  rw [View.readAt_apply, ha.read_unread]
  congr 1
  funext b
  match b with
  | ⟨0, _⟩ => exact Fin.ext (by
      show off 0 + 1 * 0 = n
      omega)

/-- A block stored whole through the zero-offset rectangle reads back as stored, whatever the buffer held. -/
theorem read_writes_unit_zero {κ : Kind} {sp : Space} {s : Shape} {e : EltTy} (v : View sig κ sp s e) (f : v.ty.Contents (Elt F))
    {off : Fin s.rank → ℕ} (h : off = fun _ => 0) (inb : ∀ a, off a + s.size a ≤ s.size a) (w : s.Idx → Elt F e) :
    v.read (Elt F) (v.writes (Elt F) f [⟨Rect.unit off s.size inb, w⟩]) = w := by
  subst h
  exact View.read_writes_whole v f w

/-- Row `n` lands: the scratch block written through the window of row `n` with the table row that the word `w`, the
    `n`-th index word, names. -/
theorem rows_layer (c : Dev nD) (D : Memref sig .tc .vmem S1024x64 .f32) (S : Memref sig .tc .hbm S100000x64 .f32)
    (g : HbBuf (F := F) c D) (f : HbBuf (F := F) c S) (x : S1024.Idx → Elt F .i32) (hx : WordsOK x) (n : ℕ) (hn : n < 1024)
    (off : Fin 2 → ℕ) (inb : ∀ a, off a + S1x64.size a ≤ S1024x64.size a)
    (hstr : ∀ a, (Rect.unit (s := S1024x64) off S1x64.size inb).stride a = 1) (hsq : S1x64.Squeezes S64)
    (w : Elt F .i32) (offS : Fin 2 → ℕ) (inbS : ∀ a, offS a + S1x64.size a ≤ S100000x64.size a)
    (hstrS : ∀ a, (Rect.unit (s := S100000x64) offS S1x64.size inbS).stride a = 1) (hsqS : S1x64.Squeezes S64)
    (h0 : off 0 = n) (hS0 : offS 0 = (show BitVec 32 from w).toNat) (hw : w = x (ix1 ⟨n, hn⟩))
    (hg : RowsOK c D S g f x hx n) :
    RowsOK c D S
      (((D.slice (Rect.unit (s := S1024x64) off S1x64.size inb) hstr).squeeze S64 hsq).view.write (Elt F) g
        (ReadAs.same.apply (((S.slice (Rect.unit (s := S100000x64) offS S1x64.size inbS) hstrS).squeeze S64 hsqS).view.read (Elt F) f))
        Finset.univ) f x hx (n + 1) := by
  intro r col hr
  rw [Cert.LibRowWindow.read_write_rowWin]
  by_cases hrn : r.val = off 0
  · rw [if_pos hrn]
    have hrn' : r = ⟨n, hn⟩ := Fin.ext (hrn.trans h0)
    subst hrn'
    have hS : offS 0 < 100000 := by rw [hS0, hw]; exact hx _
    rw [ReadAs.apply_same, Cert.LibRowWindow.read_rowWin S offS inbS hstrS hsqS hS f col]
    congr 2
    exact Fin.ext (by show offS 0 = _; rw [hS0, hw])
  · rw [if_neg hrn]
    exact hg r col (lt_of_le_of_ne (Nat.lt_succ_iff.mp hr) (fun h => hrn (h.trans h0.symm)))

end Cert.KernelIdeal.Body

end
-- ==== Proof.KernelIdealRun.lean ====
import proofs.«401610_j38122129719601_1_alg».proof.Proof.KernelIdealRows

/-! # The kernel body's run at one grid point

From the two index blocks (all their words table rows), the weights' blocks, the output's staging buffer at anything, the
two scratch blocks at anything, the 32 semaphores at zero and the two tables whole, the body runs to its end: the gather
loop by its invariant, then the arithmetic over the two gathered blocks, stored into the output's staging buffer; everything
else is handed back as it was found. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The ratings block a grid point stores: the body's arithmetic over the two gathered blocks and the weights. -/
def outBlock (c : Dev nD) (x1 x2 : S1024.Idx → Elt F .i32) (hx1 : WordsOK x1) (hx2 : WordsOK x2)
    (f3 : HbBuf (F := F) c M3) (f4 : HbBuf (F := F) c M4)
    (x5 : Vec F S129x64 .f32) (x6 : Vec F S64 .f32) (x7 : Vec F S64x1 .f32) (x8 : Vec F S1 .f32) : Vec F S1024 .f32 :=
  k0_pay1 (k0_pay2 (gathered c M3 f3 x1 hx1) (gathered c M4 f4 x2 hx2) x5) x6 x7 x8

set_option maxHeartbeats 8000000 in
theorem kernelRun (c : Dev nD) (i : grid0.Coords) (arg1 : Memref sig .tc .smem S1024 .i32) (harg1 : arg1.IsWhole) (arg2 : Memref sig .tc .smem S1024 .i32) (harg2 : arg2.IsWhole) (arg5 : Memref sig .tc .vmem S129x64 .f32) (harg5 : arg5.IsWhole) (arg6 : Memref sig .tc .vmem S64 .f32) (harg6 : arg6.IsWhole) (arg7 : Memref sig .tc .vmem S64x1 .f32) (harg7 : arg7.IsWhole) (arg8 : Memref sig .tc .vmem S1 .f32) (harg8 : arg8.IsWhole) (arg9 : Memref sig .tc .vmem S1024 .f32) (harg9 : arg9.IsWhole)
    (x1 x2 : S1024.Idx → Elt F .i32) (hx1 : WordsOK x1) (hx2 : WordsOK x2)
    (x5 : Vec F S129x64 .f32) (x6 : Vec F S64 .f32) (x7 : Vec F S64x1 .f32) (x8 : Vec F S1 .f32)
    (f3 : HbBuf (F := F) c M3) (f4 : HbBuf (F := F) c M4) (W : Waits sig Unit) (K : PUnit → sProp 𝕄) :
    iprop(owns (c : Thread nD τ) arg1 fullShare x1 ∗ owns (c : Thread nD τ) arg2 fullShare x2
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ (∃ g : HbBuf (F := F) c M10, M10.view.loc (c : Thread nD τ) ↦{fullShare} g)
        ∗ (∃ g : HbBuf (F := F) c M11, M11.view.loc (c : Thread nD τ) ↦{fullShare} g)
        ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0
        ∗ (M3.view.loc (c : Thread nD τ) ↦{fullShare} f3) ∗ (M4.view.loc (c : Thread nD τ) ↦{fullShare} f4)
        ∗ owes (c : Thread nD τ) 0 W
        ∗ (iprop(owns (c : Thread nD τ) arg1 fullShare x1 ∗ owns (c : Thread nD τ) arg2 fullShare x2
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (outBlock c x1 x2 hx1 hx2 f3 f4 x5 x6 x7 x8)
            ∗ (∃ g : HbBuf (F := F) c M10, M10.view.loc (c : Thread nD τ) ↦{fullShare} g)
            ∗ (∃ g : HbBuf (F := F) c M11, M11.view.loc (c : Thread nD τ) ↦{fullShare} g)
            ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0 ∗ semVal ((c : Thread nD τ), SemLoc.dma 24) 0 ∗ semVal ((c : Thread nD τ), SemLoc.dma 25) 0 ∗ semVal ((c : Thread nD τ), SemLoc.dma 26) 0 ∗ semVal ((c : Thread nD τ), SemLoc.dma 27) 0 ∗ semVal ((c : Thread nD τ), SemLoc.dma 28) 0 ∗ semVal ((c : Thread nD τ), SemLoc.dma 29) 0 ∗ semVal ((c : Thread nD τ), SemLoc.dma 30) 0 ∗ semVal ((c : Thread nD τ), SemLoc.dma 31) 0 ∗ semVal ((c : Thread nD τ), SemLoc.dma 32) 0 ∗ semVal ((c : Thread nD τ), SemLoc.dma 33) 0 ∗ semVal ((c : Thread nD τ), SemLoc.dma 34) 0 ∗ semVal ((c : Thread nD τ), SemLoc.dma 35) 0 ∗ semVal ((c : Thread nD τ), SemLoc.dma 36) 0 ∗ semVal ((c : Thread nD τ), SemLoc.dma 37) 0 ∗ semVal ((c : Thread nD τ), SemLoc.dma 38) 0 ∗ semVal ((c : Thread nD τ), SemLoc.dma 39) 0 ∗ semVal ((c : Thread nD τ), SemLoc.dma 40) 0 ∗ semVal ((c : Thread nD τ), SemLoc.dma 41) 0
            ∗ (M3.view.loc (c : Thread nD τ) ↦{fullShare} f3) ∗ (M4.view.loc (c : Thread nD τ) ↦{fullShare} f4)
            ∗ (∃ W', owes (c : Thread nD τ) 0 W')) -∗ K ⟨⟩))
      ⊢ wp frame (wpE (defs₀ (F := F)) Variants.none c none) Set.univ (cc0__kernel (F := F) i arg1 harg1 arg2 harg2 M3 (Memref.isWhole_whole _) M4 (Memref.isWhole_whole _) arg5 harg5 arg6 harg6 arg7 harg7 arg8 harg8 arg9 harg9 M10 (Memref.isWhole_whole _) M11 (Memref.isWhole_whole _) cc0_scratch2 cc0_scratch3) K := by
  simp only [cc0__kernel_eq_skeleton]; unfold cc0__kernel_skel
  unfold owns
  iintro ⟨⟨%f1, %hf1, H1⟩, ⟨%f2, %hf2, H2⟩, ⟨%f5, %hf5, H5⟩, ⟨%f6, %hf6, H6⟩, ⟨%f7, %hf7, H7⟩, ⟨%f8, %hf8, H8⟩, ⟨%d9, %f9, -, H9⟩, ⟨%g10, H10⟩, ⟨%g11, H11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, H3, H4, HW, Hk⟩
  obtain rfl := harg1.eq_unread hf1
  obtain rfl := harg2.eq_unread hf2
  obtain rfl := harg5.eq_unread hf5
  obtain rfl := harg6.eq_unread hf6
  obtain rfl := harg7.eq_unread hf7
  obtain rfl := harg8.eq_unread hf8
  ihave H3' := (splitA c f3).1 $$ H3
  icases H3' with ⟨R3, TA0, TA1, TA2, TA3, TA4, TA5, TA6, TA7, TA8, TA9, TA10, TA11, TA12, TA13, TA14, TA15⟩
  ihave H4' := (splitB c f4).1 $$ H4
  icases H4' with ⟨R4, TB0, TB1, TB2, TB3, TB4, TB5, TB6, TB7, TB8, TB9, TB10, TB11, TB12, TB13, TB14, TB15⟩
  simp only [k0_part15_eq_skeleton]; unfold k0_part15_skel
  simp only [Prog.bind_assoc]
  sl_for (inv c arg1 arg2 harg1 harg2 x1 x2 hx1 hx2 f3 f4) $$ [H1 H2 TA0 TA1 TA2 TA3 TA4 TA5 TA6 TA7 TA8 TA9 TA10 TA11 TA12 TA13 TA14 TA15 TB0 TB1 TB2 TB3 TB4 TB5 TB6 TB7 TB8 TB9 TB10 TB11 TB12 TB13 TB14 TB15 H10 H11 Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 HW]
  case region =>
    intro k acc
    unfold inv
    iintro ⟨H1, H2, TA0, TA1, TA2, TA3, TA4, TA5, TA6, TA7, TA8, TA9, TA10, TA11, TA12, TA13, TA14, TA15, TB0, TB1, TB2, TB3, TB4, TB5, TB6, TB7, TB8, TB9, TB10, TB11, TB12, TB13, TB14, TB15, ⟨%g10', H10, %hg10⟩, ⟨%g11', H11, %hg11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, ⟨%W', HW⟩⟩
    sl_exec (disch := (refine chk_core _ (word_lt _ _ _ ?_ _ _); first | exact hx1 | exact hx2))
    sl_step

    isplitl [H1]; · iexact H1
    isplitl [H2]; · iexact H2
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    isplitl [TA15]; · iexact TA15
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    isplitl [TB15]; · iexact TB15
    isplitl [H10]
    · iexists _; isplitl [H10]; · iexact H10
      ipureintro
      have hk : k.val < 64 := lt_of_lt_of_eq k.isLt Offs.trips_eq
      rw [show 16 * (k.val + 1) = 16 * k.val + 15 + 1 from by omega]
      sl_unfold_run_names
      refine rows_layer c M10 M3 _ f3 x1 hx1 (16 * k.val + 15) (by omega) _ _ _ _ _ _ _ _ _ (Offs.rowA15 k) rfl (word_eq arg1 harg1 x1 _ _ _ _ _ (Offs.word15 k)) ?_
      show RowsOK c M10 M3 _ f3 x1 hx1 (16 * k.val + 14 + 1)
      refine rows_layer c M10 M3 _ f3 x1 hx1 (16 * k.val + 14) (by omega) _ _ _ _ _ _ _ _ _ (Offs.rowA14 k) rfl (word_eq arg1 harg1 x1 _ _ _ _ _ (Offs.word14 k)) ?_
      show RowsOK c M10 M3 _ f3 x1 hx1 (16 * k.val + 13 + 1)
      refine rows_layer c M10 M3 _ f3 x1 hx1 (16 * k.val + 13) (by omega) _ _ _ _ _ _ _ _ _ (Offs.rowA13 k) rfl (word_eq arg1 harg1 x1 _ _ _ _ _ (Offs.word13 k)) ?_
      show RowsOK c M10 M3 _ f3 x1 hx1 (16 * k.val + 12 + 1)
      refine rows_layer c M10 M3 _ f3 x1 hx1 (16 * k.val + 12) (by omega) _ _ _ _ _ _ _ _ _ (Offs.rowA12 k) rfl (word_eq arg1 harg1 x1 _ _ _ _ _ (Offs.word12 k)) ?_
      show RowsOK c M10 M3 _ f3 x1 hx1 (16 * k.val + 11 + 1)
      refine rows_layer c M10 M3 _ f3 x1 hx1 (16 * k.val + 11) (by omega) _ _ _ _ _ _ _ _ _ (Offs.rowA11 k) rfl (word_eq arg1 harg1 x1 _ _ _ _ _ (Offs.word11 k)) ?_
      show RowsOK c M10 M3 _ f3 x1 hx1 (16 * k.val + 10 + 1)
      refine rows_layer c M10 M3 _ f3 x1 hx1 (16 * k.val + 10) (by omega) _ _ _ _ _ _ _ _ _ (Offs.rowA10 k) rfl (word_eq arg1 harg1 x1 _ _ _ _ _ (Offs.word10 k)) ?_
      show RowsOK c M10 M3 _ f3 x1 hx1 (16 * k.val + 9 + 1)
      refine rows_layer c M10 M3 _ f3 x1 hx1 (16 * k.val + 9) (by omega) _ _ _ _ _ _ _ _ _ (Offs.rowA9 k) rfl (word_eq arg1 harg1 x1 _ _ _ _ _ (Offs.word9 k)) ?_
      show RowsOK c M10 M3 _ f3 x1 hx1 (16 * k.val + 8 + 1)
      refine rows_layer c M10 M3 _ f3 x1 hx1 (16 * k.val + 8) (by omega) _ _ _ _ _ _ _ _ _ (Offs.rowA8 k) rfl (word_eq arg1 harg1 x1 _ _ _ _ _ (Offs.word8 k)) ?_
      show RowsOK c M10 M3 _ f3 x1 hx1 (16 * k.val + 7 + 1)
      refine rows_layer c M10 M3 _ f3 x1 hx1 (16 * k.val + 7) (by omega) _ _ _ _ _ _ _ _ _ (Offs.rowA7 k) rfl (word_eq arg1 harg1 x1 _ _ _ _ _ (Offs.word7 k)) ?_
      show RowsOK c M10 M3 _ f3 x1 hx1 (16 * k.val + 6 + 1)
      refine rows_layer c M10 M3 _ f3 x1 hx1 (16 * k.val + 6) (by omega) _ _ _ _ _ _ _ _ _ (Offs.rowA6 k) rfl (word_eq arg1 harg1 x1 _ _ _ _ _ (Offs.word6 k)) ?_
      show RowsOK c M10 M3 _ f3 x1 hx1 (16 * k.val + 5 + 1)
      refine rows_layer c M10 M3 _ f3 x1 hx1 (16 * k.val + 5) (by omega) _ _ _ _ _ _ _ _ _ (Offs.rowA5 k) rfl (word_eq arg1 harg1 x1 _ _ _ _ _ (Offs.word5 k)) ?_
      show RowsOK c M10 M3 _ f3 x1 hx1 (16 * k.val + 4 + 1)
      refine rows_layer c M10 M3 _ f3 x1 hx1 (16 * k.val + 4) (by omega) _ _ _ _ _ _ _ _ _ (Offs.rowA4 k) rfl (word_eq arg1 harg1 x1 _ _ _ _ _ (Offs.word4 k)) ?_
      show RowsOK c M10 M3 _ f3 x1 hx1 (16 * k.val + 3 + 1)
      refine rows_layer c M10 M3 _ f3 x1 hx1 (16 * k.val + 3) (by omega) _ _ _ _ _ _ _ _ _ (Offs.rowA3 k) rfl (word_eq arg1 harg1 x1 _ _ _ _ _ (Offs.word3 k)) ?_
      show RowsOK c M10 M3 _ f3 x1 hx1 (16 * k.val + 2 + 1)
      refine rows_layer c M10 M3 _ f3 x1 hx1 (16 * k.val + 2) (by omega) _ _ _ _ _ _ _ _ _ (Offs.rowA2 k) rfl (word_eq arg1 harg1 x1 _ _ _ _ _ (Offs.word2 k)) ?_
      show RowsOK c M10 M3 _ f3 x1 hx1 (16 * k.val + 1 + 1)
      refine rows_layer c M10 M3 _ f3 x1 hx1 (16 * k.val + 1) (by omega) _ _ _ _ _ _ _ _ _ (Offs.rowA1 k) rfl (word_eq arg1 harg1 x1 _ _ _ _ _ (Offs.word1 k)) ?_
      show RowsOK c M10 M3 _ f3 x1 hx1 (16 * k.val + 0 + 1)
      refine rows_layer c M10 M3 _ f3 x1 hx1 (16 * k.val + 0) (by omega) _ _ _ _ _ _ _ _ _ (Offs.rowA0 k) rfl (word_eq arg1 harg1 x1 _ _ _ _ _ (Offs.word0 k)) ?_
      exact hg10
    isplitl [H11]
    · iexists _; isplitl [H11]; · iexact H11
      ipureintro
      have hk : k.val < 64 := lt_of_lt_of_eq k.isLt Offs.trips_eq
      rw [show 16 * (k.val + 1) = 16 * k.val + 15 + 1 from by omega]
      sl_unfold_run_names
      refine rows_layer c M11 M4 _ f4 x2 hx2 (16 * k.val + 15) (by omega) _ _ _ _ _ _ _ _ _ (Offs.rowB15 k) rfl (word_eq arg2 harg2 x2 _ _ _ _ _ (Offs.word15 k)) ?_
      show RowsOK c M11 M4 _ f4 x2 hx2 (16 * k.val + 14 + 1)
      refine rows_layer c M11 M4 _ f4 x2 hx2 (16 * k.val + 14) (by omega) _ _ _ _ _ _ _ _ _ (Offs.rowB14 k) rfl (word_eq arg2 harg2 x2 _ _ _ _ _ (Offs.word14 k)) ?_
      show RowsOK c M11 M4 _ f4 x2 hx2 (16 * k.val + 13 + 1)
      refine rows_layer c M11 M4 _ f4 x2 hx2 (16 * k.val + 13) (by omega) _ _ _ _ _ _ _ _ _ (Offs.rowB13 k) rfl (word_eq arg2 harg2 x2 _ _ _ _ _ (Offs.word13 k)) ?_
      show RowsOK c M11 M4 _ f4 x2 hx2 (16 * k.val + 12 + 1)
      refine rows_layer c M11 M4 _ f4 x2 hx2 (16 * k.val + 12) (by omega) _ _ _ _ _ _ _ _ _ (Offs.rowB12 k) rfl (word_eq arg2 harg2 x2 _ _ _ _ _ (Offs.word12 k)) ?_
      show RowsOK c M11 M4 _ f4 x2 hx2 (16 * k.val + 11 + 1)
      refine rows_layer c M11 M4 _ f4 x2 hx2 (16 * k.val + 11) (by omega) _ _ _ _ _ _ _ _ _ (Offs.rowB11 k) rfl (word_eq arg2 harg2 x2 _ _ _ _ _ (Offs.word11 k)) ?_
      show RowsOK c M11 M4 _ f4 x2 hx2 (16 * k.val + 10 + 1)
      refine rows_layer c M11 M4 _ f4 x2 hx2 (16 * k.val + 10) (by omega) _ _ _ _ _ _ _ _ _ (Offs.rowB10 k) rfl (word_eq arg2 harg2 x2 _ _ _ _ _ (Offs.word10 k)) ?_
      show RowsOK c M11 M4 _ f4 x2 hx2 (16 * k.val + 9 + 1)
      refine rows_layer c M11 M4 _ f4 x2 hx2 (16 * k.val + 9) (by omega) _ _ _ _ _ _ _ _ _ (Offs.rowB9 k) rfl (word_eq arg2 harg2 x2 _ _ _ _ _ (Offs.word9 k)) ?_
      show RowsOK c M11 M4 _ f4 x2 hx2 (16 * k.val + 8 + 1)
      refine rows_layer c M11 M4 _ f4 x2 hx2 (16 * k.val + 8) (by omega) _ _ _ _ _ _ _ _ _ (Offs.rowB8 k) rfl (word_eq arg2 harg2 x2 _ _ _ _ _ (Offs.word8 k)) ?_
      show RowsOK c M11 M4 _ f4 x2 hx2 (16 * k.val + 7 + 1)
      refine rows_layer c M11 M4 _ f4 x2 hx2 (16 * k.val + 7) (by omega) _ _ _ _ _ _ _ _ _ (Offs.rowB7 k) rfl (word_eq arg2 harg2 x2 _ _ _ _ _ (Offs.word7 k)) ?_
      show RowsOK c M11 M4 _ f4 x2 hx2 (16 * k.val + 6 + 1)
      refine rows_layer c M11 M4 _ f4 x2 hx2 (16 * k.val + 6) (by omega) _ _ _ _ _ _ _ _ _ (Offs.rowB6 k) rfl (word_eq arg2 harg2 x2 _ _ _ _ _ (Offs.word6 k)) ?_
      show RowsOK c M11 M4 _ f4 x2 hx2 (16 * k.val + 5 + 1)
      refine rows_layer c M11 M4 _ f4 x2 hx2 (16 * k.val + 5) (by omega) _ _ _ _ _ _ _ _ _ (Offs.rowB5 k) rfl (word_eq arg2 harg2 x2 _ _ _ _ _ (Offs.word5 k)) ?_
      show RowsOK c M11 M4 _ f4 x2 hx2 (16 * k.val + 4 + 1)
      refine rows_layer c M11 M4 _ f4 x2 hx2 (16 * k.val + 4) (by omega) _ _ _ _ _ _ _ _ _ (Offs.rowB4 k) rfl (word_eq arg2 harg2 x2 _ _ _ _ _ (Offs.word4 k)) ?_
      show RowsOK c M11 M4 _ f4 x2 hx2 (16 * k.val + 3 + 1)
      refine rows_layer c M11 M4 _ f4 x2 hx2 (16 * k.val + 3) (by omega) _ _ _ _ _ _ _ _ _ (Offs.rowB3 k) rfl (word_eq arg2 harg2 x2 _ _ _ _ _ (Offs.word3 k)) ?_
      show RowsOK c M11 M4 _ f4 x2 hx2 (16 * k.val + 2 + 1)
      refine rows_layer c M11 M4 _ f4 x2 hx2 (16 * k.val + 2) (by omega) _ _ _ _ _ _ _ _ _ (Offs.rowB2 k) rfl (word_eq arg2 harg2 x2 _ _ _ _ _ (Offs.word2 k)) ?_
      show RowsOK c M11 M4 _ f4 x2 hx2 (16 * k.val + 1 + 1)
      refine rows_layer c M11 M4 _ f4 x2 hx2 (16 * k.val + 1) (by omega) _ _ _ _ _ _ _ _ _ (Offs.rowB1 k) rfl (word_eq arg2 harg2 x2 _ _ _ _ _ (Offs.word1 k)) ?_
      show RowsOK c M11 M4 _ f4 x2 hx2 (16 * k.val + 0 + 1)
      refine rows_layer c M11 M4 _ f4 x2 hx2 (16 * k.val + 0) (by omega) _ _ _ _ _ _ _ _ _ (Offs.rowB0 k) rfl (word_eq arg2 harg2 x2 _ _ _ _ _ (Offs.word0 k)) ?_
      exact hg11
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexists _; iexact HW
  · unfold inv
    isplitl [H1]; · iexact H1
    isplitl [H2]; · iexact H2
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    isplitl [TA15]; · iexact TA15
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    isplitl [TB15]; · iexact TB15
    isplitl [H10]
    · iexists _; isplitl [H10]; · iexact H10
      ipureintro; intro r col h; omega
    isplitl [H11]
    · iexists _; isplitl [H11]; · iexact H11
      ipureintro; intro r col h; omega
    isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    isplitl [Q7]; · iexact Q7
    isplitl [Q8]; · iexact Q8
    isplitl [Q9]; · iexact Q9
    isplitl [Q10]; · iexact Q10
    isplitl [Q11]; · iexact Q11
    isplitl [Q12]; · iexact Q12
    isplitl [Q13]; · iexact Q13
    isplitl [Q14]; · iexact Q14
    isplitl [Q15]; · iexact Q15
    isplitl [Q16]; · iexact Q16
    isplitl [Q17]; · iexact Q17
    isplitl [Q18]; · iexact Q18
    isplitl [Q19]; · iexact Q19
    isplitl [Q20]; · iexact Q20
    isplitl [Q21]; · iexact Q21
    isplitl [Q22]; · iexact Q22
    isplitl [Q23]; · iexact Q23
    isplitl [Q24]; · iexact Q24
    isplitl [Q25]; · iexact Q25
    isplitl [Q26]; · iexact Q26
    isplitl [Q27]; · iexact Q27
    isplitl [Q28]; · iexact Q28
    isplitl [Q29]; · iexact Q29
    isplitl [Q30]; · iexact Q30
    isplitl [Q31]; · iexact Q31
    iexists _; iexact HW
  iintro %acc HI
  unfold inv
  icases HI with ⟨H1, H2, TA0, TA1, TA2, TA3, TA4, TA5, TA6, TA7, TA8, TA9, TA10, TA11, TA12, TA13, TA14, TA15, TB0, TB1, TB2, TB3, TB4, TB5, TB6, TB7, TB8, TB9, TB10, TB11, TB12, TB13, TB14, TB15, ⟨%g10', H10, %hg10⟩, ⟨%g11', H11, %hg11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, ⟨%W', HW⟩⟩
  sl_exec
  sl_step

  iapply Hk
  isplitl [H1]
  · iexists _; isplitr; · ipureintro; exact harg1.read_unread _
    iexact H1
  isplitl [H2]
  · iexists _; isplitr; · ipureintro; exact harg2.read_unread _
    iexact H2
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    have hz2 : (![0, 0] : Fin 2 → ℕ) = fun _ => 0 := by funext a; fin_cases a <;> rfl
    have hz1 : (![0] : Fin 1 → ℕ) = fun _ => 0 := by funext a; fin_cases a; rfl
    have hT : 16 * Scf.trips k0_t1_loop.lb k0_t1_loop.ub k0_t1_loop.st = 1024 := by decide +kernel
    rw [hT] at hg10 hg11
    have e10 := read_eq_gathered c M10 M3 g10' f3 x1 hx1 hg10
    have e11 := read_eq_gathered c M11 M4 g11' f4 x2 hx2 hg11
    rw [read_writes_unit_zero _ _ hz1]
    unfold outBlock
    simp only [View.readAt_eq_ld, View.ld_unit_zero (S := S1024x64) hz2, View.ld_unit_zero (S := S129x64) hz2, View.ld_unit_zero (S := S64) hz1, View.ld_unit_zero (S := S64x1) hz2, View.ld_unit_zero (S := S1) hz1, e10, e11, harg5.read_unread, harg6.read_unread, harg7.read_unread, harg8.read_unread]
  isplitl [H10]; · iexists _; iexact H10
  isplitl [H11]; · iexists _; iexact H11
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [R3 TA0 TA1 TA2 TA3 TA4 TA5 TA6 TA7 TA8 TA9 TA10 TA11 TA12 TA13 TA14 TA15]
  · iapply (splitA c f3).2
    isplitl [R3]; · iexact R3
    isplitl [TA0]; · iexact TA0
    isplitl [TA1]; · iexact TA1
    isplitl [TA2]; · iexact TA2
    isplitl [TA3]; · iexact TA3
    isplitl [TA4]; · iexact TA4
    isplitl [TA5]; · iexact TA5
    isplitl [TA6]; · iexact TA6
    isplitl [TA7]; · iexact TA7
    isplitl [TA8]; · iexact TA8
    isplitl [TA9]; · iexact TA9
    isplitl [TA10]; · iexact TA10
    isplitl [TA11]; · iexact TA11
    isplitl [TA12]; · iexact TA12
    isplitl [TA13]; · iexact TA13
    isplitl [TA14]; · iexact TA14
    iexact TA15
  isplitl [R4 TB0 TB1 TB2 TB3 TB4 TB5 TB6 TB7 TB8 TB9 TB10 TB11 TB12 TB13 TB14 TB15]
  · iapply (splitB c f4).2
    isplitl [R4]; · iexact R4
    isplitl [TB0]; · iexact TB0
    isplitl [TB1]; · iexact TB1
    isplitl [TB2]; · iexact TB2
    isplitl [TB3]; · iexact TB3
    isplitl [TB4]; · iexact TB4
    isplitl [TB5]; · iexact TB5
    isplitl [TB6]; · iexact TB6
    isplitl [TB7]; · iexact TB7
    isplitl [TB8]; · iexact TB8
    isplitl [TB9]; · iexact TB9
    isplitl [TB10]; · iexact TB10
    isplitl [TB11]; · iexact TB11
    isplitl [TB12]; · iexact TB12
    isplitl [TB13]; · iexact TB13
    isplitl [TB14]; · iexact TB14
    iexact TB15
  iexists _; iexact HW

end Cert.KernelIdeal.Body

end
-- ==== Proof.KernelIdealHyps.lean ====
import proofs.«401610_j38122129719601_1_alg».proof.Proof.KernelIdealLoop

/-! # The hypothesis the frame runs under

Every index word of every block of the two padded index arrays, as the region finds them, names a table row. -/

noncomputable section

namespace Cert.KernelIdeal.Body

open Cert.KernelIdeal Cert.KernelIdeal.Gen
open Idealize.ShloMosaic Idealize.ShloMosaic.TcCoe

variable {F : FTy → Type} [FloatOps F]

/-- Every index word of every block of the two padded index arrays names a table row. -/
def Hyps (m : (ℓ : Loc nD τ sig) → Buf (Elt F) ℓ) : Prop :=
  ∀ (c : Dev nD) (t : Fin cfg0.N), WordsOK (F := F) (iblk m c 0 t) ∧ WordsOK (F := F) (iblk m c 1 t)

end Cert.KernelIdeal.Body

end
-- ==== Proof.KernelIdealFrame.lean ====
import proofs.«401610_j38122129719601_1_alg».proof.Proof.KernelIdealRun
import proofs.«401610_j38122129719601_1_alg».proof.Proof.KernelIdealHyps

/-! # The frame run of the gather program

The proof data of the one pipeline: every array as the region finds it; after the body each input window's buffer still
at its block, the output's at the ratings block of the point; the region invariant of the kernel's own transfers. The
body meets its obligation at every grid point by its run, and the launch theorem for a kernel with transfers of its own,
continued by the host lines after the region, gives the run of @main: every argument array ends as launched. All of it
under the hypothesis that every index word of every block names a table row. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

variable (hH : Hyps m)

/-- The ratings block point `t` stores. -/
def outAt (c : Dev nD) (t : Fin cfg0.N) : Vec F S1024 .f32 :=
  outBlock c (iblk m c 0 t) (iblk m c 1 t) (hH c t).1 (hH c t).2 (V m c main_arg0) (V m c main_arg1)
    (iblk m c 2 t) (iblk m c 3 t) (iblk m c 4 t) (iblk m c 5 t)

/-- The proof data of the pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m hH c t
  Φ _ := Pipeline.ΦD osem0 spec0 H0 (V m) c
  q _ := fullShare
  owed _ := 0

theorem A_eq (c : Dev nD) (w : Fin cfg0.W) : (dats m hH 0 c).A w = V m c (Pipeline.arrRef spec0 w) := by
  dsimp only [dats]

theorem after0 (c : Dev nD) (t : Fin cfg0.N) : (dats m hH 0 c).after 0 t = iblk m c 0 t := by dsimp only [dats]
theorem after1 (c : Dev nD) (t : Fin cfg0.N) : (dats m hH 0 c).after 1 t = iblk m c 1 t := by dsimp only [dats]
theorem after2 (c : Dev nD) (t : Fin cfg0.N) : (dats m hH 0 c).after 2 t = iblk m c 2 t := by dsimp only [dats]
theorem after3 (c : Dev nD) (t : Fin cfg0.N) : (dats m hH 0 c).after 3 t = iblk m c 3 t := by dsimp only [dats]
theorem after4 (c : Dev nD) (t : Fin cfg0.N) : (dats m hH 0 c).after 4 t = iblk m c 4 t := by dsimp only [dats]
theorem after5 (c : Dev nD) (t : Fin cfg0.N) : (dats m hH 0 c).after 5 t = iblk m c 5 t := by dsimp only [dats]
theorem after6 (c : Dev nD) (t : Fin cfg0.N) : (dats m hH 0 c).after 6 t = outAt m hH c t := by dsimp only [dats]

/-- An input window's current staging buffer holds its block at every point, fetched there or not. -/
theorem before0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0 (c : Dev nD) (t : Fin cfg0.N) (d) : (dats m hH 0 c).before 0 t d = iblk m c 0 t :=
  before0_of m (dats m hH 0 c) (A_eq m hH c 0) (after0 m hH c) t d
theorem before1 (c : Dev nD) (t : Fin cfg0.N) (d) : (dats m hH 0 c).before 1 t d = iblk m c 1 t :=
  before1_of m (dats m hH 0 c) (A_eq m hH c 1) (after1 m hH c) t d
theorem before2 (c : Dev nD) (t : Fin cfg0.N) (d) : (dats m hH 0 c).before 2 t d = iblk m c 2 t :=
  before2_of m (dats m hH 0 c) (A_eq m hH c 2) (after2 m hH c) t d
theorem before3 (c : Dev nD) (t : Fin cfg0.N) (d) : (dats m hH 0 c).before 3 t d = iblk m c 3 t :=
  before3_of m (dats m hH 0 c) (A_eq m hH c 3) (after3 m hH c) t d
theorem before4 (c : Dev nD) (t : Fin cfg0.N) (d) : (dats m hH 0 c).before 4 t d = iblk m c 4 t :=
  before4_of m (dats m hH 0 c) (A_eq m hH c 4) (after4 m hH c) t d
theorem before5 (c : Dev nD) (t : Fin cfg0.N) (d) : (dats m hH 0 c).before 5 t d = iblk m c 5 t :=
  before5_of m (dats m hH 0 c) (A_eq m hH c 5) (after5 m hH c) t d

/-! ## The body obligation, at a generic point -/

def bodyPre (c : Dev nD) (t : Fin cfg0.N) : sProp 𝕄 :=
  iprop((dats m hH 0 c).Φ t.castSucc ∗ (dats m hH 0 c).owesAt () t.castSucc
    ∗ (∃ d, owns (c : Thread nD τ) (ms0 t) fullShare ((dats m hH 0 c).before 0 t d))
    ∗ (∃ d, owns (c : Thread nD τ) (ms1 t) fullShare ((dats m hH 0 c).before 1 t d))
    ∗ (∃ d, owns (c : Thread nD τ) (ms2 t) fullShare ((dats m hH 0 c).before 2 t d))
    ∗ (∃ d, owns (c : Thread nD τ) (ms3 t) fullShare ((dats m hH 0 c).before 3 t d))
    ∗ (∃ d, owns (c : Thread nD τ) (ms4 t) fullShare ((dats m hH 0 c).before 4 t d))
    ∗ (∃ d, owns (c : Thread nD τ) (ms5 t) fullShare ((dats m hH 0 c).before 5 t d))
    ∗ (∃ d, owns (c : Thread nD τ) (ms6 t) fullShare ((dats m hH 0 c).before 6 t d)))

def bodyPost (c : Dev nD) (t : Fin cfg0.N) : sProp 𝕄 :=
  iprop((dats m hH 0 c).Φ t.succ ∗ (dats m hH 0 c).owesAt () t.succ
    ∗ owns (c : Thread nD τ) (ms0 t) fullShare ((dats m hH 0 c).after 0 t)
    ∗ owns (c : Thread nD τ) (ms1 t) fullShare ((dats m hH 0 c).after 1 t)
    ∗ owns (c : Thread nD τ) (ms2 t) fullShare ((dats m hH 0 c).after 2 t)
    ∗ owns (c : Thread nD τ) (ms3 t) fullShare ((dats m hH 0 c).after 3 t)
    ∗ owns (c : Thread nD τ) (ms4 t) fullShare ((dats m hH 0 c).after 4 t)
    ∗ owns (c : Thread nD τ) (ms5 t) fullShare ((dats m hH 0 c).after 5 t)
    ∗ owns (c : Thread nD τ) (ms6 t) fullShare ((dats m hH 0 c).after 6 t))

theorem sound_body (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0, before1, before2, before3, before4, before5]
  rw [show (dats m hH 0 c).Φ t.succ = (dats m hH 0 c).Φ t.castSucc from rfl,
    after0, after1, after2, after3, after4, after5, after6]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  unfold outAt
  iintro ⟨⟨⟨⟨%g10, H10⟩, ⟨%g11, H11⟩⟩, Hg, ⟨Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31⟩, ⟨H3, H4⟩⟩, ⟨%W, -, HW⟩, ⟨%d0, H0⟩, ⟨%d1, H1⟩, ⟨%d2, H2⟩, ⟨%d3, H5⟩, ⟨%d4, H6⟩, ⟨%d5, H7⟩, ⟨%d6, H9⟩⟩
  iapply (kernelRun c (grid0.coords t) (ms0 t) (hs0 t) (ms1 t) (hs1 t) (ms2 t) (hs2 t) (ms3 t) (hs3 t) (ms4 t) (hs4 t) (ms5 t) (hs5 t) (ms6 t) (hs6 t)
    (iblk m c 0 t) (iblk m c 1 t) (hH c t).1 (hH c t).2 (iblk m c 2 t) (iblk m c 3 t) (iblk m c 4 t) (iblk m c 5 t) (V m c main_arg0) (V m c main_arg1) W _)
  isplitl [H0]; · iexact H0
  isplitl [H1]; · iexact H1
  isplitl [H2]; · iexact H2
  isplitl [H5]; · iexact H5
  isplitl [H6]; · iexact H6
  isplitl [H7]; · iexact H7
  isplitl [H9]; · iexists _; iexact H9
  isplitl [H10]; · iexists _; iexact H10
  isplitl [H11]; · iexists _; iexact H11
  isplitl [Q0]; · iexact Q0
  isplitl [Q1]; · iexact Q1
  isplitl [Q2]; · iexact Q2
  isplitl [Q3]; · iexact Q3
  isplitl [Q4]; · iexact Q4
  isplitl [Q5]; · iexact Q5
  isplitl [Q6]; · iexact Q6
  isplitl [Q7]; · iexact Q7
  isplitl [Q8]; · iexact Q8
  isplitl [Q9]; · iexact Q9
  isplitl [Q10]; · iexact Q10
  isplitl [Q11]; · iexact Q11
  isplitl [Q12]; · iexact Q12
  isplitl [Q13]; · iexact Q13
  isplitl [Q14]; · iexact Q14
  isplitl [Q15]; · iexact Q15
  isplitl [Q16]; · iexact Q16
  isplitl [Q17]; · iexact Q17
  isplitl [Q18]; · iexact Q18
  isplitl [Q19]; · iexact Q19
  isplitl [Q20]; · iexact Q20
  isplitl [Q21]; · iexact Q21
  isplitl [Q22]; · iexact Q22
  isplitl [Q23]; · iexact Q23
  isplitl [Q24]; · iexact Q24
  isplitl [Q25]; · iexact Q25
  isplitl [Q26]; · iexact Q26
  isplitl [Q27]; · iexact Q27
  isplitl [Q28]; · iexact Q28
  isplitl [Q29]; · iexact Q29
  isplitl [Q30]; · iexact Q30
  isplitl [Q31]; · iexact Q31
  isplitl [H3]; · iexact H3
  isplitl [H4]; · iexact H4
  isplitl [HW]; · iexact HW
  iintro ⟨H0, H1, H2, H5, H6, H7, H9, ⟨%g10', H10⟩, ⟨%g11', H11⟩, Q0, Q1, Q2, Q3, Q4, Q5, Q6, Q7, Q8, Q9, Q10, Q11, Q12, Q13, Q14, Q15, Q16, Q17, Q18, Q19, Q20, Q21, Q22, Q23, Q24, Q25, Q26, Q27, Q28, Q29, Q30, Q31, H3, H4, ⟨%W', HW'⟩⟩
  isplitl [H10 H11 Hg Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31 H3 H4]
  · isplitl [H10 H11]
    · isplitl [H10]; · iexists _; iexact H10
      iexists _; iexact H11
    isplitl [Hg]; · iexact Hg
    isplitl [Q0 Q1 Q2 Q3 Q4 Q5 Q6 Q7 Q8 Q9 Q10 Q11 Q12 Q13 Q14 Q15 Q16 Q17 Q18 Q19 Q20 Q21 Q22 Q23 Q24 Q25 Q26 Q27 Q28 Q29 Q30 Q31]
    · isplitl [Q0]; · iexact Q0
      isplitl [Q1]; · iexact Q1
      isplitl [Q2]; · iexact Q2
      isplitl [Q3]; · iexact Q3
      isplitl [Q4]; · iexact Q4
      isplitl [Q5]; · iexact Q5
      isplitl [Q6]; · iexact Q6
      isplitl [Q7]; · iexact Q7
      isplitl [Q8]; · iexact Q8
      isplitl [Q9]; · iexact Q9
      isplitl [Q10]; · iexact Q10
      isplitl [Q11]; · iexact Q11
      isplitl [Q12]; · iexact Q12
      isplitl [Q13]; · iexact Q13
      isplitl [Q14]; · iexact Q14
      isplitl [Q15]; · iexact Q15
      isplitl [Q16]; · iexact Q16
      isplitl [Q17]; · iexact Q17
      isplitl [Q18]; · iexact Q18
      isplitl [Q19]; · iexact Q19
      isplitl [Q20]; · iexact Q20
      isplitl [Q21]; · iexact Q21
      isplitl [Q22]; · iexact Q22
      isplitl [Q23]; · iexact Q23
      isplitl [Q24]; · iexact Q24
      isplitl [Q25]; · iexact Q25
      isplitl [Q26]; · iexact Q26
      isplitl [Q27]; · iexact Q27
      isplitl [Q28]; · iexact Q28
      isplitl [Q29]; · iexact Q29
      isplitl [Q30]; · iexact Q30
      iexact Q31
    isplitl [H3]; · iexact H3
    iexact H4
  isplitl [HW']
  · iexists W'; isplitr; · ipureintro; exact fun _ _ => Or.inl trivial
    iexact HW'
  isplitl [H0]; · iexact H0
  isplitl [H1]; · iexact H1
  isplitl [H2]; · iexact H2
  isplitl [H5]; · iexact H5
  isplitl [H6]; · iexact H6
  isplitl [H7]; · iexact H7
  iexact H9

/-- The library's body obligation, at every point. -/
theorem body_obligation (c : Dev nD) : BodyObligation (dats (F := F) m hH 0 c) (defs₀ (F := F)) Variants.none () Set.univ := fun t => by
  rw [bigSep_W0, bigSep_W0]
  exact sound_body m hH c t

/-! ## The run -/

/-- The host lines after the region touch neither table. -/
theorem sfx_subD : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun k => k.elim0) ?_
  simp only [hostOps1, List.mem_cons, List.mem_nil_iff, or_false] at hop
  intro b hb
  simp only [H0, Finset.mem_insert, Finset.mem_singleton] at hb
  rcases hop with rfl | rfl <;> rcases hb with rfl | rfl <;>
    simp only [StableHlo.unary_bufs, StableHlo.reshape_bufs, Finset.mem_insert, Finset.mem_singleton, not_or] <;>
    exact ⟨StableHlo.devRef_ne_of_ne (by decide), StableHlo.devRef_ne_of_ne (by decide)⟩

set_option backward.isDefEq.respectTransparency.types false in
/-- Every weakly fair execution of @main terminates; every array of the pipeline ends at what the proof data computes,
    every other unscoped buffer as the host lines after the region leave it. -/
theorem run_main : θ_run defs (onTc (τ := τ) (main (F := F))) (s₀ m ρ)
    (Pipeline.FramePost cfgs (dats m hH) 0 (Pipeline.afterTail₀ cfgs (dats m hH) 0 (V0 m) [hostOps1])) :=
  Pipeline.θ_run_frame_dma_around cfgs (dats m hH) (0 : Fin 1) launch0 osem0 defs₀ Variants.none ownSemFacts0 H0 H0_sub m ρ main
    (hbody := fun c => (body_obligation m hH c).loose) (hshare := fun c => (dats m hH 0 c).share_full fun _ => rfl)
    (howed := fun _ _ => rfl) (V₀ := V0 m) (opss := [hostOps1]) (hsub := sfx_subD) (hfresh := sfx_fresh) (hkeep := sfx_keeps)
    (hmain := hmainD m Variants.none) (hA := A_eq m hH) (hin := fun _ => .rfl) (hout := fun _ => .rfl)

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- The frame claim's post from the frame run's: a staged input by the proof data's array, an array no window stages by
    the post's second clause. -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(((h c).2 main_arg0 (Pipeline.mem_restRefs_of main_arg0 (by decide) (by decide))).trans (W_main_arg0 m dats c)),
      (((h c).2 main_arg1 (Pipeline.mem_restRefs_of main_arg1 (by decide) (by decide))).trans (W_main_arg1 m dats c)),
      (((h c).2 main_arg2 (Pipeline.mem_restRefs_of main_arg2 (by decide) (by decide))).trans (W_main_arg2 m dats c)),
      (((h c).2 main_arg3 (Pipeline.mem_restRefs_of main_arg3 (by decide) (by decide))).trans (W_main_arg3 m dats c)),
      ((h c).1 2).trans (((dats 0 c).arrAt_in 2 rfl _).trans ((hA c 2).trans (V_main_arg4 m c))),
      ((h c).1 3).trans (((dats 0 c).arrAt_in 3 rfl _).trans ((hA c 3).trans (V_main_arg5 m c))),
      ((h c).1 4).trans (((dats 0 c).arrAt_in 4 rfl _).trans ((hA c 4).trans (V_main_arg6 m c))),
      ((h c).1 5).trans (((dats 0 c).arrAt_in 5 rfl _).trans ((hA c 5).trans (V_main_arg7 m c)))⟩) h

include hH in
/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m hH) (A_eq m hH) (run_main m ρ hH)

end Cert.KernelIdeal.Body

end
-- ==== Proof.KernelIdealHypsPre.lean ====
import proofs.«401610_j38122129719601_1_alg».proof.Proof.KernelIdealHyps
import proofs.«401610_j38122129719601_1_alg».proof.Proof.Spec
import Idealize.ShloMosaic.Lib.StableHlo.Run

/-! # The index words of the padded arrays name table rows

Each of the two index arrays holds 1000000 words. Before the region runs, each is extended by 448 zero words at its end, to
1000448 words, and the region reads the extended arrays block by block, 1024 words a block. A word of an extended array is
either a word of the array it extends or the word zero; so when every word of the two index arrays lies below the table's
row count 100000, so does every word of the two extended arrays, and with them every word of every block: a block's word is
the extended array's word at some index. -/

noncomputable section

namespace Cert.KernelIdeal.Body

open Cert.KernelIdeal Cert.KernelIdeal.Gen
open Idealize.ShloMosaic Idealize.ShloMosaic.TcCoe

variable {F : FTy → Type} [FloatOps F]

/-- A property that holds of every entry of an array and of the padding value holds of every entry of the padded array:
    an entry of the padded array is one or the other. -/
theorem pad_all {s t u : Shape} {α : Type} (P : α → Prop) (lo hi interior : Fin s.rank → Nat) (x : s.Idx → α)
    (v : u.Idx → α) (h : s.Pads lo hi interior t) (hu : 0 < u.numel) (hx : ∀ k, P (x k))
    (hv : P (v (Shape.Idx.first hu))) (j : t.Idx) : P (pad t lo hi interior x v h hu j) := by
  unfold pad
  split
  · exact hx _
  · exact hv

/-- Every word of the first extended index array, as the region finds it, lies below the row count. -/
theorem words_v0 (m : (ℓ : Loc nD τ sig) → Buf (Elt F) ℓ) (c : Dev nD)
    (h2 : Cert.Proof.Spec.InRange (m ((c : Thread nD τ).loc main_arg2))) (j : S1000448.Idx) :
    ((V m c main_v0 : S1000448.Idx → BitVec 32) j).toNat < 100000 := by
  have e : (V m c main_v0 : S1000448.Idx → BitVec 32)
      = pad S1000448 ![0] ![448] ![0] (m ((c : Thread nD τ).loc main_arg2) : S1000000.Idx → BitVec 32)
          (constantI S_ 32 0#32) pads_S1000000_S1000448_04480 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact pad_all (fun w : BitVec 32 => w.toNat < 100000) _ _ _ _ _ _ _ h2 (by decide) j

/-- Every word of the second extended index array, as the region finds it, lies below the row count. -/
theorem words_v1 (m : (ℓ : Loc nD τ sig) → Buf (Elt F) ℓ) (c : Dev nD)
    (h3 : Cert.Proof.Spec.InRange (m ((c : Thread nD τ).loc main_arg3))) (j : S1000448.Idx) :
    ((V m c main_v1 : S1000448.Idx → BitVec 32) j).toNat < 100000 := by
  have e : (V m c main_v1 : S1000448.Idx → BitVec 32)
      = pad S1000448 ![0] ![448] ![0] (m ((c : Thread nD τ).loc main_arg3) : S1000000.Idx → BitVec 32)
          (constantI S_ 32 0#32) pads_S1000000_S1000448_04480 h_S_ := by
    dsimp only [Gen.V, Gen.V0]
    simp only [Gen.hostOps0, Gen.hostOps0_1, Gen.hostOps0_2, Gen.hostOps0_3, List.flatten_cons, List.flatten_nil,
      List.append_nil, List.cons_append, List.nil_append]
    after_results
    rfl
  rw [e]
  exact pad_all (fun w : BitVec 32 => w.toNat < 100000) _ _ _ _ _ _ _ h3 (by decide) j

/-- When every word of the two index arrays names a table row, so does every word of every block of the two extended
    arrays: a block's word is the extended array's word at the index the block's window sends it to. -/
theorem hyps_of_inRange (m : (ℓ : Loc nD τ sig) → Buf (Elt F) ℓ)
    (h2 : ∀ c : Dev nD, Cert.Proof.Spec.InRange (m ((c : Thread nD τ).loc main_arg2)))
    (h3 : ∀ c : Dev nD, Cert.Proof.Spec.InRange (m ((c : Thread nD τ).loc main_arg3))) : Hyps m := by
  intro c t
  refine ⟨fun y => ?_, fun y => ?_⟩
  · exact words_v0 m c (h2 c) (((cfg0.win 0).blk t).view.emb y)
  · exact words_v1 m c (h3 c) (((cfg0.win 1).blk t).view.emb y)

end Cert.KernelIdeal.Body

end
-- ==== Proof.KernelPayload.lean ====
import proofs.«401610_j38122129719601_1_alg».proof.Proof.Gen.KernelIdeal.Skeleton
import proofs.«401610_j38122129719601_1_alg».proof.Proof.Spec
import Idealize.ShloMosaic.Lib.ValueIdx
import Idealize.ShloMosaic.Lib.Pipeline.Value
import Idealize.ShloMosaic.Lib.ValueLayout
import Idealize.ShloMosaic.PureOps.Ideal.Laws

/-! # The kernel body's arithmetic, read at a row, is the rating of that row's edge

The body works on 1024 edges at once: two `[1024, 64]` arrays hold the customer and product rows, and every step is
either pointwise or acts inside one row (a sum over the 64 lanes, a broadcast of a per-row column over the lanes, the
three blocks laid side by side, a product against a weight matrix). So entry `r` of the result depends on row `r` of
the two arrays only, and there each step is the corresponding step of the specification: the norm, the row over its
floored norm, the cosine, the 129 features, the hidden layer, the logistic of the output unit. The narrowing to 16 bits
before each product is the identity on the extended reals, and each product accumulates into zero. -/

noncomputable section

namespace Cert.KernelIdeal.PayValue

open Idealize.ShloMosaic Idealize.ShloMosaic.ValueIdx Cert.KernelIdeal Cert.KernelIdeal.Gen
open scoped BigOperators

/-! ## The non-pointwise operations, each read at explicit coordinates -/

/-- A lane sum at row `r` is the sum of that row's 64 entries. -/
theorem laneSum_apply (x : FVec Ideal S1024x64 .f32) (r : Fin 1024) :
    multiReduction (F := Ideal) .add [1] S1024 x 0x00000000#32 reduces_S1024x64_S1024 (.inl rfl) rfl (ix1 r)
      = ∑ k : Fin 64, x (ix2 r k) :=
  (Ideal.multiReduction_add_single x _ reduces_S1024x64_S1024 _ _ (ix1 r)).trans
    (Finset.sum_congr rfl fun k _ => congrArg x (funext fun a => Fin.ext (by
      match a with
      | ⟨0, _⟩ => rfl
      | ⟨1, _⟩ => rfl)))

variable {α : Type}

/-- A column `[1024]` viewed as `[1024, 1]` reads, at `(r, c)`, its entry `r`. -/
theorem colCast_apply (x : S1024.Idx → α) (r : Fin 1024) (c : Fin 1) :
    shapeCast S1024x1 x shapeCasts_S1024_S1024x1 (ix2 r c) = x (ix1 r) :=
  shapeCast_apply x _ _ _ (by
    have hc : c.val = 0 := by omega
    rw [Shape.rowMajor_val_one, Shape.rowMajor_val_two]
    show r.val = r.val * 1 + c.val
    omega)

/-- A `[1024, 1]` array viewed as `[1024]` reads, at `r`, its entry `(r, 0)`. -/
theorem rowCast_apply (x : S1024x1.Idx → α) (r : Fin 1024) :
    shapeCast S1024 x shapeCasts_S1024x1_S1024 (ix1 r) = x (ix2 r (0 : Fin 1)) :=
  shapeCast_apply x _ _ _ (by
    rw [Shape.rowMajor_val_one, Shape.rowMajor_val_two]
    show r.val * 1 + 0 = r.val
    omega)

/-- A `[1024, 1]` column broadcast over 64 lanes reads, at `(r, k)`, the column's entry `r`. -/
theorem colBroadcast_apply (x : S1024x1.Idx → α) (r : Fin 1024) (k : Fin 64) :
    broadcastTo S1024x64 x broadcasts_S1024x1_S1024x64 (ix2 r k) = x (ix2 r (0 : Fin 1)) := by
  refine broadcastTo_apply x _ (ix2 r k) (ix2 r (0 : Fin 1)) fun ax => ?_
  match ax with
  | ⟨0, _⟩ => rfl
  | ⟨1, _⟩ => rfl

/-- The bias row `[64]`, viewed `[1, 64]` and broadcast over the 1024 rows, reads at `(r, j)` its entry `j`. -/
theorem biasRow_apply (x : S64.Idx → α) (r : Fin 1024) (j : Fin 64) :
    broadcastTo S1024x64 (shapeCast S1x64 x shapeCasts_S64_S1x64) broadcasts_S1x64_S1024x64 (ix2 r j) = x (ix1 j) :=
  (broadcastTo_1b_ab_apply _ _ r j).trans (shapeCast_a_1a_apply x _ 0 j)

/-- The one-entry bias `[1]`, viewed `[1, 1]` and broadcast over the 1024 rows, reads at `(r, c)` its entry. -/
theorem biasOne_apply (x : S1.Idx → α) (r : Fin 1024) (c : Fin 1) :
    broadcastTo S1024x1 (shapeCast S1x1 x shapeCasts_S1_S1x1) broadcasts_S1x1_S1024x1 (ix2 r c) = x (ix1 (0 : Fin 1)) := by
  obtain rfl : c = 0 := Subsingleton.elim _ _
  exact (broadcastTo_1b_ab_apply _ _ r (0 : Fin 1)).trans (shapeCast_a_1a_apply x _ 0 0)

/-- Two 64-wide blocks and one column laid side by side, read at `(r, k)`: the first block below column 64, the
    second (64 columns further left) below column 128, the column at 128. -/
theorem concat_apply (x1 x2 : S1024x64.Idx → α) (c : S1024x1.Idx → α) (r : Fin 1024) (k : Fin 129) :
    concatenate S1024x129 1 [⟨S1024x64, x1⟩, ⟨S1024x64, x2⟩, ⟨S1024x1, c⟩]
        concatenates_S1024x64_S1024x64_S1024x1_S1024x129_d1 (ix2 r k)
      = if h0 : k.val < 64 then x1 (ix2 r ⟨k.val, h0⟩)
        else if h1 : k.val < 128 then x2 (ix2 r ⟨k.val - 64, by omega⟩)
        else c (ix2 r (0 : Fin 1)) := by
  split
  · next h0 =>
    exact concatenate_apply_piece _ _ _ (ix2 r k) 0 (by show (0 : Nat) < 3; omega) S1024x64 x1 rfl rfl 0 rfl (ix2 r ⟨k.val, h0⟩)
      (fun b hb => by
        match b with
        | ⟨0, _⟩ => rfl
        | ⟨1, _⟩ => exact absurd (Fin.ext rfl) hb)
      (by show 0 + k.val = k.val; omega)
  · next h0 =>
    split
    · next h1 =>
      exact concatenate_apply_piece _ _ _ (ix2 r k) 1 (by show (1 : Nat) < 3; omega) S1024x64 x2 rfl rfl 64 rfl (ix2 r ⟨k.val - 64, by omega⟩)
        (fun b hb => by
          match b with
          | ⟨0, _⟩ => rfl
          | ⟨1, _⟩ => exact absurd (Fin.ext rfl) hb)
        (by show 64 + (k.val - 64) = k.val; omega)
    · next h1 =>
      exact concatenate_apply_piece _ _ _ (ix2 r k) 2 (by show (2 : Nat) < 3; omega) S1024x1 c rfl rfl 128 rfl (ix2 r (0 : Fin 1))
        (fun b hb => by
          match b with
          | ⟨0, _⟩ => rfl
          | ⟨1, _⟩ => exact absurd (Fin.ext rfl) hb)
        (by show 128 + 0 = k.val; have := k.isLt; omega)

/-! ## The two matrix products, read at an entry

The operand indices of a product whose one contracting axis is the left operand's second and the right operand's
first: at the output entry `(r, j)` and contraction position `k` they are `(r, k)` and `(k, j)`. -/

theorem lhs_feat_0 (i : S1024x64.Idx) (q : dot_S1024x129_S129x64_S1024x64_1_0_0_1_n_n.contr.Idx) :
    (dot_S1024x129_S129x64_S1024x64_1_0_0_1_n_n.lhsIdx i q 0).val = (i 0).val := by
  unfold DotDims.lhsIdx
  rw [dif_neg (show ¬(0 : Fin S1024x129.rank) ∈ dot_S1024x129_S129x64_S1024x64_1_0_0_1_n_n.lhsBatch by decide), dif_pos (show (0 : Fin S1024x129.rank) ∈ dot_S1024x129_S129x64_S1024x64_1_0_0_1_n_n.lhsNonContracting by decide)]
  rfl
theorem lhs_feat_1 (i : S1024x64.Idx) (q : dot_S1024x129_S129x64_S1024x64_1_0_0_1_n_n.contr.Idx) :
    (dot_S1024x129_S129x64_S1024x64_1_0_0_1_n_n.lhsIdx i q 1).val = (q ⟨0, by decide⟩).val :=
  dot_S1024x129_S129x64_S1024x64_1_0_0_1_n_n.lhsIdx_val_of_single rfl i q
theorem rhs_feat_0 (i : S1024x64.Idx) (q : dot_S1024x129_S129x64_S1024x64_1_0_0_1_n_n.contr.Idx) :
    (dot_S1024x129_S129x64_S1024x64_1_0_0_1_n_n.rhsIdx i q 0).val = (q ⟨0, by decide⟩).val :=
  dot_S1024x129_S129x64_S1024x64_1_0_0_1_n_n.rhsIdx_val_of_single rfl i q
theorem rhs_feat_1 (i : S1024x64.Idx) (q : dot_S1024x129_S129x64_S1024x64_1_0_0_1_n_n.contr.Idx) :
    (dot_S1024x129_S129x64_S1024x64_1_0_0_1_n_n.rhsIdx i q 1).val = (i 1).val := by
  unfold DotDims.rhsIdx
  rw [dif_neg (show ¬(1 : Fin S129x64.rank) ∈ dot_S1024x129_S129x64_S1024x64_1_0_0_1_n_n.rhsBatch by decide), dif_pos (show (1 : Fin S129x64.rank) ∈ dot_S1024x129_S129x64_S1024x64_1_0_0_1_n_n.rhsNonContracting by decide)]
  rfl

/-- The features against the first weight matrix, into a zero accumulator: entry `(r, j)` is the sum over the 129
    features of row `r` times column `j`. -/
theorem matmulFeat_apply (x : FVec Ideal S1024x129 .bf16) (w : FVec Ideal S129x64 .bf16) (r : Fin 1024) (j : Fin 64) :
    matmul dot_S1024x129_S129x64_S1024x64_1_0_0_1_n_n none x w (constant (F := Ideal) S1024x64 .f32 0x00000000#32) (ix2 r j)
      = ∑ k : Fin 129, x (ix2 r k) * w (ix2 k j) := by
  simp only [matmul]
  rw [Ideal.matmul_constant_zero_apply, ← Equiv.sum_comp (ValueIdx.contrEquiv1 dot_S1024x129_S129x64_S1024x64_1_0_0_1_n_n 129 rfl rfl).symm]
  refine Finset.sum_congr rfl fun k _ => ?_
  have hk := ValueIdx.contrEquiv1_symm_val dot_S1024x129_S129x64_S1024x64_1_0_0_1_n_n 129 rfl rfl k
  have el : dot_S1024x129_S129x64_S1024x64_1_0_0_1_n_n.lhsIdx (ix2 r j) ((ValueIdx.contrEquiv1 dot_S1024x129_S129x64_S1024x64_1_0_0_1_n_n 129 rfl rfl).symm k) = ix2 r k := funext fun a => Fin.ext (by
    match a with
    | ⟨0, _⟩ => exact lhs_feat_0 _ _
    | ⟨1, _⟩ => exact (lhs_feat_1 _ _).trans hk)
  have er : dot_S1024x129_S129x64_S1024x64_1_0_0_1_n_n.rhsIdx (ix2 r j) ((ValueIdx.contrEquiv1 dot_S1024x129_S129x64_S1024x64_1_0_0_1_n_n 129 rfl rfl).symm k) = ix2 k j := funext fun a => Fin.ext (by
    match a with
    | ⟨0, _⟩ => exact (rhs_feat_0 _ _).trans hk
    | ⟨1, _⟩ => exact rhs_feat_1 _ _)
  rw [el, er]

theorem lhs_hid_0 (i : S1024x1.Idx) (q : dot_S1024x64_S64x1_S1024x1_1_0_0_1_n_n.contr.Idx) :
    (dot_S1024x64_S64x1_S1024x1_1_0_0_1_n_n.lhsIdx i q 0).val = (i 0).val := by
  unfold DotDims.lhsIdx
  rw [dif_neg (show ¬(0 : Fin S1024x64.rank) ∈ dot_S1024x64_S64x1_S1024x1_1_0_0_1_n_n.lhsBatch by decide), dif_pos (show (0 : Fin S1024x64.rank) ∈ dot_S1024x64_S64x1_S1024x1_1_0_0_1_n_n.lhsNonContracting by decide)]
  rfl
theorem lhs_hid_1 (i : S1024x1.Idx) (q : dot_S1024x64_S64x1_S1024x1_1_0_0_1_n_n.contr.Idx) :
    (dot_S1024x64_S64x1_S1024x1_1_0_0_1_n_n.lhsIdx i q 1).val = (q ⟨0, by decide⟩).val :=
  dot_S1024x64_S64x1_S1024x1_1_0_0_1_n_n.lhsIdx_val_of_single rfl i q
theorem rhs_hid_0 (i : S1024x1.Idx) (q : dot_S1024x64_S64x1_S1024x1_1_0_0_1_n_n.contr.Idx) :
    (dot_S1024x64_S64x1_S1024x1_1_0_0_1_n_n.rhsIdx i q 0).val = (q ⟨0, by decide⟩).val :=
  dot_S1024x64_S64x1_S1024x1_1_0_0_1_n_n.rhsIdx_val_of_single rfl i q
theorem rhs_hid_1 (i : S1024x1.Idx) (q : dot_S1024x64_S64x1_S1024x1_1_0_0_1_n_n.contr.Idx) :
    (dot_S1024x64_S64x1_S1024x1_1_0_0_1_n_n.rhsIdx i q 1).val = (i 1).val := by
  unfold DotDims.rhsIdx
  rw [dif_neg (show ¬(1 : Fin S64x1.rank) ∈ dot_S1024x64_S64x1_S1024x1_1_0_0_1_n_n.rhsBatch by decide), dif_pos (show (1 : Fin S64x1.rank) ∈ dot_S1024x64_S64x1_S1024x1_1_0_0_1_n_n.rhsNonContracting by decide)]
  rfl

/-- The hidden layer against the second weight column, into a zero accumulator: entry `(r, c)` is the sum over the 64
    hidden units of row `r` times the column. -/
theorem matmulHid_apply (x : FVec Ideal S1024x64 .bf16) (w : FVec Ideal S64x1 .bf16) (r : Fin 1024) (c : Fin 1) :
    matmul dot_S1024x64_S64x1_S1024x1_1_0_0_1_n_n none x w (constant (F := Ideal) S1024x1 .f32 0x00000000#32) (ix2 r c)
      = ∑ j : Fin 64, x (ix2 r j) * w (ix2 j c) := by
  simp only [matmul]
  rw [Ideal.matmul_constant_zero_apply, ← Equiv.sum_comp (ValueIdx.contrEquiv1 dot_S1024x64_S64x1_S1024x1_1_0_0_1_n_n 64 rfl rfl).symm]
  refine Finset.sum_congr rfl fun k _ => ?_
  have hk := ValueIdx.contrEquiv1_symm_val dot_S1024x64_S64x1_S1024x1_1_0_0_1_n_n 64 rfl rfl k
  have el : dot_S1024x64_S64x1_S1024x1_1_0_0_1_n_n.lhsIdx (ix2 r c) ((ValueIdx.contrEquiv1 dot_S1024x64_S64x1_S1024x1_1_0_0_1_n_n 64 rfl rfl).symm k) = ix2 r k := funext fun a => Fin.ext (by
    match a with
    | ⟨0, _⟩ => exact lhs_hid_0 _ _
    | ⟨1, _⟩ => exact (lhs_hid_1 _ _).trans hk)
  have er : dot_S1024x64_S64x1_S1024x1_1_0_0_1_n_n.rhsIdx (ix2 r c) ((ValueIdx.contrEquiv1 dot_S1024x64_S64x1_S1024x1_1_0_0_1_n_n 64 rfl rfl).symm k) = ix2 k c := funext fun a => Fin.ext (by
    match a with
    | ⟨0, _⟩ => exact (rhs_hid_0 _ _).trans hk
    | ⟨1, _⟩ => exact rhs_hid_1 _ _)
  rw [el, er]

/-! ## The kernel's intermediate arrays, each read at a row

Each array the kernel's arithmetic builds is named and read at its row `r` (and lane): there it is the
specification's quantity for the two rows `x r`, `y r`. -/

/-- The row norms as a column, floored at `ε₁`. -/
def normFloor (x : FVec Ideal S1024x64 .f32) : FVec Ideal S1024x1 .f32 :=
  maximumf (sqrt (shapeCast S1024x1 (multiReduction (F := Ideal) .add [1] S1024 (mulf x x) 0x00000000#32 reduces_S1024x64_S1024 (.inl rfl) rfl) shapeCasts_S1024_S1024x1))
    (broadcast S1024x1 (Scalar.ofBits (F := Ideal) .f32 0x2B8CBCCC#32))

theorem normFloor_apply (x : FVec Ideal S1024x64 .f32) (r : Fin 1024) (c : Fin 1) :
    normFloor x (ix2 r c) = max (Cert.Proof.Spec.norm fun k => x (ix2 r k)) Cert.Proof.Spec.eps₁ := by
  show max (Ideal.sqrt (shapeCast S1024x1 (multiReduction (F := Ideal) .add [1] S1024 (mulf x x) 0x00000000#32 reduces_S1024x64_S1024 (.inl rfl) rfl) shapeCasts_S1024_S1024x1 (ix2 r c))) _ = _
  rw [colCast_apply, laneSum_apply]
  rfl

/-- The rows, each divided by its floored norm. -/
def unitMat (x : FVec Ideal S1024x64 .f32) : FVec Ideal S1024x64 .f32 :=
  divf x (broadcastTo S1024x64 (normFloor x) broadcasts_S1024x1_S1024x64)

theorem unitMat_apply (x : FVec Ideal S1024x64 .f32) (r : Fin 1024) (k : Fin 64) :
    unitMat x (ix2 r k) = Cert.Proof.Spec.unit (fun k => x (ix2 r k)) k := by
  show Ideal.div (x (ix2 r k)) (broadcastTo S1024x64 (normFloor x) broadcasts_S1024x1_S1024x64 (ix2 r k)) = _
  rw [colBroadcast_apply, normFloor_apply]
  rfl

/-- The norms of the normalized rows. -/
def unitNorm (x : FVec Ideal S1024x64 .f32) : FVec Ideal S1024 .f32 :=
  sqrt (multiReduction (F := Ideal) .add [1] S1024 (mulf (unitMat x) (unitMat x)) 0x00000000#32 reduces_S1024x64_S1024 (.inl rfl) rfl)

theorem unitNorm_apply (x : FVec Ideal S1024x64 .f32) (r : Fin 1024) :
    unitNorm x (ix1 r) = Cert.Proof.Spec.norm (Cert.Proof.Spec.unit fun k => x (ix2 r k)) := by
  show Ideal.sqrt ((multiReduction (F := Ideal) .add [1] S1024 (mulf (unitMat x) (unitMat x)) 0x00000000#32 reduces_S1024x64_S1024 (.inl rfl) rfl) (ix1 r)) = _
  rw [laneSum_apply]
  simp only [mulf_apply, unitMat_apply]
  rfl

/-- The cosine of each pair of rows. -/
def cosVec (x y : FVec Ideal S1024x64 .f32) : FVec Ideal S1024 .f32 :=
  divf (multiReduction (F := Ideal) .add [1] S1024 (mulf (unitMat x) (unitMat y)) 0x00000000#32 reduces_S1024x64_S1024 (.inl rfl) rfl)
    (maximumf (mulf (unitNorm x) (unitNorm y)) (broadcast S1024 (Scalar.ofBits (F := Ideal) .f32 0x322BCC77#32)))

theorem cosVec_apply (x y : FVec Ideal S1024x64 .f32) (r : Fin 1024) :
    cosVec x y (ix1 r) = Cert.Proof.Spec.cosine (fun k => x (ix2 r k)) (fun k => y (ix2 r k)) := by
  show Ideal.div ((multiReduction (F := Ideal) .add [1] S1024 (mulf (unitMat x) (unitMat y)) 0x00000000#32 reduces_S1024x64_S1024 (.inl rfl) rfl) (ix1 r))
      (max (unitNorm x (ix1 r) * unitNorm y (ix1 r)) _) = _
  rw [laneSum_apply, unitNorm_apply, unitNorm_apply]
  simp only [mulf_apply, unitMat_apply]
  rfl

/-- The 129 features of each pair of rows: the two rows and their cosine side by side. -/
def featMat (x y : FVec Ideal S1024x64 .f32) : FVec Ideal S1024x129 .f32 :=
  concatenate S1024x129 1 [⟨S1024x64, x⟩, ⟨S1024x64, y⟩, ⟨S1024x1, shapeCast S1024x1 (cosVec x y) shapeCasts_S1024_S1024x1⟩]
    concatenates_S1024x64_S1024x64_S1024x1_S1024x129_d1

theorem featMat_apply (x y : FVec Ideal S1024x64 .f32) (r : Fin 1024) (k : Fin 129) :
    featMat x y (ix2 r k) = Cert.Proof.Spec.feat (fun k => x (ix2 r k)) (fun k => y (ix2 r k)) k := by
  unfold featMat Cert.Proof.Spec.feat
  rw [concat_apply, colCast_apply, cosVec_apply]

/-- The hidden layer of each pair of rows. -/
def hidMat (x y : FVec Ideal S1024x64 .f32) (w : FVec Ideal S129x64 .f32) (b : FVec Ideal S64 .f32) : FVec Ideal S1024x64 .f32 :=
  maximumf
    (addf (matmul dot_S1024x129_S129x64_S1024x64_1_0_0_1_n_n none (truncf .bf16 (featMat x y) bitsLt_bf16_f32) (truncf .bf16 w bitsLt_bf16_f32)
        (constant (F := Ideal) S1024x64 .f32 0x00000000#32))
      (broadcastTo S1024x64 (shapeCast S1x64 b shapeCasts_S64_S1x64) broadcasts_S1x64_S1024x64))
    (broadcast S1024x64 (Scalar.ofBits (F := Ideal) .f32 0x00000000#32))

theorem hidMat_apply (x y : FVec Ideal S1024x64 .f32) (w : FVec Ideal S129x64 .f32) (b : FVec Ideal S64 .f32)
    (r : Fin 1024) (j : Fin 64) :
    hidMat x y w b (ix2 r j)
      = Cert.Proof.Spec.hidden (fun k => x (ix2 r k)) (fun k => y (ix2 r k)) (fun a j => w (ix2 a j)) (fun j => b (ix1 j)) j := by
  show max (matmul dot_S1024x129_S129x64_S1024x64_1_0_0_1_n_n none (truncf .bf16 (featMat x y) bitsLt_bf16_f32) (truncf .bf16 w bitsLt_bf16_f32)
        (constant (F := Ideal) S1024x64 .f32 0x00000000#32) (ix2 r j)
      + broadcastTo S1024x64 (shapeCast S1x64 b shapeCasts_S64_S1x64) broadcasts_S1x64_S1024x64 (ix2 r j))
    (Ideal.ofBits .f32 0x00000000#32) = _
  rw [matmulFeat_apply, biasRow_apply, Ideal.ofBits_zero_f32]
  simp only [truncf_apply, featMat_apply]
  rfl

/-! ## The payload at a row -/

/-- The kernel body's arithmetic, read at row `r`, is the specification's rating of the two rows `v1 r`, `v2 r`. -/
theorem pay_eq_score (v1 v2 : FVec Ideal Cert.KernelIdeal.S1024x64 .f32) (v34 : FVec Ideal Cert.KernelIdeal.S129x64 .f32) (v37 : FVec Ideal Cert.KernelIdeal.S64 .f32) (v44 : FVec Ideal Cert.KernelIdeal.S64x1 .f32) (v47 : FVec Ideal Cert.KernelIdeal.S1 .f32) (r : Fin 1024) :
    Cert.KernelIdeal.Gen.k0_pay1 (F := Ideal) (Cert.KernelIdeal.Gen.k0_pay2 (F := Ideal) v1 v2 v34) v37 v44 v47 (ix1 r)
      = Cert.Proof.Spec.score (fun k => v1 (ix2 r k)) (fun k => v2 (ix2 r k)) (fun a j => v34 (ix2 a j)) (fun j => v37 (ix1 j)) (fun j => v44 (ix2 j 0)) (v47 (ix1 0)) := by
  have e : Cert.KernelIdeal.Gen.k0_pay1 (F := Ideal) (Cert.KernelIdeal.Gen.k0_pay2 (F := Ideal) v1 v2 v34) v37 v44 v47
      = shapeCast S1024 (logistic (addf
          (matmul dot_S1024x64_S64x1_S1024x1_1_0_0_1_n_n none (truncf .bf16 (hidMat v1 v2 v34 v37) bitsLt_bf16_f32) (truncf .bf16 v44 bitsLt_bf16_f32)
            (constant (F := Ideal) S1024x1 .f32 0x00000000#32))
          (broadcastTo S1024x1 (shapeCast S1x1 v47 shapeCasts_S1_S1x1) broadcasts_S1x1_S1024x1))) shapeCasts_S1024x1_S1024 := rfl
  rw [e, rowCast_apply]
  show Ideal.logistic (matmul dot_S1024x64_S64x1_S1024x1_1_0_0_1_n_n none (truncf .bf16 (hidMat v1 v2 v34 v37) bitsLt_bf16_f32) (truncf .bf16 v44 bitsLt_bf16_f32)
        (constant (F := Ideal) S1024x1 .f32 0x00000000#32) (ix2 r (0 : Fin 1))
      + broadcastTo S1024x1 (shapeCast S1x1 v47 shapeCasts_S1_S1x1) broadcasts_S1x1_S1024x1 (ix2 r (0 : Fin 1))) = _
  rw [matmulHid_apply, biasOne_apply]
  simp only [truncf_apply, hidMat_apply]
  rfl

end Cert.KernelIdeal.PayValue

end
-- ==== Proof.KernelIdealValue.lean ====
import proofs.«401610_j38122129719601_1_alg».proof.Proof.KernelIdealFrame
import proofs.«401610_j38122129719601_1_alg».proof.Proof.KernelIdealHypsPre
import proofs.«401610_j38122129719601_1_alg».proof.Proof.KernelPayload
import proofs.«401610_j38122129719601_1_alg».proof.Proof.Spec
import Idealize.ShloMosaic.Lib.Pipeline.Value
import Idealize.ShloMosaic.Lib.ValueIdx
import Idealize.ShloMosaic.Lib.StableHlo.Run

/-! # What the gather program's result array holds: the ratings of the edges

The two index arrays hold 1000000 words each; each is extended by 448 zero words to 1000448 words, 977 blocks of 1024. At
grid point `t` the body reads block `t` of each extended index array, gathers the 1024 customer rows and the 1024 product
rows those words name, and stores the 1024 ratings into block `t` of an output of 1000448 entries. Entry `r` of what it
stores depends only on row `r` of the two gathered blocks and on the weights, and is the rating of the specification for
those two rows; the weights' blocks are the whole weight arrays at every point. So the output, once every block has been
written back, holds at every index `j` the rating of the rows that words `j` of the two extended index arrays name. The
977 blocks tile the output: index `j` lies in block `⌊j / 1024⌋`. The host then keeps the first 1000000 entries and lays
them out as one column; below 1000000 an extended index array reads the index array it extends, so entry `(e, 0)` of the
result is the rating of the edge `e`: the specification of the argument arrays. -/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The host lines after the region -/

/-- The result array is the output array of the region, its first 1000000 entries kept and laid out as one column. -/
theorem tail_eq (hH : Hyps m) (c : Dev nD) :
    Pipeline.afterTail₀ cfgs (dats m hH) 0 (V0 m) [hostOps1] c main_v4
      = shapeCast S1000000x1 (extractStridedSlice S1000000 ![0] ((dats m hH 0 c).arrAt 6 cfg0.N) slices_S1000448_S1000000_0)
          shapeCasts_S1000000_S1000000x1 := by
  unfold Pipeline.afterTail₀
  show StableHlo.after hostOps1 _ (Proc.devRef .tc main_v4) = _
  after_results
  have e := Pipeline.withArrays_arr (τ := τ) spec0 launch0.win.arr_inj c (V0 m c) (fun w => (dats m hH 0 c).arrAt w cfg0.N) 6
  rw [show Pipeline.withArrays (cfgs 0).spec c (V0 m c) (fun w => (dats m hH 0 c).arrAt w (cfgs 0).N) (Proc.tc.devRef main_v2)
      = (dats m hH 0 c).arrAt 6 cfg0.N from e]
  rfl

/-! ## The index maps, decided over the grid -/

/-- The two index windows and the output window are at block `t` at point `t`; the weights' windows stay at block zero. -/
theorem idx_facts : ∀ t : Fin cfg0.N, win0_0.index t (0 : Fin 1) = t.val ∧ win0_1.index t (0 : Fin 1) = t.val
    ∧ win0_6.index t (0 : Fin 1) = t.val
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0 :=
  (by decide +kernel : ∀ t : Fin grid0.N, _)

/-! ## The blocks the body reads, as entries of the arrays -/

/-- Word `r` of the first index block at point `t` is word `1024 t + r` of the first padded index array. -/
theorem word0 (c : Dev nD) (t : Fin cfg0.N) (r : Fin 1024) (j : S1000448.Idx) (hj : (j 0).val = t.val * 1024 + r.val) :
    (iblk m c 0 t (ix1 r) : BitVec 32) = (V m c main_v0 : S1000448.Idx → BitVec 32) j := by
  obtain ⟨e0, -⟩ := idx_facts t
  unfold iblk
  rw [View.read_apply]
  show (V m c main_v0 : S1000448.Idx → BitVec 32) _ = _
  congr 1
  funext a
  apply Fin.ext
  match a with
  | ⟨0, _⟩ => show win0_0.index t (0 : Fin 1) * 1024 + 1 * r.val = (j 0).val; rw [e0, hj]; omega

/-- Word `r` of the second index block at point `t` is word `1024 t + r` of the second padded index array. -/
theorem word1 (c : Dev nD) (t : Fin cfg0.N) (r : Fin 1024) (j : S1000448.Idx) (hj : (j 0).val = t.val * 1024 + r.val) :
    (iblk m c 1 t (ix1 r) : BitVec 32) = (V m c main_v1 : S1000448.Idx → BitVec 32) j := by
  obtain ⟨-, e1, -⟩ := idx_facts t
  unfold iblk
  rw [View.read_apply]
  show (V m c main_v1 : S1000448.Idx → BitVec 32) _ = _
  congr 1
  funext a
  apply Fin.ext
  match a with
  | ⟨0, _⟩ => show win0_1.index t (0 : Fin 1) * 1024 + 1 * r.val = (j 0).val; rw [e1, hj]; omega

/-- The first weight matrix's block at any point is the matrix itself. -/
theorem wblk2 (c : Dev nD) (t : Fin cfg0.N) (a : Fin 129) (j : Fin 64) :
    (iblk m c 2 t : Vec Ideal S129x64 .f32) (ix2 a j)
      = (m ((c : Thread nD τ).loc main_arg4) : S129x64.Idx → EReal) (ix2 a j) := by
  obtain ⟨-, -, -, e0, e1, -⟩ := idx_facts t
  unfold iblk
  rw [View.read_apply]
  show (V m c main_arg4 : S129x64.Idx → EReal) _ = _
  rw [V_main_arg4]
  congr 1
  funext b
  apply Fin.ext
  match b with
  | ⟨0, _⟩ => show win0_2.index t (0 : Fin 2) * 129 + 1 * a.val = a.val; rw [e0]; omega
  | ⟨1, _⟩ => show win0_2.index t (1 : Fin 2) * 64 + 1 * j.val = j.val; rw [e1]; omega

/-- The first bias's block at any point is the bias itself. -/
theorem wblk3 (c : Dev nD) (t : Fin cfg0.N) (j : Fin 64) :
    (iblk m c 3 t : Vec Ideal S64 .f32) (ix1 j) = (m ((c : Thread nD τ).loc main_arg5) : S64.Idx → EReal) (ix1 j) := by
  obtain ⟨-, -, -, -, -, e0, -⟩ := idx_facts t
  unfold iblk
  rw [View.read_apply]
  show (V m c main_arg5 : S64.Idx → EReal) _ = _
  rw [V_main_arg5]
  congr 1
  funext b
  apply Fin.ext
  match b with
  | ⟨0, _⟩ => show win0_3.index t (0 : Fin 1) * 64 + 1 * j.val = j.val; rw [e0]; omega

/-- The second weight column's block at any point is the column itself. -/
theorem wblk4 (c : Dev nD) (t : Fin cfg0.N) (j : Fin 64) :
    (iblk m c 4 t : Vec Ideal S64x1 .f32) (ix2 j (0 : Fin 1))
      = (m ((c : Thread nD τ).loc main_arg6) : S64x1.Idx → EReal) (ix2 j (0 : Fin 1)) := by
  obtain ⟨-, -, -, -, -, -, e0, e1, -⟩ := idx_facts t
  unfold iblk
  rw [View.read_apply]
  show (V m c main_arg6 : S64x1.Idx → EReal) _ = _
  rw [V_main_arg6]
  congr 1
  funext b
  apply Fin.ext
  match b with
  | ⟨0, _⟩ => show win0_4.index t (0 : Fin 2) * 64 + 1 * j.val = j.val; rw [e0]; omega
  | ⟨1, _⟩ => show win0_4.index t (1 : Fin 2) * 1 + 1 * 0 = 0; rw [e1]

/-- The second bias's block at any point is the bias itself. -/
theorem wblk5 (c : Dev nD) (t : Fin cfg0.N) :
    (iblk m c 5 t : Vec Ideal S1 .f32) (ix1 (0 : Fin 1)) = (m ((c : Thread nD τ).loc main_arg7) : S1.Idx → EReal) (ix1 (0 : Fin 1)) := by
  obtain ⟨-, -, -, -, -, -, -, -, e0⟩ := idx_facts t
  unfold iblk
  rw [View.read_apply]
  show (V m c main_arg7 : S1.Idx → EReal) _ = _
  rw [V_main_arg7]
  congr 1
  funext b
  apply Fin.ext
  match b with
  | ⟨0, _⟩ => show win0_5.index t (0 : Fin 1) * 1 + 1 * 0 = 0; rw [e0]

/-! ## The padded output array -/

/-- The padded output: entry `j` is the rating of the edge whose rows words `j` of the two padded index arrays name. -/
def Gpad (c : Dev nD) : S1000448.Idx → EReal := fun j =>
  Cert.Proof.Spec.score
    (fun k => (m ((c : Thread nD τ).loc main_arg0) : S100000x64.Idx → EReal)
      (ix2 (Cert.Proof.Spec.rowIx ((V m c main_v0 : S1000448.Idx → BitVec 32) j)) k))
    (fun k => (m ((c : Thread nD τ).loc main_arg1) : S100000x64.Idx → EReal)
      (ix2 (Cert.Proof.Spec.rowIx ((V m c main_v1 : S1000448.Idx → BitVec 32) j)) k))
    (fun a j' => (m ((c : Thread nD τ).loc main_arg4) : S129x64.Idx → EReal) (ix2 a j'))
    (fun j' => (m ((c : Thread nD τ).loc main_arg5) : S64.Idx → EReal) (ix1 j'))
    (fun j' => (m ((c : Thread nD τ).loc main_arg6) : S64x1.Idx → EReal) (ix2 j' (0 : Fin 1)))
    ((m ((c : Thread nD τ).loc main_arg7) : S1.Idx → EReal) (ix1 (0 : Fin 1)))

/-- Row `r` of the block of customer rows gathered at point `t` is the table row that word `1024 t + r` of the first
    padded index array names. -/
theorem gath0 (hH : Hyps m) (c : Dev nD) (t : Fin cfg0.N) (r : Fin 1024) (j : S1000448.Idx)
    (hj : (j 0).val = t.val * 1024 + r.val) (k : Fin 64) :
    gathered c M3 (V m c main_arg0) (iblk m c 0 t) (hH c t).1 (ix2 r k)
      = (m ((c : Thread nD τ).loc main_arg0) : S100000x64.Idx → EReal)
          (ix2 (Cert.Proof.Spec.rowIx ((V m c main_v0 : S1000448.Idx → BitVec 32) j)) k) := by
  have hw : ((V m c main_v0 : S1000448.Idx → BitVec 32) j).toNat < 100000 := by
    rw [← word0 m c t r j hj]; exact (hH c t).1 (ix1 r)
  show (V m c main_arg0 : S100000x64.Idx → EReal) (ix2 ⟨(iblk m c 0 t (ix1 r) : BitVec 32).toNat, _⟩ k) = _
  rw [V_main_arg0]
  refine congrArg (fun q : Fin 100000 => (m ((c : Thread nD τ).loc main_arg0) : S100000x64.Idx → EReal) (ix2 q k)) (Fin.ext ?_)
  show (iblk m c 0 t (ix1 r) : BitVec 32).toNat = _
  rw [word0 m c t r j hj, Cert.Proof.Spec.rowIx_val_of_lt hw]

/-- Row `r` of the block of product rows gathered at point `t` is the table row that word `1024 t + r` of the second
    padded index array names. -/
theorem gath1 (hH : Hyps m) (c : Dev nD) (t : Fin cfg0.N) (r : Fin 1024) (j : S1000448.Idx)
    (hj : (j 0).val = t.val * 1024 + r.val) (k : Fin 64) :
    gathered c M4 (V m c main_arg1) (iblk m c 1 t) (hH c t).2 (ix2 r k)
      = (m ((c : Thread nD τ).loc main_arg1) : S100000x64.Idx → EReal)
          (ix2 (Cert.Proof.Spec.rowIx ((V m c main_v1 : S1000448.Idx → BitVec 32) j)) k) := by
  have hw : ((V m c main_v1 : S1000448.Idx → BitVec 32) j).toNat < 100000 := by
    rw [← word1 m c t r j hj]; exact (hH c t).2 (ix1 r)
  show (V m c main_arg1 : S100000x64.Idx → EReal) (ix2 ⟨(iblk m c 1 t (ix1 r) : BitVec 32).toNat, _⟩ k) = _
  rw [V_main_arg1]
  refine congrArg (fun q : Fin 100000 => (m ((c : Thread nD τ).loc main_arg1) : S100000x64.Idx → EReal) (ix2 q k)) (Fin.ext ?_)
  show (iblk m c 1 t (ix1 r) : BitVec 32).toNat = _
  rw [word1 m c t r j hj, Cert.Proof.Spec.rowIx_val_of_lt hw]

/-- Entry `r` of the ratings block point `t` stores is entry `1024 t + r` of the padded output. -/
theorem outAt_apply (hH : Hyps m) (c : Dev nD) (t : Fin cfg0.N) (r : Fin 1024) (j : S1000448.Idx)
    (hj : (j 0).val = t.val * 1024 + r.val) : outAt m hH c t (ix1 r) = Gpad m c j := by
  unfold outAt outBlock
  refine (Cert.KernelIdeal.PayValue.pay_eq_score (gathered c M3 (V m c main_arg0) (iblk m c 0 t) (hH c t).1)
    (gathered c M4 (V m c main_arg1) (iblk m c 1 t) (hH c t).2) (iblk m c 2 t) (iblk m c 3 t) (iblk m c 4 t) (iblk m c 5 t) r).trans ?_
  unfold Gpad
  simp only [gath0 m hH c t r j hj, gath1 m hH c t r j hj, wblk2, wblk3, wblk4, wblk5]

/-- What point `t` writes back is block `t` of the padded output. -/
theorem flushed_eq (hH : Hyps m) (c : Dev nD) (t : Fin cfg0.N) :
    (dats m hH 0 c).flushed 6 t = ((cfg0.win 6).blk t).view.read (Elt Ideal) (Gpad m c) := by
  show (cfg0.win 6).cut (grid0.coords t) ((dats m hH 0 c).after 6 t) = _
  rw [after6]
  obtain ⟨-, -, e6, -⟩ := idx_facts t
  show (outAt m hH c t : S1024.Idx → EReal) = fun y : S1024.Idx => Gpad m c (((cfg0.win 6).blk t).view.emb y)
  funext y
  obtain ⟨r, rfl⟩ : ∃ r : Fin 1024, y = ix1 r := ⟨y 0, eq_ix1 y⟩
  refine outAt_apply m hH c t r _ ?_
  show win0_6.index t (0 : Fin 1) * 1024 + 1 * r.val = t.val * 1024 + r.val
  rw [e6]; omega

/-- An index of the padded output lies in point `t`'s block iff it lies in the block's range. -/
theorem mem_blk (t : Fin cfg0.N) (i : S1000448.Idx) :
    i ∈ ((cfg0.win 6).blk t).view.set ↔ ∀ a : Fin 1, win0_6.index t a * S1024.size a ≤ (i a).val
      ∧ (i a).val < win0_6.index t a * S1024.size a + S1024.size a := by
  show i ∈ ((View.whole main_v2).slice (win0_6.rect t)).set ↔ _
  rw [View.set_slice_whole, Rect.mem_set_unit]
  exact Iff.rfl

/-- Every index of the padded output lies in the block of the point `⌊j / 1024⌋`, which writes its block back. -/
theorem cover (i : S1000448.Idx) :
    ∃ t : Fin cfg0.N, (cfg0.win 6).flush t = true ∧ i ∈ ((cfg0.win 6).blk t).view.set := by
  have hi : (i 0).val < 1000448 := (i 0).isLt
  have hN : cfg0.N = 977 := N_0
  have ht : (i 0).val / 1024 < cfg0.N := by rw [hN]; omega
  obtain ⟨-, -, e6, -⟩ := idx_facts ⟨(i 0).val / 1024, ht⟩
  refine ⟨⟨(i 0).val / 1024, ht⟩, flush0_6 _, ?_⟩
  rw [mem_blk]
  intro a
  match a with
  | ⟨0, _⟩ =>
    show win0_6.index ⟨(i 0).val / 1024, ht⟩ (0 : Fin 1) * 1024 ≤ (i 0).val
      ∧ (i 0).val < win0_6.index ⟨(i 0).val / 1024, ht⟩ (0 : Fin 1) * 1024 + 1024
    rw [e6]
    show (i 0).val / 1024 * 1024 ≤ (i 0).val ∧ (i 0).val < (i 0).val / 1024 * 1024 + 1024
    omega

/-- After the region the output array holds the padded output. -/
theorem final (hH : Hyps m) (c : Dev nD) : (dats m hH 0 c).arrAt 6 cfg0.N = Gpad m c :=
  (dats m hH 0 c).arrAt_eq_of_cover 6 (Gpad m c) (fun t _ => flushed_eq m hH c t) cover

/-! ## The padded index arrays below the padding -/

/-- Below the source's extent, a high-padded array reads the source. -/
theorem pad_low {α : Type} (x : S1000000.Idx → α) (v : S_.Idx → α) (j : S1000448.Idx) (e : Fin 1000000)
    (hj : (j 0).val = e.val) :
    pad S1000448 ![0] ![448] ![0] x v pads_S1000000_S1000448_04480 h_S_ j = x (ix1 e) := by
  have he : e.val < 1000000 := e.isLt
  unfold pad
  rw [dif_pos (fun a => by
    match a with
    | ⟨0, _⟩ =>
      show 0 ≤ (j 0).val ∧ ((j 0).val - 0) % (0 + 1) = 0 ∧ ((j 0).val - 0) / (0 + 1) < 1000000
      omega)]
  congr 1
  funext a
  apply Fin.ext
  match a with
  | ⟨0, _⟩ => show ((j 0).val - 0) / (0 + 1) = e.val; omega

/-- The first padded index array, as the region finds it, is the first index array padded with 448 zero words. -/
theorem v0_eq (c : Dev nD) : (V m c main_v0 : S1000448.Idx → BitVec 32)
    = pad S1000448 ![0] ![448] ![0] (m ((c : Thread nD τ).loc main_arg2) : S1000000.Idx → BitVec 32)
        (constantI S_ 32 0#32) pads_S1000000_S1000448_04480 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- The second padded index array, as the region finds it, is the second index array padded with 448 zero words. -/
theorem v1_eq (c : Dev nD) : (V m c main_v1 : S1000448.Idx → BitVec 32)
    = pad S1000448 ![0] ![448] ![0] (m ((c : Thread nD τ).loc main_arg3) : S1000000.Idx → BitVec 32)
        (constantI S_ 32 0#32) pads_S1000000_S1000448_04480 h_S_ := by
  dsimp only [Gen.V, Gen.V0]
  simp only [Gen.hostOps0, Gen.hostOps0_1, Gen.hostOps0_2, Gen.hostOps0_3, List.flatten_cons, List.flatten_nil,
    List.append_nil, List.cons_append, List.nil_append]
  after_results
  rfl

/-- Word `e` of the first padded index array, `e` below 1000000, is word `e` of the first index array. -/
theorem v0_low (c : Dev nD) (e : Fin 1000000) (j : S1000448.Idx) (hj : (j 0).val = e.val) :
    (V m c main_v0 : S1000448.Idx → BitVec 32) j = (m ((c : Thread nD τ).loc main_arg2) : S1000000.Idx → BitVec 32) (ix1 e) := by
  rw [v0_eq]; exact pad_low _ _ j e hj

/-- Word `e` of the second padded index array, `e` below 1000000, is word `e` of the second index array. -/
theorem v1_low (c : Dev nD) (e : Fin 1000000) (j : S1000448.Idx) (hj : (j 0).val = e.val) :
    (V m c main_v1 : S1000448.Idx → BitVec 32) j = (m ((c : Thread nD τ).loc main_arg3) : S1000000.Idx → BitVec 32) (ix1 e) := by
  rw [v1_eq]; exact pad_low _ _ j e hj

/-! ## The slice and the column layout, read at an index -/

/-- The slice that keeps the first 1000000 entries reads, at `j`, the entry of the same number. -/
theorem slice_low {α : Type} (x : S1000448.Idx → α) (j : S1000000.Idx) (k : S1000448.Idx) (hk : (k 0).val = (j 0).val) :
    extractStridedSlice S1000000 ![0] x slices_S1000448_S1000000_0 j = x k :=
  extractStridedSlice_apply ![0] x slices_S1000448_S1000000_0 j k (fun a => by
    match a with
    | ⟨0, _⟩ => show (k 0).val = 0 + (j 0).val; omega)

/-- An array laid out as one column reads, at `(e, 0)`, its entry `e`. -/
theorem column_apply {α : Type} (x : S1000000.Idx → α) (i : S1000000x1.Idx) (j : S1000000.Idx) (hj : (j 0).val = (i 0).val) :
    shapeCast S1000000x1 x shapeCasts_S1000000_S1000000x1 i = x j := by
  have hi1 : (i 1).val < 1 := (i 1).isLt
  refine shapeCast_apply x shapeCasts_S1000000_S1000000x1 i j ?_
  refine (Shape.rowMajor_val_one (d := ![1000000]) _).trans ?_
  refine Eq.trans ?_ (Shape.rowMajor_val_two (d := ![1000000, 1]) i).symm
  show (j 0).val = (i 0).val * 1 + (i 1).val
  omega

/-! ## The result array -/

/-- The first 1000000 entries of the padded output, laid out as one column, are the specification of the argument arrays. -/
theorem result_eq (c : Dev nD) :
    shapeCast S1000000x1 (extractStridedSlice S1000000 ![0] (Gpad m c) slices_S1000448_S1000000_0) shapeCasts_S1000000_S1000000x1
      = Cert.Proof.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  funext i
  have hi0 : (i 0).val < 1000000 := (i 0).isLt
  have hlt : (i 0).val < 1000448 := by omega
  refine (column_apply _ i (ix1 (i 0)) rfl).trans ?_
  refine (slice_low (Gpad m c) (ix1 (i 0)) (ix1 (⟨(i 0).val, hlt⟩ : Fin 1000448)) rfl).trans ?_
  unfold Gpad Cert.Proof.Spec.G
  rw [v0_low m c (i 0) _ rfl, v1_low m c (i 0) _ rfl]

/-! ## The run -/

/-- THE VALUE RUN: when every word of the two index arrays names a table row, every weakly fair execution of @main
    terminates with the result array at the specification of the argument arrays, and every argument array as launched. -/
theorem value_run (h2 : ∀ c : Dev nD, Cert.Proof.Spec.InRange (m ((c : Thread nD τ).loc main_arg2)))
    (h3 : ∀ c : Dev nD, Cert.Proof.Spec.InRange (m ((c : Thread nD τ).loc main_arg3))) :
    θ_run (defs (F := Ideal)) (onTc (τ := τ) (main (F := Ideal))) ⟨m, fun _ => 0, ρ⟩ (fun r => ∀ c : Dev nD,
      r.2.mem ((c.tc : Thread nD τ).loc main_v4)
        = Cert.Proof.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  have hH : Hyps m := hyps_of_inRange m h2 h3
  have hv : ∀ c : Dev nD, Pipeline.afterTail₀ cfgs (dats m hH) 0 (V0 m) [hostOps1] c main_v4
      = Cert.Proof.Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := fun c => by
    rw [tail_eq m hH c, final m hH c]
    exact result_eq m c
  exact (θ_run defs _ _).mono (fun _ h c =>
    ⟨((h c).2 main_v4 (Pipeline.mem_restRefs_of main_v4 (by decide) (by decide))).trans (hv c),
      (((h c).2 main_arg0 (Pipeline.mem_restRefs_of main_arg0 (by decide) (by decide))).trans (W_main_arg0 m (dats m hH) c)),
      (((h c).2 main_arg1 (Pipeline.mem_restRefs_of main_arg1 (by decide) (by decide))).trans (W_main_arg1 m (dats m hH) c)),
      (((h c).2 main_arg2 (Pipeline.mem_restRefs_of main_arg2 (by decide) (by decide))).trans (W_main_arg2 m (dats m hH) c)),
      (((h c).2 main_arg3 (Pipeline.mem_restRefs_of main_arg3 (by decide) (by decide))).trans (W_main_arg3 m (dats m hH) c)),
      ((h c).1 2).trans (((dats m hH 0 c).arrAt_in 2 rfl _).trans ((A_eq m hH c 2).trans (V_main_arg4 m c))),
      ((h c).1 3).trans (((dats m hH 0 c).arrAt_in 3 rfl _).trans ((A_eq m hH c 3).trans (V_main_arg5 m c))),
      ((h c).1 4).trans (((dats m hH 0 c).arrAt_in 4 rfl _).trans ((A_eq m hH c 4).trans (V_main_arg6 m c))),
      ((h c).1 5).trans (((dats m hH 0 c).arrAt_in 5 rfl _).trans ((A_eq m hH c 5).trans (V_main_arg7 m c)))⟩)
    (run_main m ρ hH)

end Cert.KernelIdeal.Body

end
-- ==== Proof.lean ====
/- The certificate of the edge-rating kernel against its reference.

   One grid point of the kernel handles 1024 edges: it reads their two index words, copies the table rows the words name
   into two scratch blocks by its own transfers, and computes each edge's rating — the logistic of a two-layer perceptron
   over the two rows and their cosine similarity — exactly as the reference does on the host after its two gathers. The
   kernel's copies are in range only when every index word names a table row, and the reference's gather reads the
   same row only then: the precondition says so of both index arrays, beside the finiteness of the float inputs.
   Under it both programs run, leave their arguments unchanged, and end with the same array over the extended reals:
   entry `e` is `Spec.score` of row `src[e]` of the customer table and row `dst[e]` of the product table (`Spec.G`). -/
import proofs.«401610_j38122129719601_1_alg».proof.Defs
import proofs.«401610_j38122129719601_1_alg».proof.Proof.Gen.Kernel
import proofs.«401610_j38122129719601_1_alg».proof.Proof.Gen.KernelIdeal
import proofs.«401610_j38122129719601_1_alg».proof.Proof.Gen.ReferenceIdeal
import proofs.«401610_j38122129719601_1_alg».proof.Proof.Gen.ReferenceIdeal.Run
import proofs.«401610_j38122129719601_1_alg».proof.Proof.Gen.ReferenceIdeal.Read
import proofs.«401610_j38122129719601_1_alg».proof.Proof.Gen.Pre_finite_inputs
import proofs.«401610_j38122129719601_1_alg».proof.Proof.PreIdx
import proofs.«401610_j38122129719601_1_alg».proof.Proof.RefValue
import proofs.«401610_j38122129719601_1_alg».proof.Proof.KernelFrame
import proofs.«401610_j38122129719601_1_alg».proof.Proof.KernelHypsPre
import proofs.«401610_j38122129719601_1_alg».proof.Proof.KernelIdealFrame
import proofs.«401610_j38122129719601_1_alg».proof.Proof.KernelIdealHypsPre
import proofs.«401610_j38122129719601_1_alg».proof.Proof.KernelIdealValue

noncomputable section

namespace Cert.Proof

open Idealize.ShloMosaic Idealize.SL.Sem

/-- The word-level kernel runs and leaves its arguments unchanged: the precondition bounds every index word, so every
    row copy stays inside its table. -/
theorem frame_k : Cert.frame_Kernel := fun m ρ hpre =>
  Cert.Kernel.Body.frame m ρ (Cert.Kernel.Body.hyps_of_inRange m
    (fun c => (Cert.Proof.PreIdx.inRange_of_pre _ _ _ _ _ _ _ _ (hpre c)).1)
    (fun c => (Cert.Proof.PreIdx.inRange_of_pre _ _ _ _ _ _ _ _ (hpre c)).2))

/-- The idealized kernel likewise. -/
theorem frame_ki : Cert.frame_KernelIdeal := fun m ρ hpre =>
  Cert.KernelIdeal.Body.frame m ρ (Cert.KernelIdeal.Body.hyps_of_inRange m
    (fun c => (Cert.Proof.PreIdx.inRange_of_pre _ _ _ _ _ _ _ _ (hpre c)).1)
    (fun c => (Cert.Proof.PreIdx.inRange_of_pre _ _ _ _ _ _ _ _ (hpre c)).2))

/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at `Spec.G` of the arguments they agree on. -/
theorem algebraic : Cert.algebraic_KernelIdeal_ReferenceIdeal := by
  intro m ρ m' ρ' hpre hagree
  have h2 : ∀ c : Dev Cert.KernelIdeal.nD, Cert.Proof.Spec.InRange (m ((c.tc : Thread Cert.KernelIdeal.nD Cert.KernelIdeal.τ).loc Cert.KernelIdeal.main_arg2)) :=
    fun c => (Cert.Proof.PreIdx.inRange_of_pre _ _ _ _ _ _ _ _ (hpre c)).1
  have h3 : ∀ c : Dev Cert.KernelIdeal.nD, Cert.Proof.Spec.InRange (m ((c.tc : Thread Cert.KernelIdeal.nD Cert.KernelIdeal.τ).loc Cert.KernelIdeal.main_arg3)) :=
    fun c => (Cert.Proof.PreIdx.inRange_of_pre _ _ _ _ _ _ _ _ (hpre c)).2
  refine ⟨_, Cert.KernelIdeal.Body.value_run m ρ h2 h3, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  exact Cert.ReferenceIdeal.RefValue.ref_eq_G _ _ _ _ _ _ _ _ (h2 c) (h3 c)

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
